-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S64 .f32) (main_arg6 : FVec F S64x4 .f32) (main_arg7 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x1 .f32) (main_arg1 : IVec S2x1250000 32) (main_arg2 : FVec F S1x64 .f32) (main_arg3 : FVec F S64 .f32) (main_arg4 : FVec F S64x64 .f32) (main_arg5 : FVec F S64 .f32) (main_arg6 : FVec F S64x4 .f32) (main_arg7 : FVec F S4 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S_ : Shape := ⟨0, ![]⟩
abbrev S1300000x1 : Shape := ⟨2, ![1300000, 1]⟩
abbrev S50000x64 : Shape := ⟨2, ![50000, 64]⟩
abbrev S5000x1 : Shape := ⟨2, ![5000, 1]⟩
abbrev S5000x64 : Shape := ⟨2, ![5000, 64]⟩
abbrev S1300000x64 : Shape := ⟨2, ![1300000, 64]⟩
abbrev S1x4 : Shape := ⟨2, ![1, 4]⟩
abbrev S1 : Shape := ⟨1, ![1]⟩
abbrev S1x1 : Shape := ⟨2, ![1, 1]⟩

abbrev nBuf : Space → Nat
  | .hbm => 86
  | .vmem => 18
  | .smem => 0
  | _ => 0

abbrev bufTy : (tb : Table) → Fin (tcTables nBuf tb) → BufTy
  | .hbm, ⟨0, _⟩ => ⟨S50000x1, .f32⟩
  | .hbm, ⟨1, _⟩ => ⟨S2x1250000, .i32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x4, .f32⟩
  | .hbm, ⟨7, _⟩ => ⟨S4, .f32⟩
  | .hbm, ⟨8, _⟩ => ⟨S50000, .i32⟩
  | .hbm, ⟨9, _⟩ => ⟨S1x1250000, .i32⟩
  | .hbm, ⟨10, _⟩ => ⟨S1250000, .i32⟩
  | .hbm, ⟨11, _⟩ => ⟨S1300000, .i32⟩
  | .hbm, ⟨12, _⟩ => ⟨S1x1250000, .i32⟩
  | .hbm, ⟨13, _⟩ => ⟨S1250000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S50000, .f32⟩
  | .hbm, ⟨19, _⟩ => ⟨S1300000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1300000, .i32⟩
  | .hbm, ⟨31, _⟩ => ⟨S1300000, .i1⟩
  | .hbm, ⟨32, _⟩ => ⟨S_, .i32⟩
  | .hbm, ⟨33, _⟩ => ⟨S1300000, .i32⟩
  | .hbm, ⟨34, _⟩ => ⟨S1300000, .i32⟩
  | .hbm, ⟨35, _⟩ => ⟨S1300000, .i32⟩
  | .hbm, ⟨36, _⟩ => ⟨S1300000x1, .i32⟩
  | .hbm, ⟨37, _⟩ => ⟨S1300000, .f32⟩
  | .hbm, ⟨38, _⟩ => ⟨S_, .i32⟩
  | .hbm, ⟨39, _⟩ => ⟨S1300000, .i32⟩
  | .hbm, ⟨40, _⟩ => ⟨S1300000, .i1⟩
  | .hbm, ⟨41, _⟩ => ⟨S_, .i32⟩
  | .hbm, ⟨42, _⟩ => ⟨S1300000, .i32⟩
  | .hbm, ⟨43, _⟩ => ⟨S1300000, .i32⟩
  | .hbm, ⟨44, _⟩ => ⟨S1300000, .i32⟩
  | .hbm, ⟨45, _⟩ => ⟨S1300000x1, .i32⟩
  | .hbm, ⟨46, _⟩ => ⟨S1300000, .f32⟩
  | .hbm, ⟨47, _⟩ => ⟨S1300000, .f32⟩
  | .hbm, ⟨48, _⟩ => ⟨S50000x64, .f32⟩
  | .hbm, ⟨49, _⟩ => ⟨S1300000x1, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S50000x64, .f32⟩
  | .hbm, ⟨63, _⟩ => ⟨S1300000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S1300000x1, .f32⟩
  | .hbm, ⟨68, _⟩ => ⟨S_, .i32⟩
  | .hbm, ⟨69, _⟩ => ⟨S1300000, .i32⟩
  | .hbm, ⟨70, _⟩ => ⟨S1300000, .i1⟩
  | .hbm, ⟨71, _⟩ => ⟨S_, .i32⟩
  | .hbm, ⟨72, _⟩ => ⟨S1300000, .i32⟩
  | .hbm, ⟨73, _⟩ => ⟨S1300000, .i32⟩
  | .hbm, ⟨74, _⟩ => ⟨S1300000, .i32⟩
  | .hbm, ⟨75, _⟩ => ⟨S1300000x1, .i32⟩
  | .hbm, ⟨76, _⟩ => ⟨S1300000x64, .f32⟩
  | .hbm, ⟨77, _⟩ => ⟨S1300000x64, .f32⟩
  | .hbm, ⟨78, _⟩ => ⟨S1300000x64, .f32⟩
  | .hbm, ⟨79, _⟩ => ⟨S_, .f32⟩
  | .hbm, ⟨80, _⟩ => ⟨S50000x64, .f32⟩
  | .hbm, ⟨81, _⟩ => ⟨S1300000x1, .i32⟩
  | .hbm, ⟨82, _⟩ => ⟨S50000x64, .f32⟩
  | .hbm, ⟨83, _⟩ => ⟨S1x64, .f32⟩
  | .hbm, ⟨84, _⟩ => ⟨S1x4, .f32⟩
  | .hbm, ⟨85, _⟩ => ⟨S1x4, .f32⟩
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x4, .f32⟩
  | .local _ .vmem, ⟨15, _⟩ => ⟨S1x4, .f32⟩
  | .local _ .vmem, ⟨16, _⟩ => ⟨S1x4, .f32⟩
  | .local _ .vmem, ⟨17, _⟩ => ⟨S1x64, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v18 : BitVec 1 := Scalar.cmpi .eq arg0 c9_i32
  let v19 : BitVec 32 := Scalar.extui v18
  let c0_i32_9 : BitVec 32 := 0#32
  let v20 : BitVec 1 := Scalar.cmpi .ne v19 c0_i32_9
  v20

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  inb_S5000x1_S5000x1_0_0 : ∀ a, (![0, 0] : Fin 2 → Nat) a + S5000x1.size a ≤ S5000x1.size a
  h_S5000x1 : 0 < S5000x1.numel
  inb_S1x64_S1x64_0_0 : ∀ a, (![0, 0] : Fin 2 → Nat) a + S1x64.size a ≤ S1x64.size a
  h_S1x64 : 0 < S1x64.numel
  broadcasts_S5000x1_S5000x64 : S5000x1.Broadcasts S5000x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  shapeCasts_S1x64_S1x64 : S1x64.ShapeCasts S1x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S4_S1x4 : S4.ShapeCasts S1x4
  reduces_S5000x64_S64 : S5000x64.Reduces [0] S64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  reduces_S1x4_S1 : S1x4.Reduces [1] S1
  shapeCasts_S1_S1x1 : S1.ShapeCasts S1x1
  broadcasts_S1x1_S1x4 : S1x1.Broadcasts S1x4
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S5000x64_S64x64_S5000x64_1_0_0_1_n_n_wf : DotDims.WF S5000x64 S64x64 S5000x64 [1] [0] [0] [1] [] []
  dot_S1x64_S64x4_S1x4_1_0_0_1_n_n_wf : DotDims.WF S1x64 S64x4 S1x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .f32 = 32 ∨ (Rect.block (s := S50000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x4.size a ≤ S64x4.size a
  hwx2_2 : ∀ i : grid2.Coords, EltTy.bits .f32 = 32 ∨ (Rect.block (s := S64x4) S64x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4.size a ≤ S1x4.size a
  hwx2_4 : ∀ i : grid2.Coords, EltTy.bits .f32 = 32 ∨ (Rect.block (s := S1x4) S1x4.size (cc2_transform_4 i) (hinb2_4 i)).WholeWords (EltTy.packing .f32)

variable [Facts₀]

def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x4.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S50000x1 : Shape := ⟨2, ![50000, 1]⟩
abbrev S2x1250000 : Shape := ⟨2, ![2, 1250000]⟩
abbrev S1x64 : Shape := ⟨2, ![1, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S50000 : Shape := ⟨1, ![50000]⟩
abbrev S1x1250000 : Shape := ⟨2, ![1, 1250000]⟩
abbrev S1250000 : Shape := ⟨1, ![1250000]⟩
abbrev S1300000 : Shape := ⟨1, ![1300000]⟩
abbrev S50000x64 : Shape := ⟨2, ![50000, 64]⟩
abbrev S_ : Shape := ⟨0, ![]⟩
abbrev S1300000x1 : Shape := ⟨2, ![1300000, 1]⟩
abbrev S1300000x64 : Shape := ⟨2, ![1300000, 64]⟩
abbrev S1x4 : Shape := ⟨2, ![1, 4]⟩
abbrev S1 : Shape := ⟨1, ![1]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x1, .f32⟩
  | 1 => ⟨S2x1250000, .i32⟩
  | 2 => ⟨S1x64, .f32⟩
  | 3 => ⟨S64, .f32⟩
  | 4 => ⟨S64x64, .f32⟩
  | 5 => ⟨S64, .f32⟩
  | 6 => ⟨S64x4, .f32⟩
  | 7 => ⟨S4, .f32⟩
  | 8 => ⟨S50000, .i32⟩
  | 9 => ⟨S1x1250000, .i32⟩
  | 10 => ⟨S1250000, .i32⟩
  | 11 => ⟨S1300000, .i32⟩
  | 12 => ⟨S1x1250000, .i32⟩
  | 13 => ⟨S1250000, .i32⟩
  | 14 => ⟨S1300000, .i32⟩
  | 15 => ⟨S50000x64, .f32⟩
  | 16 => ⟨S_, .f32⟩
  | 17 => ⟨S1300000, .f32⟩
  | 18 => ⟨S_, .f32⟩
  | 19 => ⟨S50000, .f32⟩
  | 20 => ⟨S1300000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1300000, .i32⟩
  | 32 => ⟨S1300000, .i1⟩
  | 33 => ⟨S_, .i32⟩
  | 34 => ⟨S1300000, .i32⟩
  | 35 => ⟨S1300000, .i32⟩
  | 36 => ⟨S1300000, .i32⟩
  | 37 => ⟨S1300000x1, .i32⟩
  | 38 => ⟨S1300000, .f32⟩
  | 39 => ⟨S_, .i32⟩
  | 40 => ⟨S1300000, .i32⟩
  | 41 => ⟨S1300000, .i1⟩
  | 42 => ⟨S_, .i32⟩
  | 43 => ⟨S1300000, .i32⟩
  | 44 => ⟨S1300000, .i32⟩
  | 45 => ⟨S1300000, .i32⟩
  | 46 => ⟨S1300000x1, .i32⟩
  | 47 => ⟨S1300000, .f32⟩
  | 48 => ⟨S1300000, .f32⟩
  | 49 => ⟨S1300000x1, .f32⟩
  | 50 => ⟨S_, .i32⟩
  | 51 => ⟨S1300000, .i32⟩
  | 52 => ⟨S1300000, .i1⟩
  | 53 => ⟨S_, .i32⟩
  | 54 => ⟨S1300000, .i32⟩
  | 55 => ⟨S1300000, .i32⟩
  | 56 => ⟨S1300000, .i32⟩
  | 57 => ⟨S1300000x1, .i32⟩
  | 58 => ⟨S1300000x64, .f32⟩
  | 59 => ⟨S1300000x64, .f32⟩
  | 60 => ⟨S1300000x64, .f32⟩
  | 61 => ⟨S_, .f32⟩
  | 62 => ⟨S50000x64, .f32⟩
  | 63 => ⟨S1300000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .f32⟩
  | 73 => ⟨S1300000, .f32⟩
  | 74 => ⟨S_, .f32⟩
  | 75 => ⟨S50000, .f32⟩
  | 76 => ⟨S1300000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S1300000, .i32⟩
  | 88 => ⟨S1300000, .i1⟩
  | 89 => ⟨S_, .i32⟩
  | 90 => ⟨S1300000, .i32⟩
  | 91 => ⟨S1300000, .i32⟩
  | 92 => ⟨S1300000, .i32⟩
  | 93 => ⟨S1300000x1, .i32⟩
  | 94 => ⟨S1300000, .f32⟩
  | 95 => ⟨S_, .i32⟩
  | 96 => ⟨S1300000, .i32⟩
  | 97 => ⟨S1300000, .i1⟩
  | 98 => ⟨S_, .i32⟩
  | 99 => ⟨S1300000, .i32⟩
  | 100 => ⟨S1300000, .i32⟩
  | 101 => ⟨S1300000, .i32⟩
  | 102 => ⟨S1300000x1, .i32⟩
  | 103 => ⟨S1300000, .f32⟩
  | 104 => ⟨S1300000, .f32⟩
  | 105 => ⟨S1300000x1, .f32⟩
  | 106 => ⟨S_, .i32⟩
  | 107 => ⟨S1300000, .i32⟩
  | 108 => ⟨S1300000, .i1⟩
  | 109 => ⟨S_, .i32⟩
  | 110 => ⟨S1300000, .i32⟩
  | 111 => ⟨S1300000, .i32⟩
  | 112 => ⟨S1300000, .i32⟩
  | 113 => ⟨S1300000x1, .i32⟩
  | 114 => ⟨S1300000x64, .f32⟩
  | 115 => ⟨S1300000x64, .f32⟩
  | 116 => ⟨S1300000x64, .f32⟩
  | 117 => ⟨S_, .f32⟩
  | 118 => ⟨S50000x64, .f32⟩
  | 119 => ⟨S1300000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x1, .f32⟩

abbrev hbmTy0_1 (i : Nat) : BufTy := match i % 128 with
  | 0 => ⟨S64, .f32⟩
  | 1 => ⟨S1x64, .f32⟩
  | 2 => ⟨S_, .f32⟩
  | 3 => ⟨S1x64, .f32⟩
  | 4 => ⟨S1x64, .f32⟩
  | 5 => ⟨S1x4, .f32⟩
  | 6 => ⟨S1x4, .f32⟩
  | 7 => ⟨S1x4, .f32⟩
  | 8 => ⟨S_, .f32⟩
  | 9 => ⟨S1, .f32⟩
  | 10 => ⟨S_, .f32⟩
  | 11 => ⟨S1, .f32⟩
  | 12 => ⟨S1, .f32⟩
  | 13 => ⟨S1x1, .f32⟩
  | 14 => ⟨S1x4, .f32⟩
  | 15 => ⟨S1x4, .f32⟩
  | 16 => ⟨S1x4, .f32⟩
  | 17 => ⟨S_, .f32⟩
  | 18 => ⟨S1, .f32⟩
  | 19 => ⟨S1x1, .f32⟩
  | 20 => ⟨S1x1, .f32⟩
  | 21 => ⟨S1x4, .f32⟩
  | 22 => ⟨S1x4, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call4_cst : Ref sig .tc := ⟨.hbm, 136, rfl⟩
abbrev main_call4_v0 : Ref sig .tc := ⟨.hbm, 137, rfl⟩
abbrev main_call4_cst_0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_v6 : Ref sig .tc := ⟨.hbm, 144, rfl⟩
abbrev main_call4_cst_1 : Ref sig .tc := ⟨.hbm, 145, rfl⟩
abbrev main_call4_v7 : Ref sig .tc := ⟨.hbm, 146, rfl⟩
abbrev main_call4_v8 : Ref sig .tc := ⟨.hbm, 147, rfl⟩
abbrev main_call4_v9 : Ref sig .tc := ⟨.hbm, 148, rfl⟩
abbrev main_call4_v10 : Ref sig .tc := ⟨.hbm, 149, rfl⟩
abbrev main_v96 : Ref sig .tc := ⟨.hbm, 150, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S50000_S1300000_d0 : Shape.Concatenates [S1250000, S50000] S1300000 0
  slices_S2x1250000_S1x1250000_1_0 : S2x1250000.Slices ![1, 0] S1x1250000
  bcast_S_S1300000 : S_.BroadcastsInDim S1300000 (![] : Fin 0 → Fin S1300000.rank)
  bcast_S_S50000 : S_.BroadcastsInDim S50000 (![] : Fin 0 → Fin S50000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S1x64 : S_.BroadcastsInDim S1x64 (![] : Fin 0 → Fin S1x64.rank)
  bcast_S4_S1x4_1 : S4.BroadcastsInDim S1x4 (![1] : Fin 1 → Fin S1x4.rank)
  reducesTo_S1x4_S1_d1 : S1x4.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x4_0_1 : S1x1.BroadcastsInDim S1x4 (![0, 1] : Fin 2 → Fin S1x4.rank)
  dot_S50000x1_S1x64_S50000x64_1_0_0_1_n_n_wf : DotDims.WF S50000x1 S1x64 S50000x64 [1] [0] [0] [1] [] []
  scatter_S50000_S1300000x1_S1300000_n_0_0_1_wf : ScatterDims.WF S50000 S1300000x1 S1300000 [] [0] [0] 1
  gather_S50000_S1300000x1_S1300000_n_0_n_n_0_1_1_wf : GatherDims.WF S50000 S1300000x1 S1300000 [] [0] [] [0] [] 1 ![1]
  gather_S50000x64_S1300000x1_S1300000x64_1_0_n_n_0_1_164_wf : GatherDims.WF S50000x64 S1300000x1 S1300000x64 [1] [0] [] [0] [] 1 ![1, 64]
  scatter_S50000x64_S1300000x1_S1300000x64_1_0_0_1_wf : ScatterDims.WF S50000x64 S1300000x1 S1300000x64 [1] [0] [0] 1
  dot_S50000x64_S64x64_S50000x64_1_0_0_1_n_n_wf : DotDims.WF S50000x64 S64x64 S50000x64 [1] [0] [0] [1] [] []
  dot_S1x64_S64x4_S1x4_1_0_0_1_n_n_wf : DotDims.WF S1x64 S64x4 S1x4 [1] [0] [0] [1] [] []

variable [Facts₀]

def dot_S50000x1_S1x64_S50000x64_1_0_0_1_n_n : DotDims S50000x1 S1x64 S50000x64 where
  lhsContracting := [1]
  rhsContracting := [0]
  lhsNonContracting := [0]
  rhsNonContracting := [1]
  lhsBatch := []
  rhsBatch := []
  wf := dot_S50000x1_S1x64_S50000x64_1_0_0_1_n_n_wf
def scatter_S50000_S1300000x1_S1300000_n_0_0_1 : ScatterDims S50000 S1300000x1 S1300000 where
  updateWindowDims := []
  insertedWindowDims := [0]
  scatterDimsToOperandDims := [0]
  indexVectorDim := 1
  wf := scatter_S50000_S1300000x1_S1300000_n_0_0_1_wf
def gather_S50000_S1300000x1_S1300000_n_0_n_n_0_1_1 : GatherDims S50000 S1300000x1 S1300000 where
  offsetDims := []
  collapsedSliceDims := [0]
  operandBatchingDims := []
  startIndicesBatchingDims := []
  startIndexMap := [0]
  indexVectorDim := 1
  sliceSizes := ![1]
  wf := gather_S50000_S1300000x1_S1300000_n_0_n_n_0_1_1_wf
def gather_S50000x64_S1300000x1_S1300000x64_1_0_n_n_0_1_164 : GatherDims S50000x64 S1300000x1 S1300000x64 where
  offsetDims := [1]
  collapsedSliceDims := [0]
  operandBatchingDims := []
  startIndicesBatchingDims := []
  startIndexMap := [0]
  indexVectorDim := 1
  sliceSizes := ![1, 64]
  wf := gather_S50000x64_S1300000x1_S1300000x64_1_0_n_n_0_1_164_wf
def scatter_S50000x64_S1300000x1_S1300000x64_1_0_0_1 : ScatterDims S50000x64 S1300000x1 S1300000x64 where
  updateWindowDims := [1]
  insertedWindowDims := [0]
  scatterDimsToOperandDims := [0]
  indexVectorDim := 1
  wf := scatter_S50000x64_S1300000x1_S1300000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S1x64_S64x4_S1x4_1_0_0_1_n_n : DotDims S1x64 S64x4 S1x4 where
  lhsContracting := [1]
  rhsContracting := [0]
  lhsNonContracting := [0]
  rhsNonContracting := [1]
  lhsBatch := []
  rhsBatch := []
  wf := dot_S1x64_S64x4_S1x4_1_0_0_1_n_n_wf

class Facts : Prop extends Facts₀ where

variable [Facts]
-- ==== Proof.KB.Reg0.lean ====
/-
  The first pallas_call (the broadcast product x · W1, ten row blocks of 5000), at an arbitrary
  valuation `V` of the TensorCore's buffers at the region's entry: what each window's block is,
  what the body leaves in the output window's staging buffer (one whole-block store of the product
  of the two input blocks), the body's triple, and the pipeline's proof data with its body
  obligation. Generic in the float instance.
-/
import proofs.«127257_j88399016886916_1_alg».proof.Proof.Gen.Kernel.Launch
import proofs.«127257_j88399016886916_1_alg».proof.Proof.Gen.Kernel.Skeleton
import proofs.«127257_j88399016886916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column of x: its staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row W1 (one block for the whole grid, fetched once): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x1 := Rect.unit (s := S5000x1) ![0, 0] S5000x1.size inb_S5000x1_S5000x1_0_0
abbrev r0_1 : Rect S1x64 := Rect.unit (s := S1x64) ![0, 0] S1x64.size inb_S1x64_S1x64_0_0
abbrev r0_2 : Rect S5000x64 := Rect.unit (s := S5000x64) ![0, 0] S5000x64.size inb_S5000x64_S5000x64_0_0

/-- The output block after the body: the one whole-block store of the product. -/
def out0_2 (x0 : Vec F S5000x1 .f32) (x1 : Vec F S1x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging buffers: the inputs are read and handed back, the output buffer ends at `out0_2`. -/
theorem sound_kernel0 (c : Dev nD) (E : Set ℕ) (i : grid0.Coords) (arg1 : Memref sig .tc .vmem S5000x1 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear1_kernel i arg1 harg1 arg2 harg2 arg3 harg3) K := by
  simp only [cc0__linear1_kernel_eq_skeleton]; unfold cc0__linear1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  The second pallas_call (relu(h + b1) · W2 on ten row blocks of 5000), at an arbitrary valuation
  `V` of the TensorCore's buffers at the region's entry: each window's block, what the body leaves
  in the output window's staging buffer (one whole-block store of the matrix product of the
  rectified, shifted input block with the resident weight block), the body's triple, and the
  pipeline's proof data with its body obligation. Generic in the float instance.
-/
import proofs.«127257_j88399016886916_1_alg».proof.Proof.Gen.Kernel.Launch
import proofs.«127257_j88399016886916_1_alg».proof.Proof.Gen.Kernel.Skeleton
import proofs.«127257_j88399016886916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated features' row block: its staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row (resident for the whole grid): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (resident for the whole grid): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-- The output block after the body: the one whole-block store of the product. -/
def out1_3 (x0 : Vec F S5000x64 .f32) (x1 : Vec F S1x64 .f32) (x2 : Vec F S64x64 .f32) : Vec F S5000x64 .f32 :=
  View.canon [⟨r1_0, k1_pay1 (View.ld x0 r1_0) (View.ld x1 r1_1) (View.ld x2 r1_2)⟩]

theorem cover1_3 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
/-- The body on whole staging buffers: the inputs are read and handed back, the output buffer ends at `out1_3`. -/
theorem sound_kernel1 (c : Dev nD) (E : Set ℕ) (i : grid1.Coords) (arg1 : Memref sig .tc .vmem S5000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S5000x64 .f32) (harg4 : arg4.IsWhole)
    (x0 : Vec F S5000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_matmul_kernel i arg1 harg1 arg2 harg2 arg3 harg3 arg4 harg4) K := by
  simp only [cc1__relu_matmul_kernel_eq_skeleton]; unfold cc1__relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2Runs.lean ====
/-
  The third pallas_call (column sums of relu(h + b2) accumulated over ten row blocks in a scratch
  row, then at the last block the mean, the final linear map and the log-softmax): the body's two
  branch conditions decided over the grid, where the output window is idle, and the body's triple
  in each of the three control cases the grid meets (first block: the scratch is reset, then
  accumulated into; middle blocks: accumulated into; last block: accumulated into, then read for
  the result). In each case the pieces the body's stores leave in the scratch (and, in the last
  case, in the output block) are the run's own record. Generic in the float instance.
-/
import proofs.«127257_j88399016886916_1_alg».proof.Proof.Gen.Kernel.Launch
import proofs.«127257_j88399016886916_1_alg».proof.Proof.Gen.Kernel.Skeleton
import proofs.«127257_j88399016886916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (is this the first row block?), from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional's condition (is this the last row block?). -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the last-block condition fails the output window is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- One staging buffer of the output window, through which its contents are stated. -/
abbrev VO2_4 : View sig .tc .vmem S1x4 .f32 := (Memref.whole cc2_stg4_0 : Memref sig .tc .vmem S1x4 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x4 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4 .f32 := win2_4.stage (cfg2.slots t 4)
abbrev hs2_4 (t : Fin cfg2.N) : (ms2_4 t).IsWhole := hstage2_4 ((cfg2.slots t 4).cast nbuf2_4)
/-- The scratch row the kernel carries between grid points. -/
abbrev scM2_0 : Memref sig .tc .vmem S1x64 .f32 := Memref.whole cc2_scratch0
abbrev VS2_0 : View sig .tc .vmem S1x64 .f32 := scM2_0.view

/-- The scoped buffers of the other two pipelines (this region touches none of them), each whole at some contents, around
    what is said of the scratch row `S`. -/
def around2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S)

/-- The class invariant with the scratch row as a memref owned at some contents. -/
theorem PhiA2_eq (c : Dev nD) :
    (Pipeline.ΦA spec2 c : sProp 𝕄)
      = iprop(around2 c iprop(∃ d, owns (c : Thread nD τ) scM2_0 fullShare d) ∗ (∃ r, prngReg c r)) := by
  unfold Pipeline.ΦA around2; rw [scopedRest2_eq]; simp only [scM2_0, owns_whole]; try rfl

set_option maxHeartbeats 4000000 in
/-- First row block: the scratch (at anything) is zeroed, then the block's column sums are added; the output block is handed back untouched. -/
noncomputable def kernelRun2_A (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) :
    Σ' (L4 : List (View.Piece (Elt F) S1x4 .f32)), { LS0 : List (View.Piece (Elt F) S1x64 .f32) //
      ∀ (xi4 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨[], ?_, fun xi4 E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- A middle row block: the block's column sums are added to what the scratch held; the output block is handed back untouched. -/
noncomputable def kernelRun2_B (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) :
    Σ' (L4 : List (View.Piece (Elt F) S1x4 .f32)), { LS0 : List (View.Piece (Elt F) S1x64 .f32) //
      ∀ (xi4 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨[], ?_, fun xi4 E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- The last row block: the block's column sums are added to what the scratch held, and the result row is computed from the scratch and stored into the output block. -/
noncomputable def kernelRun2_C (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) :
    Σ' (L4 : List (View.Piece (Elt F) S1x4 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨?_, ?_, fun E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.KB.Reg2.lean ====
/-
  The third pallas_call's proof data. What the scratch row and the output block hold after each
  grid point is defined by recursion on the point: at the first row block the scratch is reset and
  the block's column sums added; at every later block the column sums are added to what the block
  before left; at the last block the result row is computed from the scratch and stored. The
  region's invariant carries the scratch row at exactly that content from one point to the next.
  The body obligation is the case split on the two conditions, each case the body's run.
  Generic in the float instance.
-/
import proofs.«127257_j88399016886916_1_alg».proof.Proof.KB.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregated features' row block: its staging buffer holds the point's block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row (resident): its staging buffer holds the point's block, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The final weight matrix (resident): its staging buffer holds the point's block, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The final bias row (resident): its staging buffer holds the point's block, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What case A leaves in the output block's staging buffer: its pieces read back (none: a placeholder nothing consults, the window being idle there). -/
def out2_A_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) : Vec F S1x4 .f32 :=
  VO2_4.read (Elt F) (VO2_4.writes (Elt F) VO2_4.junk (kernelRun2_A c i arg1 harg1 arg2 harg2 arg3 harg3 arg4 harg4 arg5 harg5 arg6 harg6 hc0 hc1 x0 x1 x2 x3).1)

/-- Case A's pieces for the scratch row cover it. -/
theorem scover2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) (y : S1x64.Idx) :
    ∃ pc ∈ (kernelRun2_A c i arg1 harg1 arg2 harg2 arg3 harg3 arg4 harg4 arg5 harg5 arg6 harg6 hc0 hc1 x0 x1 x2 x3).2.1, y ∈ pc.1.set :=
  View.cover_of_tiledL (kernelRun2_A c i arg1 harg1 arg2 harg2 arg3 harg3 arg4 harg4 arg5 harg5 arg6 harg6 hc0 hc1 x0 x1 x2 x3).2.1 S1x64.size (by sl_kernel_rfl) y

/-- What case A leaves in the scratch row: its pieces read back. -/
def sout2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) : Vec F S1x64 .f32 :=
  VS2_0.read (Elt F) (VS2_0.writes (Elt F) VS2_0.junk (kernelRun2_A c i arg1 harg1 arg2 harg2 arg3 harg3 arg4 harg4 arg5 harg5 arg6 harg6 hc0 hc1 x0 x1 x2 x3).2.1)

/-- What case B leaves in the output block's staging buffer: its pieces read back (none: a placeholder nothing consults, the window being idle there). -/
def out2_B_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) : Vec F S1x4 .f32 :=
  VO2_4.read (Elt F) (VO2_4.writes (Elt F) VO2_4.junk (kernelRun2_B c i arg1 harg1 arg2 harg2 arg3 harg3 arg4 harg4 arg5 harg5 arg6 harg6 hc0 hc1 x0 x1 x2 x3 xs0).1)

/-- Case B's pieces for the scratch row cover it. -/
theorem scover2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) (y : S1x64.Idx) :
    ∃ pc ∈ (kernelRun2_B c i arg1 harg1 arg2 harg2 arg3 harg3 arg4 harg4 arg5 harg5 arg6 harg6 hc0 hc1 x0 x1 x2 x3 xs0).2.1, y ∈ pc.1.set :=
  View.cover_of_tiledL (kernelRun2_B c i arg1 harg1 arg2 harg2 arg3 harg3 arg4 harg4 arg5 harg5 arg6 harg6 hc0 hc1 x0 x1 x2 x3 xs0).2.1 S1x64.size (by sl_kernel_rfl) y

/-- What case B leaves in the scratch row: its pieces read back. -/
def sout2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 hc0 hc1 x0 x1 x2 x3 xs0).2.1)

/-- What case C leaves in the output block's staging buffer: its pieces read back. -/
def out2_C_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) : Vec F S1x4 .f32 :=
  VO2_4.read (Elt F) (VO2_4.writes (Elt F) VO2_4.junk (kernelRun2_C c i arg1 harg1 arg2 harg2 arg3 harg3 arg4 harg4 arg5 harg5 arg6 harg6 hc0 hc1 x0 x1 x2 x3 xs0).1)

/-- Case C's pieces for the scratch row cover it. -/
theorem scover2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) (y : S1x64.Idx) :
    ∃ pc ∈ (kernelRun2_C c i arg1 harg1 arg2 harg2 arg3 harg3 arg4 harg4 arg5 harg5 arg6 harg6 hc0 hc1 x0 x1 x2 x3 xs0).2.1, y ∈ pc.1.set :=
  View.cover_of_tiledL (kernelRun2_C c i arg1 harg1 arg2 harg2 arg3 harg3 arg4 harg4 arg5 harg5 arg6 harg6 hc0 hc1 x0 x1 x2 x3 xs0).2.1 S1x64.size (by sl_kernel_rfl) y

/-- What case C leaves in the scratch row: its pieces read back. -/
def sout2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 hc0 hc1 x0 x1 x2 x3 xs0).2.1)

/-- Case C's one store covers the output block. -/
theorem cover2_C_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) (y : S1x4.Idx) :
    ∃ pc ∈ (kernelRun2_C c i arg1 harg1 arg2 harg2 arg3 harg3 arg4 harg4 arg5 harg5 arg6 harg6 hc0 hc1 x0 x1 x2 x3 xs0).1, y ∈ pc.1.set :=
  View.cover_of_tiledL (kernelRun2_C c i arg1 harg1 arg2 harg2 arg3 harg3 arg4 harg4 arg5 harg5 arg6 harg6 hc0 hc1 x0 x1 x2 x3 xs0).1 S1x4.size (by sl_kernel_rfl) y

/-- THE ACCUMULATION: the output block's staging buffer and the scratch row after the body at point `n`. -/
def outsAt2 (c : Dev nD) : (n : ℕ) → n < cfg2.N → Vec F S1x4 .f32 × Vec F S1x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 10 = 0 then
      False.elim (by have hN : n + 1 < 10 := lt_of_lt_of_eq hn (show cfg2.N = 10 from N_2); omega)
    else
      if h1 : (n + 1) % 10 = 9 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At the first row block: the reset case. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; have hN : n + 1 < 10 := lt_of_lt_of_eq hn (show cfg2.N = 10 from N_2); (try dsimp only at h0); omega)

/-- At a middle row block: over what the block before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last row block: over what the block before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the scratch at anything); afterwards the
    scratch row at what the point before left in it. -/
def PhiS (c : Dev nD) : (n : ℕ) → n ≤ cfg2.N → sProp 𝕄
  | 0, _ => Pipeline.ΦA spec2 c
  | n + 1, hn => iprop(around2 c (owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(around2 c (owns (c : Thread nD τ) scM2_0 fullShare ((outsAt2 V c n hn).2)) ∗ (∃ r, prngReg c r)) := rfl

theorem PhiS_pos (c : Dev nD) (n : ℕ) (h : n ≤ cfg2.N) (hz : n ≠ 0) :
    PhiS V c n h = iprop(around2 c (owns (c : Thread nD τ) scM2_0 fullShare ((outsAt2 V c (n - 1) (by omega)).2)) ∗ (∃ r, prngReg c r)) := by
  cases n with
  | zero => exact absurd rfl hz
  | succ n => rfl

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the closed forms say which case the point is in; the invariant hands the body the scratch row at what
    the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 10 := lt_of_lt_of_eq t.isLt (show cfg2.N = 10 from N_2)
  by_cases h0 : t.val % 10 = 0
  · have h1 : ¬t.val % 10 = 9 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    rw [PhiS_castSucc V c t, PhiS_zero V c _ _ hz, PhiA2_eq]
    unfold around2
    iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Ha0 Ha1 Ha2 Ha3 Ha4 Ha5 Ha6 Ha7 Ha8 Ha9 Ha10 HS0 Hg]
    · isplitl [Ha0 Ha1 Ha2 Ha3 Ha4 Ha5 Ha6 Ha7 Ha8 Ha9 Ha10 HS0]
      · isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        isplitl [Ha8]; · iexact Ha8
        isplitl [Ha9]; · iexact Ha9
        isplitl [Ha10]; · iexact Ha10
        unfold owns; iexists _; isplitr
        swap; · iexact HS0
        ipureintro; exact View.read_writes_of_cover _ _ _ _ _ (scover2_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      rw [PhiS_castSucc V c t, PhiS_pos V c _ _ hz]
      unfold around2
      iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha0 Ha1 Ha2 Ha3 Ha4 Ha5 Ha6 Ha7 Ha8 Ha9 Ha10 HS0 Hg]
      · isplitl [Ha0 Ha1 Ha2 Ha3 Ha4 Ha5 Ha6 Ha7 Ha8 Ha9 Ha10 HS0]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [Ha10]; · iexact Ha10
          unfold owns; iexists _; isplitr
          swap; · iexact HS0
          ipureintro; exact View.read_writes_of_cover _ _ _ _ _ (scover2_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      rw [PhiS_castSucc V c t, PhiS_pos V c _ _ hz]
      unfold around2
      iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha0 Ha1 Ha2 Ha3 Ha4 Ha5 Ha6 Ha7 Ha8 Ha9 Ha10 HS0 Hg]
      · isplitl [Ha0 Ha1 Ha2 Ha3 Ha4 Ha5 Ha6 Ha7 Ha8 Ha9 Ha10 HS0]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [Ha10]; · iexact Ha10
          unfold owns; iexists _; isplitr
          swap; · iexact HS0
          ipureintro; exact View.read_writes_of_cover _ _ _ _ _ (scover2_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class's back: the scratch row's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS V c (Fin.last cfg2.N).val (Nat.le_of_lt_succ (Fin.last cfg2.N).isLt) from rfl, PhiS_pos V c _ _ ht, PhiA2_eq]
  unfold around2
  iintro ⟨⟨Ha0, Ha1, Ha2, Ha3, Ha4, Ha5, Ha6, Ha7, Ha8, Ha9, Ha10, HS0⟩, Hg⟩
  isplitl [Ha0 Ha1 Ha2 Ha3 Ha4 Ha5 Ha6 Ha7 Ha8 Ha9 Ha10 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    iexists _; iexact HS0
  iexact Hg

end Cert.Kernel.Hand

end
-- ==== Proof.KB.Fold.lean ====
/-
  The contents of the TensorCore's unscoped buffers at every boundary between two items of @main:
  the launch memory, then each stretch of host operations applied in order, and after each of the
  three pallas_calls its arrays at what the pipeline's write-backs leave (every other buffer as the
  region found it). Each argument array, which no host operation and no region writes, is read
  back through this fold to its launch contents. Generic in the float instance.
-/
import proofs.«127257_j88399016886916_1_alg».proof.Proof.KB.Reg0
import proofs.«127257_j88399016886916_1_alg».proof.Proof.KB.Reg1
import proofs.«127257_j88399016886916_1_alg».proof.Proof.KB.Reg2
import proofs.«127257_j88399016886916_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The buffers when the first pallas_call is entered (after the three leading host stretches), read at the TensorCore's references. -/
abbrev Xr3 : (c : Dev nD) → (b : Ref sig .tc) → Buf (Elt F) ((c : Thread nD τ).loc b) := fun c b => V3 m c b

/-- After the first pallas_call: its arrays at what its write-backs leave. -/
def X4 (c : Dev nD) : Valuation τ sig (Elt F) :=
  Pipeline.withArrays spec0 c (V3 m c) fun w => (dat0 (Xr3 m) c).arrAt w cfg0.N
theorem X4_arr (c : Dev nD) (w : Fin cfg0.W) :
    X4 m c (Proc.devRef .tc (Pipeline.arrRef spec0 w)) = (dat0 (Xr3 m) c).arrAt w cfg0.N := by
  unfold X4; exact Pipeline.withArrays_arr spec0 launch0.win.arr_inj c _ _ w
theorem X4_of_ne (c : Dev nD) (b : Ref sig .tc) (hb : ∀ w, Pipeline.arrRef spec0 w ≠ b) :
    X4 m c (Proc.devRef .tc b) = V3 m c (Proc.devRef .tc b) := by
  unfold X4; exact Pipeline.withArrays_of_ne spec0 c _ _ b hb
abbrev Xr4 : (c : Dev nD) → (b : Ref sig .tc) → Buf (Elt F) ((c : Thread nD τ).loc b) := fun c b => X4 m c b
theorem hF0 (c : Dev nD) (w : Fin cfg0.W) : (dat0 (Xr3 m) c).arrAt w cfg0.N = Xr4 m c (Pipeline.arrRef spec0 w) :=
  (X4_arr m c w).symm
theorem hrest0 (c : Dev nD) : ∀ b, b ∉ Finset.univ.image (Pipeline.arrRef spec0) → Xr4 m c b = Xr3 m c b :=
  fun b hb => X4_of_ne m c b fun w e => hb (Finset.mem_image.mpr ⟨w, Finset.mem_univ _, e⟩)

/-- After the host stretch between the first and the second pallas_call. -/
abbrev X5 : Dev nD → Valuation τ sig (Elt F) := fun c => StableHlo.after hostOps1 (X4 m c)
abbrev Xr5 : (c : Dev nD) → (b : Ref sig .tc) → Buf (Elt F) ((c : Thread nD τ).loc b) := fun c b => X5 m c b

/-- After the second pallas_call. -/
def X6 (c : Dev nD) : Valuation τ sig (Elt F) :=
  Pipeline.withArrays spec1 c (X5 m c) fun w => (dat1 (Xr5 m) c).arrAt w cfg1.N
theorem X6_arr (c : Dev nD) (w : Fin cfg1.W) :
    X6 m c (Proc.devRef .tc (Pipeline.arrRef spec1 w)) = (dat1 (Xr5 m) c).arrAt w cfg1.N := by
  unfold X6; exact Pipeline.withArrays_arr spec1 launch1.win.arr_inj c _ _ w
theorem X6_of_ne (c : Dev nD) (b : Ref sig .tc) (hb : ∀ w, Pipeline.arrRef spec1 w ≠ b) :
    X6 m c (Proc.devRef .tc b) = X5 m c (Proc.devRef .tc b) := by
  unfold X6; exact Pipeline.withArrays_of_ne spec1 c _ _ b hb
abbrev Xr6 : (c : Dev nD) → (b : Ref sig .tc) → Buf (Elt F) ((c : Thread nD τ).loc b) := fun c b => X6 m c b
theorem hF1 (c : Dev nD) (w : Fin cfg1.W) : (dat1 (Xr5 m) c).arrAt w cfg1.N = Xr6 m c (Pipeline.arrRef spec1 w) :=
  (X6_arr m c w).symm
theorem hrest1 (c : Dev nD) : ∀ b, b ∉ Finset.univ.image (Pipeline.arrRef spec1) → Xr6 m c b = Xr5 m c b :=
  fun b hb => X6_of_ne m c b fun w e => hb (Finset.mem_image.mpr ⟨w, Finset.mem_univ _, e⟩)

/-- After the host stretch between the second and the third pallas_call. -/
abbrev X7 : Dev nD → Valuation τ sig (Elt F) := fun c => StableHlo.after hostOps2 (X6 m c)
abbrev Xr7 : (c : Dev nD) → (b : Ref sig .tc) → Buf (Elt F) ((c : Thread nD τ).loc b) := fun c b => X7 m c b

/-- After the third pallas_call: the end of @main. -/
def X8 (c : Dev nD) : Valuation τ sig (Elt F) :=
  Pipeline.withArrays spec2 c (X7 m c) fun w => (dat2 (Xr7 m) c).arrAt w cfg2.N
theorem X8_arr (c : Dev nD) (w : Fin cfg2.W) :
    X8 m c (Proc.devRef .tc (Pipeline.arrRef spec2 w)) = (dat2 (Xr7 m) c).arrAt w cfg2.N := by
  unfold X8; exact Pipeline.withArrays_arr spec2 launch2.win.arr_inj c _ _ w
theorem X8_of_ne (c : Dev nD) (b : Ref sig .tc) (hb : ∀ w, Pipeline.arrRef spec2 w ≠ b) :
    X8 m c (Proc.devRef .tc b) = X7 m c (Proc.devRef .tc b) := by
  unfold X8; exact Pipeline.withArrays_of_ne spec2 c _ _ b hb
abbrev Xr8 : (c : Dev nD) → (b : Ref sig .tc) → Buf (Elt F) ((c : Thread nD τ).loc b) := fun c b => X8 m c b
theorem hF2 (c : Dev nD) (w : Fin cfg2.W) : (dat2 (Xr7 m) c).arrAt w cfg2.N = Xr8 m c (Pipeline.arrRef spec2 w) :=
  (X8_arr m c w).symm
theorem hrest2 (c : Dev nD) : ∀ b, b ∉ Finset.univ.image (Pipeline.arrRef spec2) → Xr8 m c b = Xr7 m c b :=
  fun b hb => X8_of_ne m c b fun w e => hb (Finset.mem_image.mpr ⟨w, Finset.mem_univ _, e⟩)

/-- A buffer no operation of the second inner host stretch writes is unchanged across it. -/
theorem X5_of (c : Dev nD) (r : Ref sig .tc) (h : r ∉ hostOps1_W) : X5 m c r = X4 m c r :=
  StableHlo.after_of_writes_sub hostOps1 _ hostOps1_writes h
theorem X7_of (c : Dev nD) (r : Ref sig .tc) (h : r ∉ hostOps2_W) : X7 m c r = X6 m c r :=
  StableHlo.after_of_writes_sub hostOps2 _ hostOps2_writes h

/-- An INPUT array of a pallas_call is handed back as the region found it. -/
theorem X4_in (c : Dev nD) (w : Fin cfg0.W) (hw : (cfg0.win w).isOut = false) :
    X4 m c (Proc.devRef .tc (Pipeline.arrRef spec0 w)) = V3 m c (Proc.devRef .tc (Pipeline.arrRef spec0 w)) :=
  (X4_arr m c w).trans (((dat0 (Xr3 m) c).arrAt_in w hw _).trans (A_eq0 (Xr3 m) c w))
theorem X6_in (c : Dev nD) (w : Fin cfg1.W) (hw : (cfg1.win w).isOut = false) :
    X6 m c (Proc.devRef .tc (Pipeline.arrRef spec1 w)) = X5 m c (Proc.devRef .tc (Pipeline.arrRef spec1 w)) :=
  (X6_arr m c w).trans (((dat1 (Xr5 m) c).arrAt_in w hw _).trans (A_eq1 (Xr5 m) c w))
theorem X8_in (c : Dev nD) (w : Fin cfg2.W) (hw : (cfg2.win w).isOut = false) :
    X8 m c (Proc.devRef .tc (Pipeline.arrRef spec2 w)) = X7 m c (Proc.devRef .tc (Pipeline.arrRef spec2 w)) :=
  (X8_arr m c w).trans (((dat2 (Xr7 m) c).arrAt_in w hw _).trans (A_eq2 (Xr7 m) c w))

/-- `main_arg0` ends as launched. -/
theorem X8_main_arg0 (c : Dev nD) : X8 m c main_arg0 = m ((c : Thread nD τ).loc main_arg0) :=
  (X8_of_ne m c main_arg0 (by decide)).trans <| (X7_of m c main_arg0 (by decide)).trans <| (X6_of_ne m c main_arg0 (by decide)).trans <| (X5_of m c main_arg0 (by decide)).trans <|
    (X4_in m c 0 rfl).trans <| (V3_of m c main_arg0 (by decide)).trans <| (V2_of m c main_arg0 (by decide)).trans <| (V1_of m c main_arg0 (by decide)).trans rfl

/-- `main_arg1` ends as launched. -/
theorem X8_main_arg1 (c : Dev nD) : X8 m c main_arg1 = m ((c : Thread nD τ).loc main_arg1) :=
  (X8_of_ne m c main_arg1 (by decide)).trans <| (X7_of m c main_arg1 (by decide)).trans <| (X6_of_ne m c main_arg1 (by decide)).trans <| (X5_of m c main_arg1 (by decide)).trans <|
    (X4_of_ne m c main_arg1 (by decide)).trans <| (V3_of m c main_arg1 (by decide)).trans <| (V2_of m c main_arg1 (by decide)).trans <| (V1_of m c main_arg1 (by decide)).trans rfl

/-- `main_arg2` ends as launched. -/
theorem X8_main_arg2 (c : Dev nD) : X8 m c main_arg2 = m ((c : Thread nD τ).loc main_arg2) :=
  (X8_of_ne m c main_arg2 (by decide)).trans <| (X7_of m c main_arg2 (by decide)).trans <| (X6_of_ne m c main_arg2 (by decide)).trans <| (X5_of m c main_arg2 (by decide)).trans <|
    (X4_in m c 1 rfl).trans <| (V3_of m c main_arg2 (by decide)).trans <| (V2_of m c main_arg2 (by decide)).trans <| (V1_of m c main_arg2 (by decide)).trans rfl

/-- `main_arg3` ends as launched. -/
theorem X8_main_arg3 (c : Dev nD) : X8 m c main_arg3 = m ((c : Thread nD τ).loc main_arg3) :=
  (X8_of_ne m c main_arg3 (by decide)).trans <| (X7_of m c main_arg3 (by decide)).trans <| (X6_of_ne m c main_arg3 (by decide)).trans <| (X5_of m c main_arg3 (by decide)).trans <|
    (X4_of_ne m c main_arg3 (by decide)).trans <| (V3_of m c main_arg3 (by decide)).trans <| (V2_of m c main_arg3 (by decide)).trans <| (V1_of m c main_arg3 (by decide)).trans rfl

/-- `main_arg4` ends as launched. -/
theorem X8_main_arg4 (c : Dev nD) : X8 m c main_arg4 = m ((c : Thread nD τ).loc main_arg4) :=
  (X8_of_ne m c main_arg4 (by decide)).trans <| (X7_of m c main_arg4 (by decide)).trans <| (X6_in m c 2 rfl).trans <| (X5_of m c main_arg4 (by decide)).trans <|
    (X4_of_ne m c main_arg4 (by decide)).trans <| (V3_of m c main_arg4 (by decide)).trans <| (V2_of m c main_arg4 (by decide)).trans <| (V1_of m c main_arg4 (by decide)).trans rfl

/-- `main_arg5` ends as launched. -/
theorem X8_main_arg5 (c : Dev nD) : X8 m c main_arg5 = m ((c : Thread nD τ).loc main_arg5) :=
  (X8_of_ne m c main_arg5 (by decide)).trans <| (X7_of m c main_arg5 (by decide)).trans <| (X6_of_ne m c main_arg5 (by decide)).trans <| (X5_of m c main_arg5 (by decide)).trans <|
    (X4_of_ne m c main_arg5 (by decide)).trans <| (V3_of m c main_arg5 (by decide)).trans <| (V2_of m c main_arg5 (by decide)).trans <| (V1_of m c main_arg5 (by decide)).trans rfl

/-- `main_arg6` ends as launched. -/
theorem X8_main_arg6 (c : Dev nD) : X8 m c main_arg6 = m ((c : Thread nD τ).loc main_arg6) :=
  (X8_in m c 2 rfl).trans <| (X7_of m c main_arg6 (by decide)).trans <| (X6_of_ne m c main_arg6 (by decide)).trans <| (X5_of m c main_arg6 (by decide)).trans <|
    (X4_of_ne m c main_arg6 (by decide)).trans <| (V3_of m c main_arg6 (by decide)).trans <| (V2_of m c main_arg6 (by decide)).trans <| (V1_of m c main_arg6 (by decide)).trans rfl

/-- `main_arg7` ends as launched. -/
theorem X8_main_arg7 (c : Dev nD) : X8 m c main_arg7 = m ((c : Thread nD τ).loc main_arg7) :=
  (X8_of_ne m c main_arg7 (by decide)).trans <| (X7_of m c main_arg7 (by decide)).trans <| (X6_of_ne m c main_arg7 (by decide)).trans <| (X5_of m c main_arg7 (by decide)).trans <|
    (X4_of_ne m c main_arg7 (by decide)).trans <| (V3_of m c main_arg7 (by decide)).trans <| (V2_of m c main_arg7 (by decide)).trans <| (V1_of m c main_arg7 (by decide)).trans rfl

end Cert.Kernel.Hand

end
-- ==== Proof.KB.Run.lean ====
/-
  The run of @main: its eight items (five stretches of host operations, three pallas_calls) as
  segments over one thread state per core — every unscoped buffer at the contents of the fold, the
  generator register at some state, nothing owed — and the launch over them: every weakly fair
  execution terminates without a fault, and at the end every unscoped buffer holds what the fold
  says. Read at the argument arrays this is the frame; read at the result array it names the
  result. Generic in the float instance.
-/
import proofs.«127257_j88399016886916_1_alg».proof.Proof.KB.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Xr3 m) c
  | ⟨1, _⟩ => fun c => dat1 (Xr5 m) c
  | ⟨2, _⟩ => fun c => dat2 (Xr7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (X8 m c) ∗ ∃ r, prngReg c r)

-- a library lemma stated over the pinned configuration unifies with the printed one only when unification may unfold plain
-- definitions in a metavariable's type
set_option backward.isDefEq.respectTransparency.types false in
/-- Pallas_call 0 over the thread state: entered with every unscoped buffer at the contents before it, left with them at the
    contents after it. Its arrays are split out of the unscoped buffers and put back at what the write-backs leave; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Xr3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec0 c (Xr3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Xr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Xr3 m c) (Xr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 1 over the thread state: entered with every unscoped buffer at the contents before it, left with them at the
    contents after it. Its arrays are split out of the unscoped buffers and put back at what the write-backs leave; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Xr5 m) c).loose
  hwaits := Pipeline.hwaits_of_owed_zero _ _ _ _ L lv 1 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec1 c (Xr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Xr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Xr5 m c) (Xr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 2 over the thread state: entered with every unscoped buffer at the contents before it, left with them at the
    contents after it. Its arrays are split out of the unscoped buffers and put back at what the write-backs leave; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Xr7 m) c).loose
  hwaits := Pipeline.hwaits_of_owed_zero _ _ _ _ L lv 2 fun _ _ => rfl
  pre c := iprop(StableHlo.held (c : Thread nD τ) (Pipeline.ucRefs τ sig) (X7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Xr7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Xr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]; refine (show (pdats m 2 c).Φ (Fin.last _) ⊢ Pipeline.ΦA spec2 c from hout2 (Xr7 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Xr7 m c) (Xr8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (X4 m)),
    .region (reg1 m),
    .host (hseg hostOps2 hostOps2_sub hostOps2_fresh (X6 m)),
    .region (reg2 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer of every core ends at the contents the fold computes. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (X8_main_arg0 m c),
     (h c _ (mem_uc main_arg1 (by decide))).trans (X8_main_arg1 m c),
     (h c _ (mem_uc main_arg2 (by decide))).trans (X8_main_arg2 m c),
     (h c _ (mem_uc main_arg3 (by decide))).trans (X8_main_arg3 m c),
     (h c _ (mem_uc main_arg4 (by decide))).trans (X8_main_arg4 m c),
     (h c _ (mem_uc main_arg5 (by decide))).trans (X8_main_arg5 m c),
     (h c _ (mem_uc main_arg6 (by decide))).trans (X8_main_arg6 m c),
     (h c _ (mem_uc main_arg7 (by decide))).trans (X8_main_arg7 m c)⟩) (run_main m ρ)

end Cert.Kernel.Hand

end
-- ==== Proof.KI.Reg0.lean ====
/-
  The first pallas_call (the broadcast product x · W1, ten row blocks of 5000), at an arbitrary
  valuation `V` of the TensorCore's buffers at the region's entry: what each window's block is,
  what the body leaves in the output window's staging buffer (one whole-block store of the product
  of the two input blocks), the body's triple, and the pipeline's proof data with its body
  obligation. Generic in the float instance.
-/
import proofs.«127257_j88399016886916_1_alg».proof.Proof.Gen.KernelIdeal.Launch
import proofs.«127257_j88399016886916_1_alg».proof.Proof.Gen.KernelIdeal.Skeleton
import proofs.«127257_j88399016886916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The column of x: its staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The row W1 (one block for the whole grid, fetched once): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x1 := Rect.unit (s := S5000x1) ![0, 0] S5000x1.size inb_S5000x1_S5000x1_0_0
abbrev r0_1 : Rect S1x64 := Rect.unit (s := S1x64) ![0, 0] S1x64.size inb_S1x64_S1x64_0_0
abbrev r0_2 : Rect S5000x64 := Rect.unit (s := S5000x64) ![0, 0] S5000x64.size inb_S5000x64_S5000x64_0_0

/-- The output block after the body: the one whole-block store of the product. -/
def out0_2 (x0 : Vec F S5000x1 .f32) (x1 : Vec F S1x64 .f32) : Vec F S5000x64 .f32 :=
  View.canon [⟨r0_2, k0_pay1 (View.ld x0 r0_0) (View.ld x1 r0_1)⟩]

theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

set_option maxHeartbeats 1000000 in
/-- The body on whole staging buffers: the inputs are read and handed back, the output buffer ends at `out0_2`. -/
theorem sound_kernel0 (c : Dev nD) (E : Set ℕ) (i : grid0.Coords) (arg1 : Memref sig .tc .vmem S5000x1 .f32) (harg1 : arg1.IsWhole)
    (arg2 : Memref sig .tc .vmem S1x64 .f32) (harg2 : arg2.IsWhole) (arg3 : Memref sig .tc .vmem S5000x64 .f32) (harg3 : arg3.IsWhole)
    (x0 : Vec F S5000x1 .f32) (x1 : Vec F S1x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear1_kernel i arg1 harg1 arg2 harg2 arg3 harg3) K := by
  simp only [cc0__linear1_kernel_eq_skeleton]; unfold cc0__linear1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The second pallas_call (relu(h + b1) · W2 on ten row blocks of 5000), at an arbitrary valuation
  `V` of the TensorCore's buffers at the region's entry: each window's block, what the body leaves
  in the output window's staging buffer (one whole-block store of the matrix product of the
  rectified, shifted input block with the resident weight block), the body's triple, and the
  pipeline's proof data with its body obligation. Generic in the float instance.
-/
import proofs.«127257_j88399016886916_1_alg».proof.Proof.Gen.KernelIdeal.Launch
import proofs.«127257_j88399016886916_1_alg».proof.Proof.Gen.KernelIdeal.Skeleton
import proofs.«127257_j88399016886916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated features' row block: its staging buffer holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row (resident for the whole grid): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The weight matrix (resident for the whole grid): the same. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S5000x64 := Rect.unit (s := S5000x64) ![0, 0] S5000x64.size inb_S5000x64_S5000x64_0_0
abbrev r1_1 : Rect S1x64 := Rect.unit (s := S1x64) ![0, 0] S1x64.size inb_S1x64_S1x64_0_0
abbrev r1_2 : Rect S64x64 := Rect.unit (s := S64x64) ![0, 0] S64x64.size inb_S64x64_S64x64_0_0

/-- The output block after the body: the one whole-block store of the product. -/
def out1_3 (x0 : Vec F S5000x64 .f32) (x1 : Vec F S1x64 .f32) (x2 : Vec F S64x64 .f32) : Vec F S5000x64 .f32 :=
  View.canon [⟨r1_0, k1_pay1 (View.ld x0 r1_0) (View.ld x1 r1_1) (View.ld x2 r1_2)⟩]

theorem cover1_3 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

set_option maxHeartbeats 1000000 in
/-- The body on whole staging buffers: the inputs are read and handed back, the output buffer ends at `out1_3`. -/
theorem sound_kernel1 (c : Dev nD) (E : Set ℕ) (i : grid1.Coords) (arg1 : Memref sig .tc .vmem S5000x64 .f32) (harg1 : arg1.IsWhole)
    (arg2 : Memref sig .tc .vmem S1x64 .f32) (harg2 : arg2.IsWhole) (arg3 : Memref sig .tc .vmem S64x64 .f32) (harg3 : arg3.IsWhole)
    (arg4 : Memref sig .tc .vmem S5000x64 .f32) (harg4 : arg4.IsWhole)
    (x0 : Vec F S5000x64 .f32) (x1 : Vec F S1x64 .f32) (x2 : Vec F S64x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__relu_matmul_kernel i arg1 harg1 arg2 harg2 arg3 harg3 arg4 harg4) K := by
  simp only [cc1__relu_matmul_kernel_eq_skeleton]; unfold cc1__relu_matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2Runs.lean ====
/-
  The third pallas_call (column sums of relu(h + b2) accumulated over ten row blocks in a scratch
  row, then at the last block the mean, the final linear map and the log-softmax): the body's two
  branch conditions decided over the grid, where the output window is idle, and the body's triple
  in each of the three control cases the grid meets (first block: the scratch is reset, then
  accumulated into; middle blocks: accumulated into; last block: accumulated into, then read for
  the result). In each case the pieces the body's stores leave in the scratch (and, in the last
  case, in the output block) are the run's own record. Generic in the float instance.
-/
import proofs.«127257_j88399016886916_1_alg».proof.Proof.Gen.KernelIdeal.Launch
import proofs.«127257_j88399016886916_1_alg».proof.Proof.Gen.KernelIdeal.Skeleton
import proofs.«127257_j88399016886916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first conditional's condition (is this the first row block?), from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 10 = 0 :=
  (by decide +kernel : ∀ t : Fin grid2.N, cond2_0 (grid2.coords t) ↔ t.val % 10 = 0)

/-- The second conditional's condition (is this the last row block?). -/
abbrev cond2_1 (i : grid2.Coords) : Prop := k2_cond2 i = 1#1
theorem hcond2_1 : ∀ t : Fin cfg2.N, cond2_1 (grid2.coords t) ↔ t.val % 10 = 9 :=
  (by decide +kernel : ∀ t : Fin grid2.N, cond2_1 (grid2.coords t) ↔ t.val % 10 = 9)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Where the last-block condition fails the output window is idle and is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- One staging buffer of the output window, through which its contents are stated. -/
abbrev VO2_4 : View sig .tc .vmem S1x4 .f32 := (Memref.whole cc2_stg4_0 : Memref sig .tc .vmem S1x4 .f32).view
abbrev ms2_0 (t : Fin cfg2.N) : Memref sig .tc .vmem S5000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x4 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x4 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x4 .f32 := win2_4.stage (cfg2.slots t 4)
abbrev hs2_4 (t : Fin cfg2.N) : (ms2_4 t).IsWhole := hstage2_4 ((cfg2.slots t 4).cast nbuf2_4)
/-- The scratch row the kernel carries between grid points. -/
abbrev scM2_0 : Memref sig .tc .vmem S1x64 .f32 := Memref.whole cc2_scratch0
abbrev VS2_0 : View sig .tc .vmem S1x64 .f32 := scM2_0.view

/-- The scoped buffers of the other two pipelines (this region touches none of them), each whole at some contents, around
    what is said of the scratch row `S`. -/
def around2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ S)

/-- The class invariant with the scratch row as a memref owned at some contents. -/
theorem PhiA2_eq (c : Dev nD) :
    (Pipeline.ΦA spec2 c : sProp 𝕄)
      = iprop(around2 c iprop(∃ d, owns (c : Thread nD τ) scM2_0 fullShare d) ∗ (∃ r, prngReg c r)) := by
  unfold Pipeline.ΦA around2; rw [scopedRest2_eq]; simp only [scM2_0, owns_whole]; try rfl

set_option maxHeartbeats 4000000 in
/-- First row block: the scratch (at anything) is zeroed, then the block's column sums are added; the output block is handed back untouched. -/
noncomputable def kernelRun2_A (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) :
    Σ' (L4 : List (View.Piece (Elt F) S1x4 .f32)), { LS0 : List (View.Piece (Elt F) S1x64 .f32) //
      ∀ (xi4 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨[], ?_, fun xi4 E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- A middle row block: the block's column sums are added to what the scratch held; the output block is handed back untouched. -/
noncomputable def kernelRun2_B (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) :
    Σ' (L4 : List (View.Piece (Elt F) S1x4 .f32)), { LS0 : List (View.Piece (Elt F) S1x64 .f32) //
      ∀ (xi4 : Vec F S1x4 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨[], ?_, fun xi4 E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

set_option maxHeartbeats 4000000 in
/-- The last row block: the block's column sums are added to what the scratch held, and the result row is computed from the scratch and stored into the output block. -/
noncomputable def kernelRun2_C (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) :
    Σ' (L4 : List (View.Piece (Elt F) S1x4 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc2__pool_fc_kernel i arg1 harg1 arg2 harg2 arg3 harg3 arg4 harg4 arg5 harg5 arg6 harg6) K } := by
  refine ⟨?_, ?_, fun E K => ?run⟩
  case run =>
    simp only [cc2__pool_fc_kernel_eq_skeleton]; unfold cc2__pool_fc_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.Reg2.lean ====
/-
  The third pallas_call's proof data. What the scratch row and the output block hold after each
  grid point is defined by recursion on the point: at the first row block the scratch is reset and
  the block's column sums added; at every later block the column sums are added to what the block
  before left; at the last block the result row is computed from the scratch and stored. The
  region's invariant carries the scratch row at exactly that content from one point to the next.
  The body obligation is the case split on the two conditions, each case the body's run.
  Generic in the float instance.
-/
import proofs.«127257_j88399016886916_1_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The aggregated features' row block: its staging buffer holds the point's block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The bias row (resident): its staging buffer holds the point's block, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The final weight matrix (resident): its staging buffer holds the point's block, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The final bias row (resident): its staging buffer holds the point's block, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- What case A leaves in the output block's staging buffer: its pieces read back (none: a placeholder nothing consults, the window being idle there). -/
def out2_A_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) : Vec F S1x4 .f32 :=
  VO2_4.read (Elt F) (VO2_4.writes (Elt F) VO2_4.junk (kernelRun2_A c i arg1 harg1 arg2 harg2 arg3 harg3 arg4 harg4 arg5 harg5 arg6 harg6 hc0 hc1 x0 x1 x2 x3).1)

/-- Case A's pieces for the scratch row cover it. -/
theorem scover2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) (y : S1x64.Idx) :
    ∃ pc ∈ (kernelRun2_A c i arg1 harg1 arg2 harg2 arg3 harg3 arg4 harg4 arg5 harg5 arg6 harg6 hc0 hc1 x0 x1 x2 x3).2.1, y ∈ pc.1.set :=
  View.cover_of_tiledL (kernelRun2_A c i arg1 harg1 arg2 harg2 arg3 harg3 arg4 harg4 arg5 harg5 arg6 harg6 hc0 hc1 x0 x1 x2 x3).2.1 S1x64.size (by sl_kernel_rfl) y

/-- What case A leaves in the scratch row: its pieces read back. -/
def sout2_A_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) : Vec F S1x64 .f32 :=
  VS2_0.read (Elt F) (VS2_0.writes (Elt F) VS2_0.junk (kernelRun2_A c i arg1 harg1 arg2 harg2 arg3 harg3 arg4 harg4 arg5 harg5 arg6 harg6 hc0 hc1 x0 x1 x2 x3).2.1)

/-- What case B leaves in the output block's staging buffer: its pieces read back (none: a placeholder nothing consults, the window being idle there). -/
def out2_B_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) : Vec F S1x4 .f32 :=
  VO2_4.read (Elt F) (VO2_4.writes (Elt F) VO2_4.junk (kernelRun2_B c i arg1 harg1 arg2 harg2 arg3 harg3 arg4 harg4 arg5 harg5 arg6 harg6 hc0 hc1 x0 x1 x2 x3 xs0).1)

/-- Case B's pieces for the scratch row cover it. -/
theorem scover2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) (y : S1x64.Idx) :
    ∃ pc ∈ (kernelRun2_B c i arg1 harg1 arg2 harg2 arg3 harg3 arg4 harg4 arg5 harg5 arg6 harg6 hc0 hc1 x0 x1 x2 x3 xs0).2.1, y ∈ pc.1.set :=
  View.cover_of_tiledL (kernelRun2_B c i arg1 harg1 arg2 harg2 arg3 harg3 arg4 harg4 arg5 harg5 arg6 harg6 hc0 hc1 x0 x1 x2 x3 xs0).2.1 S1x64.size (by sl_kernel_rfl) y

/-- What case B leaves in the scratch row: its pieces read back. -/
def sout2_B_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) : Vec F S1x64 .f32 :=
  VS2_0.read (Elt F) (VS2_0.writes (Elt F) VS2_0.junk (kernelRun2_B c i arg1 harg1 arg2 harg2 arg3 harg3 arg4 harg4 arg5 harg5 arg6 harg6 hc0 hc1 x0 x1 x2 x3 xs0).2.1)

/-- What case C leaves in the output block's staging buffer: its pieces read back. -/
def out2_C_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) : Vec F S1x4 .f32 :=
  VO2_4.read (Elt F) (VO2_4.writes (Elt F) VO2_4.junk (kernelRun2_C c i arg1 harg1 arg2 harg2 arg3 harg3 arg4 harg4 arg5 harg5 arg6 harg6 hc0 hc1 x0 x1 x2 x3 xs0).1)

/-- Case C's pieces for the scratch row cover it. -/
theorem scover2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) (y : S1x64.Idx) :
    ∃ pc ∈ (kernelRun2_C c i arg1 harg1 arg2 harg2 arg3 harg3 arg4 harg4 arg5 harg5 arg6 harg6 hc0 hc1 x0 x1 x2 x3 xs0).2.1, y ∈ pc.1.set :=
  View.cover_of_tiledL (kernelRun2_C c i arg1 harg1 arg2 harg2 arg3 harg3 arg4 harg4 arg5 harg5 arg6 harg6 hc0 hc1 x0 x1 x2 x3 xs0).2.1 S1x64.size (by sl_kernel_rfl) y

/-- What case C leaves in the scratch row: its pieces read back. -/
def sout2_C_0 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) : Vec F S1x64 .f32 :=
  VS2_0.read (Elt F) (VS2_0.writes (Elt F) VS2_0.junk (kernelRun2_C c i arg1 harg1 arg2 harg2 arg3 harg3 arg4 harg4 arg5 harg5 arg6 harg6 hc0 hc1 x0 x1 x2 x3 xs0).2.1)

/-- Case C's one store covers the output block. -/
theorem cover2_C_4 (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) (y : S1x4.Idx) :
    ∃ pc ∈ (kernelRun2_C c i arg1 harg1 arg2 harg2 arg3 harg3 arg4 harg4 arg5 harg5 arg6 harg6 hc0 hc1 x0 x1 x2 x3 xs0).1, y ∈ pc.1.set :=
  View.cover_of_tiledL (kernelRun2_C c i arg1 harg1 arg2 harg2 arg3 harg3 arg4 harg4 arg5 harg5 arg6 harg6 hc0 hc1 x0 x1 x2 x3 xs0).1 S1x4.size (by sl_kernel_rfl) y

/-- THE ACCUMULATION: the output block's staging buffer and the scratch row after the body at point `n`. -/
def outsAt2 (c : Dev nD) : (n : ℕ) → n < cfg2.N → Vec F S1x4 .f32 × Vec F S1x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 10 = 0 then
      False.elim (by have hN : n + 1 < 10 := lt_of_lt_of_eq hn (show cfg2.N = 10 from N_2); omega)
    else
      if h1 : (n + 1) % 10 = 9 then
        (out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
          sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

/-- At the first row block: the reset case. -/
theorem outsAt2_A (c : Dev nD) (t : Fin cfg2.N) (h0 : t.val % 10 = 0) (h1 : ¬t.val % 10 = 9) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t),
      sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (by exfalso; have hN : n + 1 < 10 := lt_of_lt_of_eq hn (show cfg2.N = 10 from N_2); (try dsimp only at h0); omega)

/-- At a middle row block: over what the block before left. -/
theorem outsAt2_B (c : Dev nD) (t : Fin cfg2.N) (h0 : ¬t.val % 10 = 0) (h1 : ¬t.val % 10 = 9) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2,
      sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last row block: over what the block before left. -/
theorem outsAt2_C (c : Dev nD) (t : Fin cfg2.N) (h0 : ¬t.val % 10 = 0) (h1 : t.val % 10 = 9) :
    outsAt2 V c t.val t.isLt = (out2_C_4 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the class's (the scratch at anything); afterwards the
    scratch row at what the point before left in it. -/
def PhiS (c : Dev nD) : (n : ℕ) → n ≤ cfg2.N → sProp 𝕄
  | 0, _ => Pipeline.ΦA spec2 c
  | n + 1, hn => iprop(around2 c (owns (c : Thread nD τ) scM2_0 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(around2 c (owns (c : Thread nD τ) scM2_0 fullShare ((outsAt2 V c n hn).2)) ∗ (∃ r, prngReg c r)) := rfl

theorem PhiS_pos (c : Dev nD) (n : ℕ) (h : n ≤ cfg2.N) (hz : n ≠ 0) :
    PhiS V c n h = iprop(around2 c (owns (c : Thread nD τ) scM2_0 fullShare ((outsAt2 V c (n - 1) (by omega)).2)) ∗ (∃ r, prngReg c r)) := by
  cases n with
  | zero => exact absurd rfl hz
  | succ n => rfl

/-- The proof data of the third pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the closed forms say which case the point is in; the invariant hands the body the scratch row at what
    the point before left (at anything at the first point) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  have hN : t.val < 10 := lt_of_lt_of_eq t.isLt (show cfg2.N = 10 from N_2)
  by_cases h0 : t.val % 10 = 0
  · have h1 : ¬t.val % 10 = 9 := by omega
    have hz : t.val = 0 := by omega
    rw [show (dat2 V c).leavesExact 0 t = owns (c : Thread nD τ) (ms2_0 t) fullShare ((dat2 V c).after 0 t) from by
      unfold Dat.leavesExact; rw [liveAt2_0 t], after2_0]
    rw [show (dat2 V c).leavesExact 1 t = owns (c : Thread nD τ) (ms2_1 t) fullShare ((dat2 V c).after 1 t) from by
      unfold Dat.leavesExact; rw [liveAt2_1 t], after2_1]
    rw [show (dat2 V c).leavesExact 2 t = owns (c : Thread nD τ) (ms2_2 t) fullShare ((dat2 V c).after 2 t) from by
      unfold Dat.leavesExact; rw [liveAt2_2 t], after2_2]
    rw [show (dat2 V c).leavesExact 3 t = owns (c : Thread nD τ) (ms2_3 t) fullShare ((dat2 V c).after 3 t) from by
      unfold Dat.leavesExact; rw [liveAt2_3 t], after2_3]
    rw [Dat.leavesExact_idle (dat2 V c) 4 t (idleAt2_4 t (fun h => h1 ((hcond2_1 t).mp h))) (noFlush2_4 t (fun h => h1 ((hcond2_1 t).mp h)))]
    rw [outsAt2_A V c t h0 h1]
    unfold sout2_A_0; (try dsimp only)
    rw [PhiS_castSucc V c t, PhiS_zero V c _ _ hz, PhiA2_eq]
    unfold around2
    iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [Ha0 Ha1 Ha2 Ha3 Ha4 Ha5 Ha6 Ha7 Ha8 Ha9 Ha10 HS0 Hg]
    · isplitl [Ha0 Ha1 Ha2 Ha3 Ha4 Ha5 Ha6 Ha7 Ha8 Ha9 Ha10 HS0]
      · isplitl [Ha0]; · iexact Ha0
        isplitl [Ha1]; · iexact Ha1
        isplitl [Ha2]; · iexact Ha2
        isplitl [Ha3]; · iexact Ha3
        isplitl [Ha4]; · iexact Ha4
        isplitl [Ha5]; · iexact Ha5
        isplitl [Ha6]; · iexact Ha6
        isplitl [Ha7]; · iexact Ha7
        isplitl [Ha8]; · iexact Ha8
        isplitl [Ha9]; · iexact Ha9
        isplitl [Ha10]; · iexact Ha10
        unfold owns; iexists _; isplitr
        swap; · iexact HS0
        ipureintro; exact View.read_writes_of_cover _ _ _ _ _ (scover2_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    by_cases h1 : t.val % 10 = 9
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      unfold out2_C_4 sout2_C_0; (try dsimp only)
      rw [PhiS_castSucc V c t, PhiS_pos V c _ _ hz]
      unfold around2
      iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [Ha0 Ha1 Ha2 Ha3 Ha4 Ha5 Ha6 Ha7 Ha8 Ha9 Ha10 HS0 Hg]
      · isplitl [Ha0 Ha1 Ha2 Ha3 Ha4 Ha5 Ha6 Ha7 Ha8 Ha9 Ha10 HS0]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [Ha10]; · iexact Ha10
          unfold owns; iexists _; isplitr
          swap; · iexact HS0
          ipureintro; exact View.read_writes_of_cover _ _ _ _ _ (scover2_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [Dat.leavesExact_idle (dat2 V c) 4 t (idleAt2_4 t (fun h => h1 ((hcond2_1 t).mp h))) (noFlush2_4 t (fun h => h1 ((hcond2_1 t).mp h)))]
      rw [outsAt2_B V c t h0 h1]
      unfold sout2_B_0; (try dsimp only)
      rw [PhiS_castSucc V c t, PhiS_pos V c _ _ hz]
      unfold around2
      iintro ⟨⟨⟨Ha0, Ha1, Ha2, Ha3, Ha4, Ha5, Ha6, Ha7, Ha8, Ha9, Ha10, HS0⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [Ha0 Ha1 Ha2 Ha3 Ha4 Ha5 Ha6 Ha7 Ha8 Ha9 Ha10 HS0 Hg]
      · isplitl [Ha0 Ha1 Ha2 Ha3 Ha4 Ha5 Ha6 Ha7 Ha8 Ha9 Ha10 HS0]
        · isplitl [Ha0]; · iexact Ha0
          isplitl [Ha1]; · iexact Ha1
          isplitl [Ha2]; · iexact Ha2
          isplitl [Ha3]; · iexact Ha3
          isplitl [Ha4]; · iexact Ha4
          isplitl [Ha5]; · iexact Ha5
          isplitl [Ha6]; · iexact Ha6
          isplitl [Ha7]; · iexact Ha7
          isplitl [Ha8]; · iexact Ha8
          isplitl [Ha9]; · iexact Ha9
          isplitl [Ha10]; · iexact Ha10
          unfold owns; iexists _; isplitr
          swap; · iexact HS0
          ipureintro; exact View.read_writes_of_cover _ _ _ _ _ (scover2_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class's back: the scratch row's named contents are forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS V c (Fin.last cfg2.N).val (Nat.le_of_lt_succ (Fin.last cfg2.N).isLt) from rfl, PhiS_pos V c _ _ ht, PhiA2_eq]
  unfold around2
  iintro ⟨⟨Ha0, Ha1, Ha2, Ha3, Ha4, Ha5, Ha6, Ha7, Ha8, Ha9, Ha10, HS0⟩, Hg⟩
  isplitl [Ha0 Ha1 Ha2 Ha3 Ha4 Ha5 Ha6 Ha7 Ha8 Ha9 Ha10 HS0]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha9]; · iexact Ha9
    isplitl [Ha10]; · iexact Ha10
    iexists _; iexact HS0
  iexact Hg

end Cert.KernelIdeal.Hand

end
-- ==== Proof.KI.Fold.lean ====
/-
  The contents of the TensorCore's unscoped buffers at every boundary between two items of @main:
  the launch memory, then each stretch of host operations applied in order, and after each of the
  three pallas_calls its arrays at what the pipeline's write-backs leave (every other buffer as the
  region found it). Each argument array, which no host operation and no region writes, is read
  back through this fold to its launch contents. Generic in the float instance.
-/
import proofs.«127257_j88399016886916_1_alg».proof.Proof.KI.Reg0
import proofs.«127257_j88399016886916_1_alg».proof.Proof.KI.Reg1
import proofs.«127257_j88399016886916_1_alg».proof.Proof.KI.Reg2
import proofs.«127257_j88399016886916_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The buffers when the first pallas_call is entered (after the three leading host stretches), read at the TensorCore's references. -/
abbrev Xr3 : (c : Dev nD) → (b : Ref sig .tc) → Buf (Elt F) ((c : Thread nD τ).loc b) := fun c b => V3 m c b

/-- After the first pallas_call: its arrays at what its write-backs leave. -/
def X4 (c : Dev nD) : Valuation τ sig (Elt F) :=
  Pipeline.withArrays spec0 c (V3 m c) fun w => (dat0 (Xr3 m) c).arrAt w cfg0.N
theorem X4_arr (c : Dev nD) (w : Fin cfg0.W) :
    X4 m c (Proc.devRef .tc (Pipeline.arrRef spec0 w)) = (dat0 (Xr3 m) c).arrAt w cfg0.N := by
  unfold X4; exact Pipeline.withArrays_arr spec0 launch0.win.arr_inj c _ _ w
theorem X4_of_ne (c : Dev nD) (b : Ref sig .tc) (hb : ∀ w, Pipeline.arrRef spec0 w ≠ b) :
    X4 m c (Proc.devRef .tc b) = V3 m c (Proc.devRef .tc b) := by
  unfold X4; exact Pipeline.withArrays_of_ne spec0 c _ _ b hb
abbrev Xr4 : (c : Dev nD) → (b : Ref sig .tc) → Buf (Elt F) ((c : Thread nD τ).loc b) := fun c b => X4 m c b
theorem hF0 (c : Dev nD) (w : Fin cfg0.W) : (dat0 (Xr3 m) c).arrAt w cfg0.N = Xr4 m c (Pipeline.arrRef spec0 w) :=
  (X4_arr m c w).symm
theorem hrest0 (c : Dev nD) : ∀ b, b ∉ Finset.univ.image (Pipeline.arrRef spec0) → Xr4 m c b = Xr3 m c b :=
  fun b hb => X4_of_ne m c b fun w e => hb (Finset.mem_image.mpr ⟨w, Finset.mem_univ _, e⟩)

/-- After the host stretch between the first and the second pallas_call. -/
abbrev X5 : Dev nD → Valuation τ sig (Elt F) := fun c => StableHlo.after hostOps1 (X4 m c)
abbrev Xr5 : (c : Dev nD) → (b : Ref sig .tc) → Buf (Elt F) ((c : Thread nD τ).loc b) := fun c b => X5 m c b

/-- After the second pallas_call. -/
def X6 (c : Dev nD) : Valuation τ sig (Elt F) :=
  Pipeline.withArrays spec1 c (X5 m c) fun w => (dat1 (Xr5 m) c).arrAt w cfg1.N
theorem X6_arr (c : Dev nD) (w : Fin cfg1.W) :
    X6 m c (Proc.devRef .tc (Pipeline.arrRef spec1 w)) = (dat1 (Xr5 m) c).arrAt w cfg1.N := by
  unfold X6; exact Pipeline.withArrays_arr spec1 launch1.win.arr_inj c _ _ w
theorem X6_of_ne (c : Dev nD) (b : Ref sig .tc) (hb : ∀ w, Pipeline.arrRef spec1 w ≠ b) :
    X6 m c (Proc.devRef .tc b) = X5 m c (Proc.devRef .tc b) := by
  unfold X6; exact Pipeline.withArrays_of_ne spec1 c _ _ b hb
abbrev Xr6 : (c : Dev nD) → (b : Ref sig .tc) → Buf (Elt F) ((c : Thread nD τ).loc b) := fun c b => X6 m c b
theorem hF1 (c : Dev nD) (w : Fin cfg1.W) : (dat1 (Xr5 m) c).arrAt w cfg1.N = Xr6 m c (Pipeline.arrRef spec1 w) :=
  (X6_arr m c w).symm
theorem hrest1 (c : Dev nD) : ∀ b, b ∉ Finset.univ.image (Pipeline.arrRef spec1) → Xr6 m c b = Xr5 m c b :=
  fun b hb => X6_of_ne m c b fun w e => hb (Finset.mem_image.mpr ⟨w, Finset.mem_univ _, e⟩)

/-- After the host stretch between the second and the third pallas_call. -/
abbrev X7 : Dev nD → Valuation τ sig (Elt F) := fun c => StableHlo.after hostOps2 (X6 m c)
abbrev Xr7 : (c : Dev nD) → (b : Ref sig .tc) → Buf (Elt F) ((c : Thread nD τ).loc b) := fun c b => X7 m c b

/-- After the third pallas_call: the end of @main. -/
def X8 (c : Dev nD) : Valuation τ sig (Elt F) :=
  Pipeline.withArrays spec2 c (X7 m c) fun w => (dat2 (Xr7 m) c).arrAt w cfg2.N
theorem X8_arr (c : Dev nD) (w : Fin cfg2.W) :
    X8 m c (Proc.devRef .tc (Pipeline.arrRef spec2 w)) = (dat2 (Xr7 m) c).arrAt w cfg2.N := by
  unfold X8; exact Pipeline.withArrays_arr spec2 launch2.win.arr_inj c _ _ w
theorem X8_of_ne (c : Dev nD) (b : Ref sig .tc) (hb : ∀ w, Pipeline.arrRef spec2 w ≠ b) :
    X8 m c (Proc.devRef .tc b) = X7 m c (Proc.devRef .tc b) := by
  unfold X8; exact Pipeline.withArrays_of_ne spec2 c _ _ b hb
abbrev Xr8 : (c : Dev nD) → (b : Ref sig .tc) → Buf (Elt F) ((c : Thread nD τ).loc b) := fun c b => X8 m c b
theorem hF2 (c : Dev nD) (w : Fin cfg2.W) : (dat2 (Xr7 m) c).arrAt w cfg2.N = Xr8 m c (Pipeline.arrRef spec2 w) :=
  (X8_arr m c w).symm
theorem hrest2 (c : Dev nD) : ∀ b, b ∉ Finset.univ.image (Pipeline.arrRef spec2) → Xr8 m c b = Xr7 m c b :=
  fun b hb => X8_of_ne m c b fun w e => hb (Finset.mem_image.mpr ⟨w, Finset.mem_univ _, e⟩)

/-- A buffer no operation of the second inner host stretch writes is unchanged across it. -/
theorem X5_of (c : Dev nD) (r : Ref sig .tc) (h : r ∉ hostOps1_W) : X5 m c r = X4 m c r :=
  StableHlo.after_of_writes_sub hostOps1 _ hostOps1_writes h
theorem X7_of (c : Dev nD) (r : Ref sig .tc) (h : r ∉ hostOps2_W) : X7 m c r = X6 m c r :=
  StableHlo.after_of_writes_sub hostOps2 _ hostOps2_writes h

/-- An INPUT array of a pallas_call is handed back as the region found it. -/
theorem X4_in (c : Dev nD) (w : Fin cfg0.W) (hw : (cfg0.win w).isOut = false) :
    X4 m c (Proc.devRef .tc (Pipeline.arrRef spec0 w)) = V3 m c (Proc.devRef .tc (Pipeline.arrRef spec0 w)) :=
  (X4_arr m c w).trans (((dat0 (Xr3 m) c).arrAt_in w hw _).trans (A_eq0 (Xr3 m) c w))
theorem X6_in (c : Dev nD) (w : Fin cfg1.W) (hw : (cfg1.win w).isOut = false) :
    X6 m c (Proc.devRef .tc (Pipeline.arrRef spec1 w)) = X5 m c (Proc.devRef .tc (Pipeline.arrRef spec1 w)) :=
  (X6_arr m c w).trans (((dat1 (Xr5 m) c).arrAt_in w hw _).trans (A_eq1 (Xr5 m) c w))
theorem X8_in (c : Dev nD) (w : Fin cfg2.W) (hw : (cfg2.win w).isOut = false) :
    X8 m c (Proc.devRef .tc (Pipeline.arrRef spec2 w)) = X7 m c (Proc.devRef .tc (Pipeline.arrRef spec2 w)) :=
  (X8_arr m c w).trans (((dat2 (Xr7 m) c).arrAt_in w hw _).trans (A_eq2 (Xr7 m) c w))

/-- `main_arg0` ends as launched. -/
theorem X8_main_arg0 (c : Dev nD) : X8 m c main_arg0 = m ((c : Thread nD τ).loc main_arg0) :=
  (X8_of_ne m c main_arg0 (by decide)).trans <| (X7_of m c main_arg0 (by decide)).trans <| (X6_of_ne m c main_arg0 (by decide)).trans <| (X5_of m c main_arg0 (by decide)).trans <|
    (X4_in m c 0 rfl).trans <| (V3_of m c main_arg0 (by decide)).trans <| (V2_of m c main_arg0 (by decide)).trans <| (V1_of m c main_arg0 (by decide)).trans rfl

/-- `main_arg1` ends as launched. -/
theorem X8_main_arg1 (c : Dev nD) : X8 m c main_arg1 = m ((c : Thread nD τ).loc main_arg1) :=
  (X8_of_ne m c main_arg1 (by decide)).trans <| (X7_of m c main_arg1 (by decide)).trans <| (X6_of_ne m c main_arg1 (by decide)).trans <| (X5_of m c main_arg1 (by decide)).trans <|
    (X4_of_ne m c main_arg1 (by decide)).trans <| (V3_of m c main_arg1 (by decide)).trans <| (V2_of m c main_arg1 (by decide)).trans <| (V1_of m c main_arg1 (by decide)).trans rfl

/-- `main_arg2` ends as launched. -/
theorem X8_main_arg2 (c : Dev nD) : X8 m c main_arg2 = m ((c : Thread nD τ).loc main_arg2) :=
  (X8_of_ne m c main_arg2 (by decide)).trans <| (X7_of m c main_arg2 (by decide)).trans <| (X6_of_ne m c main_arg2 (by decide)).trans <| (X5_of m c main_arg2 (by decide)).trans <|
    (X4_in m c 1 rfl).trans <| (V3_of m c main_arg2 (by decide)).trans <| (V2_of m c main_arg2 (by decide)).trans <| (V1_of m c main_arg2 (by decide)).trans rfl

/-- `main_arg3` ends as launched. -/
theorem X8_main_arg3 (c : Dev nD) : X8 m c main_arg3 = m ((c : Thread nD τ).loc main_arg3) :=
  (X8_of_ne m c main_arg3 (by decide)).trans <| (X7_of m c main_arg3 (by decide)).trans <| (X6_of_ne m c main_arg3 (by decide)).trans <| (X5_of m c main_arg3 (by decide)).trans <|
    (X4_of_ne m c main_arg3 (by decide)).trans <| (V3_of m c main_arg3 (by decide)).trans <| (V2_of m c main_arg3 (by decide)).trans <| (V1_of m c main_arg3 (by decide)).trans rfl

/-- `main_arg4` ends as launched. -/
theorem X8_main_arg4 (c : Dev nD) : X8 m c main_arg4 = m ((c : Thread nD τ).loc main_arg4) :=
  (X8_of_ne m c main_arg4 (by decide)).trans <| (X7_of m c main_arg4 (by decide)).trans <| (X6_in m c 2 rfl).trans <| (X5_of m c main_arg4 (by decide)).trans <|
    (X4_of_ne m c main_arg4 (by decide)).trans <| (V3_of m c main_arg4 (by decide)).trans <| (V2_of m c main_arg4 (by decide)).trans <| (V1_of m c main_arg4 (by decide)).trans rfl

/-- `main_arg5` ends as launched. -/
theorem X8_main_arg5 (c : Dev nD) : X8 m c main_arg5 = m ((c : Thread nD τ).loc main_arg5) :=
  (X8_of_ne m c main_arg5 (by decide)).trans <| (X7_of m c main_arg5 (by decide)).trans <| (X6_of_ne m c main_arg5 (by decide)).trans <| (X5_of m c main_arg5 (by decide)).trans <|
    (X4_of_ne m c main_arg5 (by decide)).trans <| (V3_of m c main_arg5 (by decide)).trans <| (V2_of m c main_arg5 (by decide)).trans <| (V1_of m c main_arg5 (by decide)).trans rfl

/-- `main_arg6` ends as launched. -/
theorem X8_main_arg6 (c : Dev nD) : X8 m c main_arg6 = m ((c : Thread nD τ).loc main_arg6) :=
  (X8_in m c 2 rfl).trans <| (X7_of m c main_arg6 (by decide)).trans <| (X6_of_ne m c main_arg6 (by decide)).trans <| (X5_of m c main_arg6 (by decide)).trans <|
    (X4_of_ne m c main_arg6 (by decide)).trans <| (V3_of m c main_arg6 (by decide)).trans <| (V2_of m c main_arg6 (by decide)).trans <| (V1_of m c main_arg6 (by decide)).trans rfl

/-- `main_arg7` ends as launched. -/
theorem X8_main_arg7 (c : Dev nD) : X8 m c main_arg7 = m ((c : Thread nD τ).loc main_arg7) :=
  (X8_of_ne m c main_arg7 (by decide)).trans <| (X7_of m c main_arg7 (by decide)).trans <| (X6_of_ne m c main_arg7 (by decide)).trans <| (X5_of m c main_arg7 (by decide)).trans <|
    (X4_of_ne m c main_arg7 (by decide)).trans <| (V3_of m c main_arg7 (by decide)).trans <| (V2_of m c main_arg7 (by decide)).trans <| (V1_of m c main_arg7 (by decide)).trans rfl

end Cert.KernelIdeal.Hand

end
-- ==== Proof.KI.Run.lean ====
/-
  The run of @main: its eight items (five stretches of host operations, three pallas_calls) as
  segments over one thread state per core — every unscoped buffer at the contents of the fold, the
  generator register at some state, nothing owed — and the launch over them: every weakly fair
  execution terminates without a fault, and at the end every unscoped buffer holds what the fold
  says. Read at the argument arrays this is the frame; read at the result array it names the
  result. Generic in the float instance.
-/
import proofs.«127257_j88399016886916_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Xr3 m) c
  | ⟨1, _⟩ => fun c => dat1 (Xr5 m) c
  | ⟨2, _⟩ => fun c => dat2 (Xr7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (X8 m c) ∗ ∃ r, prngReg c r)

-- a library lemma stated over the pinned configuration unifies with the printed one only when unification may unfold plain
-- definitions in a metavariable's type
set_option backward.isDefEq.respectTransparency.types false in
/-- Pallas_call 0 over the thread state: entered with every unscoped buffer at the contents before it, left with them at the
    contents after it. Its arrays are split out of the unscoped buffers and put back at what the write-backs leave; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Xr3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (X4 m c) ∗ R c)
  X c := iprop(∃ r, prngReg c r)
  Y c := iprop(∃ r, prngReg c r)
  Z c := Pipeline.unscopedRest (Ix := Unit) (Name := ℕ) (U := UR sig nD τ) (Lvl := ℕ) spec0 c (Xr3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Xr3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Xr3 m c) (Xr4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 1 over the thread state: entered with every unscoped buffer at the contents before it, left with them at the
    contents after it. Its arrays are split out of the unscoped buffers and put back at what the write-backs leave; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Xr5 m) c).loose
  hwaits := Pipeline.hwaits_of_owed_zero _ _ _ _ L lv 1 fun _ _ => rfl
  pre c := iprop(StableHlo.held (c : Thread nD τ) (Pipeline.ucRefs τ sig) (X5 m c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec1 c (Xr5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Xr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Xr5 m c) (Xr6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Pallas_call 2 over the thread state: entered with every unscoped buffer at the contents before it, left with them at the
    contents after it. Its arrays are split out of the unscoped buffers and put back at what the write-backs leave; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Xr7 m) c).loose
  hwaits := Pipeline.hwaits_of_owed_zero _ _ _ _ L lv 2 fun _ _ => rfl
  pre c := iprop(StableHlo.held (c : Thread nD τ) (Pipeline.ucRefs τ sig) (X7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Xr7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Xr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]; refine (show (pdats m 2 c).Φ (Fin.last _) ⊢ Pipeline.ΦA spec2 c from hout2 (Xr7 m) c).trans ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Xr7 m c) (Xr8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's eight segments in order. -/
abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (X4 m)),
    .region (reg1 m),
    .host (hseg hostOps2 hostOps2_sub hostOps2_fresh (X6 m)),
    .region (reg2 m) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and every
    unscoped buffer of every core ends at the contents the fold computes. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = X8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = X8 m c b)
    (hfin := fun c s' => by
      iintro ⟨⟨Hh, -⟩, HSI⟩
      unfold StableHlo.held
      imodintro
      iapply (pointsTo_read_all (Pipeline.ucRefs τ sig) (fun b => (((c : Thread nD τ)).1, b)) (X8 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (X8_main_arg0 m c),
     (h c _ (mem_uc main_arg1 (by decide))).trans (X8_main_arg1 m c),
     (h c _ (mem_uc main_arg2 (by decide))).trans (X8_main_arg2 m c),
     (h c _ (mem_uc main_arg3 (by decide))).trans (X8_main_arg3 m c),
     (h c _ (mem_uc main_arg4 (by decide))).trans (X8_main_arg4 m c),
     (h c _ (mem_uc main_arg5 (by decide))).trans (X8_main_arg5 m c),
     (h c _ (mem_uc main_arg6 (by decide))).trans (X8_main_arg6 m c),
     (h c _ (mem_uc main_arg7 (by decide))).trans (X8_main_arg7 m c)⟩) (run_main m ρ)

end Cert.KernelIdeal.Hand

end
-- ==== Proof.KI.Host.lean ====
/-
  The host side of @main: what the buffers hold between the three pallas_calls, and the comparison with the reference.

  Both programs build, from the edge array e : i32[2, 1250000], the source list `rowOf e` and the target list `colOf e`
  (each row of e followed by 0 … 49999: every node's own loop), the degree of a node (how many of the 1300000 targets it
  is), dinv = deg^(-1/2) where the degree is positive and 0 elsewhere, and the edge weights `nrmOf e` = dinv(source) ·
  dinv(target). Both aggregate a layer h : [50000, 64] by the same function `agg`: row j of the result is the sum, over the
  edges with target j, of weight · (row source of h). The kernel program computes the weights once and keeps them in a
  buffer; the reference computes them a second time, from the same edge array, for its second layer: the same term.

  So the kernel program's result is  K2 (agg (K1 (agg (K0 x W1)) b1 W2)) b2 Wfc bfc  with K0, K1, K2 the three pallas_calls'
  output arrays as functions of the arrays each region finds (the biases enter as rows [1, 64], [1, 4]), and the reference's is
  head (agg (layer2 (agg (layer1 x W1)) b1 W2)) b2 Wfc bfc  with the same `agg`, weights, sources and targets. Given that K0 is
  layer1, K1 is layer2 and K2 is the head, the two results are equal. Everything but the last theorem is generic in the
  float instance; the aggregation is never opened.
-/
import proofs.«127257_j88399016886916_1_alg».proof.Proof.KI.Fold
import proofs.«127257_j88399016886916_1_alg».proof.Proof.RefRun

set_option maxRecDepth 16384

noncomputable section

namespace Cert.ReferenceIdeal.HostSide

open Cert.ReferenceIdeal Cert.ReferenceIdeal.Gen
open Idealize.ShloMosaic Idealize.ShloMosaic.TcCoe Idealize.SL.Sem

variable {F : FTy → Type} [FloatOps F]

/-- The first row of the edge array, then 0 … 49999: an edge's source, and every node's own loop. -/
def rowOf (e : (⟨S2x1250000, .i32⟩ : BufTy).Contents (Elt F)) : (⟨S1300000, .i32⟩ : BufTy).Contents (Elt F) :=
  concatenate S1300000 0 [⟨S1250000, (shapeCast _ (extractStridedSlice S1x1250000 ![0, 0] e slices_S2x1250000_S1x1250000_0_0) shapeCasts_S1x1250000_S1250000)⟩, ⟨S50000, (iotaInDim S50000 32 0)⟩] concatenates_S1250000_S50000_S1300000_d0

/-- The second row of the edge array, then 0 … 49999: an edge's target, and every node's own loop. -/
def colOf (e : (⟨S2x1250000, .i32⟩ : BufTy).Contents (Elt F)) : (⟨S1300000, .i32⟩ : BufTy).Contents (Elt F) :=
  concatenate S1300000 0 [⟨S1250000, (shapeCast _ (extractStridedSlice S1x1250000 ![1, 0] e slices_S2x1250000_S1x1250000_1_0) shapeCasts_S1x1250000_S1250000)⟩, ⟨S50000, (iotaInDim S50000 32 0)⟩] concatenates_S1250000_S50000_S1300000_d0

/-- A node index read the way a gather reads it: a negative one counts from the end (+ 50000). -/
def idxOf (r : (⟨S1300000, .i32⟩ : BufTy).Contents (Elt F)) : (⟨S1300000, .i32⟩ : BufTy).Contents (Elt F) :=
  select (cmpi .slt r (broadcastInDim S1300000 ![] bcast_S_S1300000 (constantI S_ 32 0#32))) (addi r (broadcastInDim S1300000 ![] bcast_S_S1300000 (constantI S_ 32 50000#32))) r

/-- A node's degree: how many of the 1300000 targets it is. -/
def degOf (col : (⟨S1300000, .i32⟩ : BufTy).Contents (Elt F)) : (⟨S50000, .f32⟩ : BufTy).Contents (Elt F) :=
  Host.scatterAdd scatter_S50000_S1300000x1_S1300000_n_0_0_1 (broadcastInDim S50000 ![] bcast_S_S50000 (constant S_ .f32 0x00000000#32)) (broadcastInDim S1300000x1 ![0] bcast_S1300000_S1300000x1_0 col) (broadcastInDim S1300000 ![] bcast_S_S1300000 (constant S_ .f32 0x3F800000#32))

/-- deg ↦ deg^(-1/2) where deg > 0, and 0 elsewhere. -/
def dinvOf (col : (⟨S1300000, .i32⟩ : BufTy).Contents (Elt F)) : (⟨S50000, .f32⟩ : BufTy).Contents (Elt F) :=
  select (cmpf (F := F) .ogt (degOf col) (broadcastInDim S50000 ![] bcast_S_S50000 (constant S_ .f32 0x00000000#32))) (Host.rsqrt (degOf col)) (broadcastInDim S50000 ![] bcast_S_S50000 (id (constant S_ .f32 0x00000000#32)))

/-- An edge's weight: dinv(source) · dinv(target). -/
def nrmOf (e : (⟨S2x1250000, .i32⟩ : BufTy).Contents (Elt F)) : (⟨S1300000, .f32⟩ : BufTy).Contents (Elt F) :=
  mulf (Host.gather gather_S50000_S1300000x1_S1300000_n_0_n_n_0_1_1 (dinvOf (colOf e)) (broadcastInDim S1300000x1 ![0] bcast_S1300000_S1300000x1_0 (idxOf (rowOf e)))) (Host.gather gather_S50000_S1300000x1_S1300000_n_0_n_n_0_1_1 (dinvOf (colOf e)) (broadcastInDim S1300000x1 ![0] bcast_S1300000_S1300000x1_0 (idxOf (colOf e))))

/-- The aggregation of one layer: row j of the result is Σ over the edges with target j of weight · (row source of h). -/
def agg (nrm : (⟨S1300000, .f32⟩ : BufTy).Contents (Elt F)) (row col : (⟨S1300000, .i32⟩ : BufTy).Contents (Elt F)) (h : (⟨S50000x64, .f32⟩ : BufTy).Contents (Elt F)) : (⟨S50000x64, .f32⟩ : BufTy).Contents (Elt F) :=
  Host.scatterAdd scatter_S50000x64_S1300000x1_S1300000x64_1_0_0_1 (broadcastInDim S50000x64 ![] bcast_S_S50000x64 (constant S_ .f32 0x00000000#32)) (broadcastInDim S1300000x1 ![0] bcast_S1300000_S1300000x1_0 col) (mulf (broadcastInDim S1300000x64 ![0, 1] bcast_S1300000x1_S1300000x64_0_1 (broadcastInDim S1300000x1 ![0] bcast_S1300000_S1300000x1_0 nrm)) (Host.gather gather_S50000x64_S1300000x1_S1300000x64_1_0_n_n_0_1_164 h (broadcastInDim S1300000x1 ![0] bcast_S1300000_S1300000x1_0 (idxOf row))))

/-- The first layer's product: x · W1. -/
def layer1 (x : (⟨S50000x1, .f32⟩ : BufTy).Contents (Elt F)) (w : (⟨S1x64, .f32⟩ : BufTy).Contents (Elt F)) : (⟨S50000x64, .f32⟩ : BufTy).Contents (Elt F) :=
  Host.dotGeneral dot_S50000x1_S1x64_S50000x64_1_0_0_1_n_n none x w

/-- The second layer's product: max (h + b) 0 · W2, the bias laid along every row. -/
def layer2 (h : (⟨S50000x64, .f32⟩ : BufTy).Contents (Elt F)) (b : (⟨S64, .f32⟩ : BufTy).Contents (Elt F)) (w : (⟨S64x64, .f32⟩ : BufTy).Contents (Elt F)) : (⟨S50000x64, .f32⟩ : BufTy).Contents (Elt F) :=
  Host.dotGeneral dot_S50000x64_S64x64_S50000x64_1_0_0_1_n_n none (maximumf (addf h (broadcastInDim S50000x64 ![0, 1] bcast_S1x64_S50000x64_0_1 (broadcastInDim S1x64 ![1] bcast_S64_S1x64_1 b))) (broadcastInDim S50000x64 ![] bcast_S_S50000x64 (constant S_ .f32 0x00000000#32))) w

/-- The head before the normalisation: the column means of max (h + b) 0, times Wfc, plus bfc. -/
def logitsOf (h : (⟨S50000x64, .f32⟩ : BufTy).Contents (Elt F)) (b : (⟨S64, .f32⟩ : BufTy).Contents (Elt F)) (w : (⟨S64x4, .f32⟩ : BufTy).Contents (Elt F)) (bfc : (⟨S4, .f32⟩ : BufTy).Contents (Elt F)) : (⟨S1x4, .f32⟩ : BufTy).Contents (Elt F) :=
  addf (Host.dotGeneral dot_S1x64_S64x4_S1x4_1_0_0_1_n_n none (Host.divf (broadcastInDim S1x64 ![1] bcast_S64_S1x64_1 (Host.reduceAdd (maximumf (addf h (broadcastInDim S50000x64 ![0, 1] bcast_S1x64_S50000x64_0_1 (broadcastInDim S1x64 ![1] bcast_S64_S1x64_1 b))) (broadcastInDim S50000x64 ![] bcast_S_S50000x64 (constant S_ .f32 0x00000000#32))) (constant S_ .f32 0x00000000#32) reducesTo_S50000x64_S64_d0 h_S_)) (broadcastInDim S1x64 ![] bcast_S_S1x64 (constant S_ .f32 0x47435000#32))) w) (broadcastInDim S1x4 ![1] bcast_S4_S1x4_1 bfc)

/-- log-softmax along the one row: z − max z − log Σ exp (z − max z). -/
def logSoftmax (z : (⟨S1x4, .f32⟩ : BufTy).Contents (Elt F)) : (⟨S1x4, .f32⟩ : BufTy).Contents (Elt F) :=
  subf (subf z (broadcastInDim S1x4 ![0, 1] bcast_S1x1_S1x4_0_1 (broadcastInDim S1x1 ![0] bcast_S1_S1x1_0 (maximumf (broadcastInDim S1 ![] bcast_S_S1 (constant S_ .f32 0xFF800000#32)) (Host.reduce FloatOps.maximumf z (constant S_ .f32 0xFF800000#32) reducesTo_S1x4_S1_d1 h_S_))))) (broadcastInDim S1x4 ![0, 1] bcast_S1x1_S1x4_0_1 (Host.log (broadcastInDim S1x1 ![0] bcast_S1_S1x1_0 (Host.reduceAdd (Host.exp (subf z (broadcastInDim S1x4 ![0, 1] bcast_S1x1_S1x4_0_1 (broadcastInDim S1x1 ![0] bcast_S1_S1x1_0 (maximumf (broadcastInDim S1 ![] bcast_S_S1 (constant S_ .f32 0xFF800000#32)) (Host.reduce FloatOps.maximumf z (constant S_ .f32 0xFF800000#32) reducesTo_S1x4_S1_d1 h_S_)))))) (constant S_ .f32 0x00000000#32) reducesTo_S1x4_S1_d1 h_S_))))

/-- The reference's head: the logits, then log-softmax. -/
def refHead (h : (⟨S50000x64, .f32⟩ : BufTy).Contents (Elt F)) (b : (⟨S64, .f32⟩ : BufTy).Contents (Elt F)) (w : (⟨S64x4, .f32⟩ : BufTy).Contents (Elt F)) (bfc : (⟨S4, .f32⟩ : BufTy).Contents (Elt F)) : (⟨S1x4, .f32⟩ : BufTy).Contents (Elt F) :=
  logSoftmax (logitsOf h b w bfc)

/-- The reference's whole value as a function of its eight arguments. -/
def refOut (x : (⟨S50000x1, .f32⟩ : BufTy).Contents (Elt F)) (e : (⟨S2x1250000, .i32⟩ : BufTy).Contents (Elt F)) (w1 : (⟨S1x64, .f32⟩ : BufTy).Contents (Elt F)) (b1 : (⟨S64, .f32⟩ : BufTy).Contents (Elt F)) (w2 : (⟨S64x64, .f32⟩ : BufTy).Contents (Elt F))
    (b2 : (⟨S64, .f32⟩ : BufTy).Contents (Elt F)) (wfc : (⟨S64x4, .f32⟩ : BufTy).Contents (Elt F)) (bfc : (⟨S4, .f32⟩ : BufTy).Contents (Elt F)) : (⟨S1x4, .f32⟩ : BufTy).Contents (Elt F) :=
  refHead (agg (nrmOf e) (rowOf e) (colOf e) (layer2 (agg (nrmOf e) (rowOf e) (colOf e) (layer1 x w1)) b1 w2)) b2 wfc bfc

set_option maxHeartbeats 400000 in
/-- The reference's composed term is `refOut` of the eight launch arrays. -/
theorem res_eq (m : (ℓ : Loc nD τ sig) → Buf (Elt F) ℓ) (c : Dev nD) :
    Cert.ReferenceIdeal.ValueP.res_main_v96 m c
      = refOut (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v96
  rfl

end Cert.ReferenceIdeal.HostSide

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.HostSide (rowOf colOf idxOf degOf dinvOf nrmOf agg layer1 layer2 logitsOf logSoftmax refHead refOut res_eq)

section Reads

variable {F : FTy → Type} [FloatOps F] [Named F]

/-! ### What each stretch of host operations leaves, from any contents `W` -/

set_option maxHeartbeats 400000 in
theorem o0_v3 (W : Valuation τ sig (Elt F)) : StableHlo.after hostOps0 W main_v3 = rowOf (W main_arg1) := by
  after_results; rfl
set_option maxHeartbeats 400000 in
theorem o0_v6 (W : Valuation τ sig (Elt F)) : StableHlo.after hostOps0 W main_v6 = colOf (W main_arg1) := by
  after_results; rfl
set_option maxHeartbeats 400000 in
theorem o0_v12 (W : Valuation τ sig (Elt F)) :
    StableHlo.after hostOps0 W main_v12 = cmpf (F := F) .ogt (degOf (colOf (W main_arg1))) (broadcastInDim S50000 ![] bcast_S_S50000 (constant S_ .f32 0x00000000#32)) := by
  after_results; rfl
set_option maxHeartbeats 400000 in
theorem o0_v13 (W : Valuation τ sig (Elt F)) : StableHlo.after hostOps0 W main_v13 = Host.rsqrt (degOf (colOf (W main_arg1))) := by
  after_results; rfl
set_option maxHeartbeats 400000 in
theorem o0_cst2 (W : Valuation τ sig (Elt F)) : StableHlo.after hostOps0 W main_cst_2 = constant S_ .f32 0x00000000#32 := by
  after_results
set_option maxHeartbeats 400000 in
theorem o01_v14 (W : Valuation τ sig (Elt F)) :
    StableHlo.after hostOps0_1 W main_v14 = select (W main_v12) (W main_v13) (broadcastInDim S50000 ![] bcast_S_S50000 (id (W main_cst_2))) := by
  after_results; rfl
set_option maxHeartbeats 400000 in
theorem o02_v29 (W : Valuation τ sig (Elt F)) :
    StableHlo.after hostOps0_2 W main_v29
      = mulf (Host.gather gather_S50000_S1300000x1_S1300000_n_0_n_n_0_1_1 (W main_v14) (broadcastInDim S1300000x1 ![0] bcast_S1300000_S1300000x1_0 (idxOf (W main_v3))))
          (Host.gather gather_S50000_S1300000x1_S1300000_n_0_n_n_0_1_1 (W main_v14) (broadcastInDim S1300000x1 ![0] bcast_S1300000_S1300000x1_0 (idxOf (W main_v6)))) := by
  after_results_simp; rfl
set_option maxHeartbeats 400000 in
theorem o1_v43 (W : Valuation τ sig (Elt F)) : StableHlo.after hostOps1 W main_v43 = agg (W main_v29) (W main_v3) (W main_v6) (W main_v30) := by
  after_results; rfl
set_option maxHeartbeats 400000 in
theorem o1_v44 (W : Valuation τ sig (Elt F)) : StableHlo.after hostOps1 W main_v44 = shapeCast S1x64 (W main_arg3) shapeCasts_S64_S1x64 := by
  after_results; rfl
set_option maxHeartbeats 400000 in
theorem o2_v58 (W : Valuation τ sig (Elt F)) : StableHlo.after hostOps2 W main_v58 = agg (W main_v29) (W main_v3) (W main_v6) (W main_v45) := by
  after_results; rfl
set_option maxHeartbeats 400000 in
theorem o2_v59 (W : Valuation τ sig (Elt F)) : StableHlo.after hostOps2 W main_v59 = shapeCast S1x64 (W main_arg5) shapeCasts_S64_S1x64 := by
  after_results; rfl
set_option maxHeartbeats 400000 in
theorem o2_v60 (W : Valuation τ sig (Elt F)) : StableHlo.after hostOps2 W main_v60 = shapeCast S1x4 (W main_arg7) shapeCasts_S4_S1x4 := by
  after_results; rfl

end Reads

section Fold

variable {F : FTy → Type} [FloatOps F] [Named F]
variable (m : (ℓ : Loc nD τ sig) → Buf (Elt F) ℓ)

/-! ### The buffers between the pallas_calls -/

theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg2 (c : Dev nD) : V3 m c main_arg2 = m ((c : Thread nD τ).loc main_arg2) :=
  (V3_of m c main_arg2 (by decide)).trans <| (V2_of m c main_arg2 (by decide)).trans <| (V1_of m c main_arg2 (by decide)).trans rfl

theorem V3_v3 (c : Dev nD) : V3 m c main_v3 = rowOf (m ((c : Thread nD τ).loc main_arg1)) :=
  (V3_of m c main_v3 (by decide)).trans <| (V2_of m c main_v3 (by decide)).trans <| o0_v3 (V0 m c)
theorem V3_v6 (c : Dev nD) : V3 m c main_v6 = colOf (m ((c : Thread nD τ).loc main_arg1)) :=
  (V3_of m c main_v6 (by decide)).trans <| (V2_of m c main_v6 (by decide)).trans <| o0_v6 (V0 m c)

set_option maxHeartbeats 400000 in
theorem V2_v14 (c : Dev nD) : V2 m c main_v14 = dinvOf (colOf (m ((c : Thread nD τ).loc main_arg1))) := by
  refine (o01_v14 (V1 m c)).trans ?_
  rw [show V1 m c main_v12 = _ from o0_v12 (V0 m c), show V1 m c main_v13 = _ from o0_v13 (V0 m c), show V1 m c main_cst_2 = _ from o0_cst2 (V0 m c)]
  rfl

set_option maxHeartbeats 400000 in
theorem V3_v29 (c : Dev nD) : V3 m c main_v29 = nrmOf (m ((c : Thread nD τ).loc main_arg1)) := by
  refine (o02_v29 (V2 m c)).trans ?_
  rw [V2_v14 m c, show V2 m c main_v3 = _ from (V2_of m c main_v3 (by decide)).trans (o0_v3 (V0 m c)),
    show V2 m c main_v6 = _ from (V2_of m c main_v6 (by decide)).trans (o0_v6 (V0 m c))]
  rfl

/-- The three shared arrays, and the arguments no region has written yet, are what the leading host stretches left. -/
theorem X4_v29 (c : Dev nD) : X4 m c main_v29 = nrmOf (m ((c : Thread nD τ).loc main_arg1)) :=
  (X4_of_ne m c main_v29 (by decide)).trans (V3_v29 m c)
theorem X4_v3 (c : Dev nD) : X4 m c main_v3 = rowOf (m ((c : Thread nD τ).loc main_arg1)) :=
  (X4_of_ne m c main_v3 (by decide)).trans (V3_v3 m c)
theorem X4_v6 (c : Dev nD) : X4 m c main_v6 = colOf (m ((c : Thread nD τ).loc main_arg1)) :=
  (X4_of_ne m c main_v6 (by decide)).trans (V3_v6 m c)
theorem X4_arg3 (c : Dev nD) : X4 m c main_arg3 = m ((c : Thread nD τ).loc main_arg3) :=
  (X4_of_ne m c main_arg3 (by decide)).trans <| (V3_of m c main_arg3 (by decide)).trans <| (V2_of m c main_arg3 (by decide)).trans <| (V1_of m c main_arg3 (by decide)).trans rfl
theorem X4_arg4 (c : Dev nD) : X4 m c main_arg4 = m ((c : Thread nD τ).loc main_arg4) :=
  (X4_of_ne m c main_arg4 (by decide)).trans <| (V3_of m c main_arg4 (by decide)).trans <| (V2_of m c main_arg4 (by decide)).trans <| (V1_of m c main_arg4 (by decide)).trans rfl
theorem X4_arg5 (c : Dev nD) : X4 m c main_arg5 = m ((c : Thread nD τ).loc main_arg5) :=
  (X4_of_ne m c main_arg5 (by decide)).trans <| (V3_of m c main_arg5 (by decide)).trans <| (V2_of m c main_arg5 (by decide)).trans <| (V1_of m c main_arg5 (by decide)).trans rfl
theorem X4_arg6 (c : Dev nD) : X4 m c main_arg6 = m ((c : Thread nD τ).loc main_arg6) :=
  (X4_of_ne m c main_arg6 (by decide)).trans <| (V3_of m c main_arg6 (by decide)).trans <| (V2_of m c main_arg6 (by decide)).trans <| (V1_of m c main_arg6 (by decide)).trans rfl
theorem X4_arg7 (c : Dev nD) : X4 m c main_arg7 = m ((c : Thread nD τ).loc main_arg7) :=
  (X4_of_ne m c main_arg7 (by decide)).trans <| (V3_of m c main_arg7 (by decide)).trans <| (V2_of m c main_arg7 (by decide)).trans <| (V1_of m c main_arg7 (by decide)).trans rfl

/-- The first pallas_call's output array. -/
theorem X4_v30 (c : Dev nD) : X4 m c main_v30 = (dat0 (Xr3 m) c).arrAt 2 cfg0.N := X4_arr m c 2

/-- Before the second pallas_call: the aggregated first layer, the bias as a row, the weights as launched. -/
theorem X5_v43 (c : Dev nD) :
    X5 m c main_v43 = agg (nrmOf (m ((c : Thread nD τ).loc main_arg1))) (rowOf (m ((c : Thread nD τ).loc main_arg1))) (colOf (m ((c : Thread nD τ).loc main_arg1))) (X4 m c main_v30) := by
  refine (o1_v43 (X4 m c)).trans ?_
  rw [X4_v29 m c, X4_v3 m c, X4_v6 m c]
theorem X5_v44 (c : Dev nD) : X5 m c main_v44 = shapeCast S1x64 (m ((c : Thread nD τ).loc main_arg3)) shapeCasts_S64_S1x64 := by
  refine (o1_v44 (X4 m c)).trans ?_
  rw [X4_arg3 m c]
theorem X5_arg4 (c : Dev nD) : X5 m c main_arg4 = m ((c : Thread nD τ).loc main_arg4) :=
  (X5_of m c main_arg4 (by decide)).trans (X4_arg4 m c)

/-- The second pallas_call's output array. -/
theorem X6_v45 (c : Dev nD) : X6 m c main_v45 = (dat1 (Xr5 m) c).arrAt 3 cfg1.N := X6_arr m c 3

theorem X6_v29 (c : Dev nD) : X6 m c main_v29 = nrmOf (m ((c : Thread nD τ).loc main_arg1)) :=
  (X6_of_ne m c main_v29 (by decide)).trans <| (X5_of m c main_v29 (by decide)).trans (X4_v29 m c)
theorem X6_v3 (c : Dev nD) : X6 m c main_v3 = rowOf (m ((c : Thread nD τ).loc main_arg1)) :=
  (X6_of_ne m c main_v3 (by decide)).trans <| (X5_of m c main_v3 (by decide)).trans (X4_v3 m c)
theorem X6_v6 (c : Dev nD) : X6 m c main_v6 = colOf (m ((c : Thread nD τ).loc main_arg1)) :=
  (X6_of_ne m c main_v6 (by decide)).trans <| (X5_of m c main_v6 (by decide)).trans (X4_v6 m c)
theorem X6_arg5 (c : Dev nD) : X6 m c main_arg5 = m ((c : Thread nD τ).loc main_arg5) :=
  (X6_of_ne m c main_arg5 (by decide)).trans <| (X5_of m c main_arg5 (by decide)).trans (X4_arg5 m c)
theorem X6_arg6 (c : Dev nD) : X6 m c main_arg6 = m ((c : Thread nD τ).loc main_arg6) :=
  (X6_of_ne m c main_arg6 (by decide)).trans <| (X5_of m c main_arg6 (by decide)).trans (X4_arg6 m c)
theorem X6_arg7 (c : Dev nD) : X6 m c main_arg7 = m ((c : Thread nD τ).loc main_arg7) :=
  (X6_of_ne m c main_arg7 (by decide)).trans <| (X5_of m c main_arg7 (by decide)).trans (X4_arg7 m c)

/-- Before the third pallas_call: the aggregated second layer, the two biases as rows, the head's weights as launched. -/
theorem X7_v58 (c : Dev nD) :
    X7 m c main_v58 = agg (nrmOf (m ((c : Thread nD τ).loc main_arg1))) (rowOf (m ((c : Thread nD τ).loc main_arg1))) (colOf (m ((c : Thread nD τ).loc main_arg1))) (X6 m c main_v45) := by
  refine (o2_v58 (X6 m c)).trans ?_
  rw [X6_v29 m c, X6_v3 m c, X6_v6 m c]
theorem X7_v59 (c : Dev nD) : X7 m c main_v59 = shapeCast S1x64 (m ((c : Thread nD τ).loc main_arg5)) shapeCasts_S64_S1x64 := by
  refine (o2_v59 (X6 m c)).trans ?_
  rw [X6_arg5 m c]
theorem X7_v60 (c : Dev nD) : X7 m c main_v60 = shapeCast S1x4 (m ((c : Thread nD τ).loc main_arg7)) shapeCasts_S4_S1x4 := by
  refine (o2_v60 (X6 m c)).trans ?_
  rw [X6_arg7 m c]
theorem X7_arg6 (c : Dev nD) : X7 m c main_arg6 = m ((c : Thread nD τ).loc main_arg6) :=
  (X7_of m c main_arg6 (by decide)).trans (X6_arg6 m c)

/-- The third pallas_call's output array: the result of @main. -/
theorem X8_v61 (c : Dev nD) : X8 m c main_v61 = (dat2 (Xr7 m) c).arrAt 4 cfg2.N := X8_arr m c 4

end Fold

section Compare

/-- The two products and the head as the reference spells them, opened. -/
theorem layer1_eq {F : FTy → Type} [FloatOps F] (x : (⟨S50000x1, .f32⟩ : BufTy).Contents (Elt F)) (w : (⟨S1x64, .f32⟩ : BufTy).Contents (Elt F)) :
    layer1 x w = Host.dotGeneral Cert.ReferenceIdeal.dot_S50000x1_S1x64_S50000x64_1_0_0_1_n_n none x w := rfl
theorem layer2_eq {F : FTy → Type} [FloatOps F] (h : (⟨S50000x64, .f32⟩ : BufTy).Contents (Elt F)) (b : (⟨S64, .f32⟩ : BufTy).Contents (Elt F)) (w : (⟨S64x64, .f32⟩ : BufTy).Contents (Elt F)) :
    layer2 h b w = Host.dotGeneral Cert.ReferenceIdeal.dot_S50000x64_S64x64_S50000x64_1_0_0_1_n_n none
      (maximumf (addf h (broadcastInDim Cert.ReferenceIdeal.S50000x64 ![0, 1] Cert.ReferenceIdeal.Gen.facts.bcast_S1x64_S50000x64_0_1 (broadcastInDim Cert.ReferenceIdeal.S1x64 ![1] Cert.ReferenceIdeal.Gen.facts.bcast_S64_S1x64_1 b)))
        (broadcastInDim Cert.ReferenceIdeal.S50000x64 ![] Cert.ReferenceIdeal.Gen.facts.bcast_S_S50000x64 (constant Cert.ReferenceIdeal.S_ .f32 0x00000000#32))) w := rfl
theorem refHead_eq {F : FTy → Type} [FloatOps F] (h : (⟨S50000x64, .f32⟩ : BufTy).Contents (Elt F)) (b : (⟨S64, .f32⟩ : BufTy).Contents (Elt F)) (w : (⟨S64x4, .f32⟩ : BufTy).Contents (Elt F)) (bfc : (⟨S4, .f32⟩ : BufTy).Contents (Elt F)) :
    refHead h b w bfc = logSoftmax (logitsOf h b w bfc) := rfl

set_option maxHeartbeats 400000 in
/-- THE COMPARISON. Let the three pallas_calls' output arrays be functions `K0`, `K1`, `K2` of the arrays each region finds, and
    let those functions be the reference's two products and its head (the biases entering the regions as rows). Then from
    memories that agree on the eight arguments, the buffer @main returns ends holding the reference's composed term:
    both sides are the head of the aggregation of the second product of the aggregation of the first product, the
    aggregation being one and the same function of the edge array on both sides. -/
theorem result_eq_ref
    (K0 : Vec Ideal S50000x1 .f32 → Vec Ideal S1x64 .f32 → Vec Ideal S50000x64 .f32)
    (K1 : Vec Ideal S50000x64 .f32 → Vec Ideal S1x64 .f32 → Vec Ideal S64x64 .f32 → Vec Ideal S50000x64 .f32)
    (K2 : Vec Ideal S50000x64 .f32 → Vec Ideal S1x64 .f32 → Vec Ideal S64x4 .f32 → Vec Ideal S1x4 .f32 → Vec Ideal S1x4 .f32)
    (h0 : ∀ (V : (c : Dev nD) → (b : Ref sig .tc) → Buf (Elt Ideal) ((c : Thread nD τ).loc b)) (c : Dev nD),
      (dat0 (F := Ideal) V c).arrAt 2 cfg0.N = K0 (V c main_arg0) (V c main_arg2))
    (h1 : ∀ (V : (c : Dev nD) → (b : Ref sig .tc) → Buf (Elt Ideal) ((c : Thread nD τ).loc b)) (c : Dev nD),
      (dat1 (F := Ideal) V c).arrAt 3 cfg1.N = K1 (V c main_v43) (V c main_v44) (V c main_arg4))
    (h2 : ∀ (V : (c : Dev nD) → (b : Ref sig .tc) → Buf (Elt Ideal) ((c : Thread nD τ).loc b)) (c : Dev nD),
      (dat2 (F := Ideal) V c).arrAt 4 cfg2.N = K2 (V c main_v58) (V c main_v59) (V c main_arg6) (V c main_v60))
    (e0 : ∀ x w, K0 x w = layer1 (F := Ideal) x w)
    (e1 : ∀ (h : Vec Ideal S50000x64 .f32) (b1 : Vec Ideal S64 .f32) (w : Vec Ideal S64x64 .f32),
      K1 h (shapeCast S1x64 b1 shapeCasts_S64_S1x64) w = layer2 (F := Ideal) h b1 w)
    (e2 : ∀ (h : Vec Ideal S50000x64 .f32) (b2 : Vec Ideal S64 .f32) (w : Vec Ideal S64x4 .f32) (bfc : Vec Ideal S4 .f32),
      K2 h (shapeCast S1x64 b2 shapeCasts_S64_S1x64) w (shapeCast S1x4 bfc shapeCasts_S4_S1x4) = refHead (F := Ideal) h b2 w bfc)
    (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)) :
    X8 (F := Ideal) m c main_v61 = Cert.ReferenceIdeal.ValueP.res_main_v96 (F := Ideal) m' c := by
  obtain ⟨a0, a1, a2, a3, a4, a5, a6, a7⟩ := hagree
  rw [res_eq m' c, a0, a1, a2, a3, a4, a5, a6, a7]
  have s4 : X4 m c main_v30 = layer1 (m ((c : Thread nD τ).loc main_arg0)) (m ((c : Thread nD τ).loc main_arg2)) := by
    rw [X4_v30 m c, h0 (Xr3 m) c, e0]
    show layer1 (V3 m c main_arg0) (V3 m c main_arg2) = _
    rw [V3_arg0 m c, V3_arg2 m c]
  have s6 : X6 m c main_v45
      = layer2 (agg (nrmOf (m ((c : Thread nD τ).loc main_arg1))) (rowOf (m ((c : Thread nD τ).loc main_arg1))) (colOf (m ((c : Thread nD τ).loc main_arg1))) (layer1 (m ((c : Thread nD τ).loc main_arg0)) (m ((c : Thread nD τ).loc main_arg2))))
          (m ((c : Thread nD τ).loc main_arg3)) (m ((c : Thread nD τ).loc main_arg4)) := by
    rw [X6_v45 m c, h1 (Xr5 m) c]
    show K1 (X5 m c main_v43) (X5 m c main_v44) (X5 m c main_arg4) = _
    rw [X5_v43 m c, X5_v44 m c, X5_arg4 m c, e1, s4]
  rw [X8_v61 m c, h2 (Xr7 m) c]
  show K2 (X7 m c main_v58) (X7 m c main_v59) (X7 m c main_arg6) (X7 m c main_v60) = _
  rw [X7_v58 m c, X7_v59 m c, X7_arg6 m c, X7_v60 m c, e2, s6]
  rfl

end Compare

end Cert.KernelIdeal.Hand

end
-- ==== Proof.KI.Val0.lean ====
/-
  The first pallas_call's value at the ideal instance: the output array [50000, 64] as one function
  of the column x [50000, 1] and the row W1 [1, 64], entry (i, j) ↦ x(i, 0) · W1(0, j). The body's
  product of the two broadcast blocks read at an entry; each input block as entries of its array
  (row block t of x is rows 5000·t … 5000·t + 4999, the one block of W1 is W1); what a grid point
  writes back is its block of that function; the ten row blocks cover the array. The reference
  computes the same array as a contraction over an axis of extent 1.
-/
import proofs.«127257_j88399016886916_1_alg».proof.Proof.KI.Reg0
import proofs.«127257_j88399016886916_1_alg».proof.Proof.RefRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-- (i, j) ↦ x(i, 0) · w(0, j). -/
def G0 (x : Vec Ideal S50000x1 .f32) (w : Vec Ideal S1x64 .f32) : Vec Ideal S50000x64 .f32 :=
  fun j => x (ix2 (j 0) (0 : Fin 1)) * w (ix2 (0 : Fin 1) (j 1))

theorem G0_apply (x : Vec Ideal S50000x1 .f32) (w : Vec Ideal S1x64 .f32) (j : S50000x64.Idx) :
    G0 x w j = x (ix2 (j 0) (0 : Fin 1)) * w (ix2 (0 : Fin 1) (j 1)) := rfl

/-- A column [a, 1] broadcast to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at an entry of the block: the column's block at the row times the row's block at the column. -/
theorem pay0_apply (xb : Vec Ideal S5000x1 .f32) (wb : Vec Ideal S1x64 .f32) (p : Fin 5000) (q : Fin 64) :
    k0_pay1 (F := Ideal) xb wb (ix2 p q) = xb (ix2 p (0 : Fin 1)) * wb (ix2 (0 : Fin 1) q) := by
  unfold k0_pay1
  show broadcastTo S5000x64 xb _ (ix2 p q) * broadcastTo S5000x64 wb _ (ix2 p q) = _
  rw [broadcastTo_a1_ab_apply xb _ p q, broadcastTo_1b_ab_apply wb _ p q]

theorem hz0 : (![0, 0] : Fin 2 → Nat) = fun _ => 0 := funext fun a => by fin_cases a <;> rfl

variable (V : (c : Dev nD) → (b : Ref sig .tc) → Buf (Elt Ideal) ((c : Thread nD τ).loc b))

/-- The printed index maps over the grid: x's and the output's blocks are at (t, 0), W1's at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of x is rows 5000·t … 5000·t + 4999 of x. -/
theorem xblk_apply (c : Dev nD) (t : Fin cfg0.N) (y : S5000x1.Idx) (k : S50000x1.Idx)
    (hk0 : (k 0).val = 5000 * t.val + (y 0).val) (hk1 : (k 1).val = (y 1).val) :
    (iblk0 (F := Ideal) V c 0 t : Vec Ideal S5000x1 .f32) y = (V c main_arg0 : Vec Ideal S50000x1 .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 1 + 1 * (y 1).val = (k 1).val; rw [e1, hk1]; omega

/-- The one block of W1 is W1. -/
theorem wblk_apply (c : Dev nD) (t : Fin cfg0.N) (y : S1x64.Idx) (k : S1x64.Idx)
    (hk0 : (k 0).val = (y 0).val) (hk1 : (k 1).val = (y 1).val) :
    (iblk0 (F := Ideal) V c 1 t : Vec Ideal S1x64 .f32) y = (V c main_arg2 : Vec Ideal S1x64 .f32) k := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 1 + 1 * (y 0).val = (k 0).val; rw [e0, hk0]; omega
  | ⟨1, _⟩ => show win0_1.index t (1 : Fin 2) * 64 + 1 * (y 1).val = (k 1).val; rw [e1, hk1]; omega

/-- What grid point t writes back is row block t of the product array. -/
theorem flushed0_eq (c : Dev nD) (t : Fin cfg0.N) :
    (dat0 (F := Ideal) V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x1) hz0, View.ld_unit_zero (S := S1x64) hz0]
  obtain ⟨-, -, -, -, e0, e1⟩ := idx_facts0 t
  funext j
  show k0_pay1 (F := Ideal) (iblk0 V c 0 t) (iblk0 V c 1 t) j = G0 (V c main_arg0) (V c main_arg2) (((cfg0.win 2).blk t).view.emb j)
  refine (congrArg (k0_pay1 (F := Ideal) (iblk0 V c 0 t) (iblk0 V c 1 t)) (eq_ix2 j)).trans ?_
  refine (pay0_apply (iblk0 V c 0 t) (iblk0 V c 1 t) (j 0) (j 1)).trans ?_
  rw [G0_apply]
  have hj0 : (j 0).val < 5000 := (j 0).isLt
  have hj1 : (j 1).val < 64 := (j 1).isLt
  congr 1
  · refine xblk_apply V c t (ix2 (j 0) (0 : Fin 1)) _ ?_ rfl
    show win0_2.index t (0 : Fin 2) * 5000 + 1 * (j 0).val = 5000 * t.val + (j 0).val
    rw [e0]; omega
  · refine wblk_apply V c t (ix2 (0 : Fin 1) (j 1)) _ rfl ?_
    show win0_2.index t (1 : Fin 2) * 64 + 1 * (j 1).val = (j 1).val
    rw [e1]; omega

/-- An entry of the output array is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every entry of the output array is in some point's block: row r is in row block r / 5000. -/
theorem cover0 (i : S50000x64.Idx) :
    ∃ t : Fin cfg0.N, (cfg0.win 2).flush t = true ∧ i ∈ ((cfg0.win 2).blk t).view.set := by
  have hi0 : (i 0).val < 50000 := idx2_lt0 i
  have hi1 : (i 1).val < 64 := idx2_lt1 i
  obtain ⟨t, ht⟩ : ∃ t : Fin cfg0.N, t.val = (i 0).val / 5000 :=
    ⟨⟨(i 0).val / 5000, by rw [show cfg0.N = 10 from N_0]; omega⟩, rfl⟩
  obtain ⟨-, -, -, -, e0, e1⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- After the region the output array is the product array of the two arguments as the region found them. -/
theorem final0 (c : Dev nD) :
    (dat0 (F := Ideal) V c).arrAt 2 cfg0.N = G0 (V c main_arg0) (V c main_arg2) :=
  (dat0 (F := Ideal) V c).arrAt_eq_of_cover 2 (G0 (V c main_arg0) (V c main_arg2)) (fun t _ => flushed0_eq V c t) cover0

/-- The reference computes the same array as a contraction over an axis of extent 1. -/
theorem G0_eq_ref (x : Vec Ideal S50000x1 .f32) (w : Vec Ideal S1x64 .f32) :
    G0 x w = Host.dotGeneral (F := Ideal) (φ₁ := .f32) (φ₂ := .f32) Cert.ReferenceIdeal.dot_S50000x1_S1x64_S50000x64_1_0_0_1_n_n none x w := by
  funext i
  refine Eq.trans ?_ (Cert.ReferenceIdeal.ReadP.val_main_v7_apply x w i).symm
  rw [Fin.sum_univ_one, G0_apply]
  congr 1
  · congr 1; funext a; match a with | ⟨0, _⟩ => rfl | ⟨1, _⟩ => rfl
  · congr 1; funext a; match a with | ⟨0, _⟩ => rfl | ⟨1, _⟩ => rfl

end Cert.KernelIdeal.Hand

end
-- ==== Proof.KI.Val1.lean ====
/-
  The second pallas_call's output array as ONE function of the three arrays the region finds:
  entry (i, j) is Σ k, max (h(i,k) + b(0,k)) 0 · w(k,j). The body's stored block, read at an entry, is
  that sum over the block's own rows (a matrix product into the zero accumulator is the plain sum over
  the contracted axis; the format changes are the identity on extended reals; the bias row is laid along
  every row); grid point t holds rows 5000·t … 5000·t + 4999 of h and the whole of b and w, so what it
  writes back is block t of the whole-array function; the ten row blocks tile the 50000 rows (row r lies
  in block r / 5000), so the array ends holding that function. Last, the same function is the reference's
  spelling: the bias vector broadcast along the rows, the maximum against a broadcast zero, one product
  over the whole array.
-/
import proofs.«127257_j88399016886916_1_alg».proof.Proof.KI.Reg1
import proofs.«127257_j88399016886916_1_alg».proof.Proof.Gen.ReferenceIdeal
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

theorem hz1 : (![0, 0] : Fin 2 → Nat) = fun _ => 0 := funext fun a => by fin_cases a <;> rfl

/-- (i, j) ↦ Σ k : Fin 64, max (h(i,k) + b(0,k)) 0 · w(k,j) -/
def G1 (h : Vec Ideal S50000x64 .f32) (b : Vec Ideal S1x64 .f32) (w : Vec Ideal S64x64 .f32) : Vec Ideal S50000x64 .f32 :=
  fun i => ∑ k : Fin 64, max (h (ix2 (i 0) k) + b (ix2 (0 : Fin 1) k)) 0 * w (ix2 k (i 1))

theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's matrix product into the zero accumulator, read at (p, q): the sum over the contracted axis. -/
theorem matmul_blk_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_blk_0 _ _).trans hk
    | ⟨1, _⟩ => exact rhs_blk_1 _ _)
  rw [el, er]

/-- The bias row laid along every row of the block, read at (p, k). -/
theorem bias_blk_apply (x1 : Vec Ideal S1x64 .f32) (p : Fin 5000) (k : Fin 64) :
    broadcastTo S5000x64 x1 broadcasts_S1x64_S5000x64 (ix2 p k) = x1 (ix2 (0 : Fin 1) k) :=
  broadcastTo_apply x1 broadcasts_S1x64_S5000x64 (ix2 p k) (ix2 (0 : Fin 1) k) (fun a => by
    match a with
    | ⟨0, _⟩ => rfl
    | ⟨1, _⟩ => rfl)

/-- What the body stores, read at (p, q) of the block. -/
theorem pay1_apply (x0 : Vec Ideal S5000x64 .f32) (x1 : Vec Ideal S1x64 .f32) (x2 : Vec Ideal S64x64 .f32) (p : Fin 5000) (q : Fin 64) :
    k1_pay1 (F := Ideal) x0 x1 x2 (ix2 p q) = ∑ k : Fin 64, max (x0 (ix2 p k) + x1 (ix2 (0 : Fin 1) k)) 0 * x2 (ix2 k q) := by
  unfold k1_pay1
  refine (matmul_blk_apply _ _ p q).trans ?_
  refine Finset.sum_congr rfl fun k _ => ?_
  rw [shapeCast_self, shapeCast_self]
  show max (x0 (ix2 p k) + broadcastTo S5000x64 x1 broadcasts_S1x64_S5000x64 (ix2 p k)) (Ideal.ofBits .f32 0x00000000#32) * x2 (ix2 k q) = _
  rw [bias_blk_apply, Ideal.ofBits_zero_f32]

variable (V : (c : Dev nD) → (b : Ref sig .tc) → Buf (Elt Ideal) ((c : Thread nD τ).loc b))

/-- The windows' index maps over the ten grid points: the blocked windows sit at row block `t`, column block 0;
    the resident windows at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a stored block is the whole-array function at the entry's place in the array: row `n · 5000 + y₀`,
    column `y₁`, when the input block is rows `n · 5000 …` of `h` and the resident blocks are `b` and `w`. -/
theorem blk_point (h : Vec Ideal S50000x64 .f32) (b : Vec Ideal S1x64 .f32) (w : Vec Ideal S64x64 .f32)
    (x0 : Vec Ideal S5000x64 .f32) (x1 : Vec Ideal S1x64 .f32) (x2 : Vec Ideal S64x64 .f32) (n : Nat)
    (h0 : ∀ (y : S5000x64.Idx) (i : S50000x64.Idx), (i 0).val = n * 5000 + (y 0).val → (i 1).val = (y 1).val → x0 y = h i)
    (h1 : x1 = b) (h2 : x2 = w)
    (y : S5000x64.Idx) (i : S50000x64.Idx) (hi0 : (i 0).val = n * 5000 + (y 0).val) (hi1 : (i 1).val = (y 1).val) :
    k1_pay1 (F := Ideal) x0 x1 x2 y = G1 h b w i := by
  obtain ⟨p, q, rfl⟩ : ∃ (p : Fin 5000) (q : Fin 64), y = ix2 p q := ⟨y 0, y 1, eq_ix2 y⟩
  rw [pay1_apply]
  unfold G1
  refine Finset.sum_congr rfl fun k _ => ?_
  rw [h0 (ix2 p k) (ix2 (i 0) k) hi0 rfl, h1, h2]
  exact congrArg (fun z => max (h (ix2 (i 0) k) + b (ix2 (0 : Fin 1) k)) 0 * w z) (funext fun a => Fin.ext (by
    match a with
    | ⟨0, _⟩ => rfl
    | ⟨1, _⟩ => exact hi1.symm))

/-- WHAT POINT `t` WRITES BACK is block `t` of `G1` of the three arrays as the region finds them. -/
theorem flushed1_eq (c : Dev nD) (t : Fin cfg1.N) :
    (dat1 (F := Ideal) V c).flushed 3 t = ((cfg1.win 3).blk t).view.read (Elt Ideal) (G1 (V c main_v43) (V c main_v44) (V c main_arg4)) := by
  show (cfg1.win 3).cut (grid1.coords t) ((dat1 V c).after 3 t) = _
  rw [after1_3]
  unfold out1_3
  rw [View.canon_unit_zero hz1]
  simp only [View.ld_unit_zero (S := S5000x64) hz1, View.ld_unit_zero (S := S1x64) hz1, View.ld_unit_zero (S := S64x64) hz1]
  obtain ⟨e0, e1, e2, e3, e4, e5, e6, e7⟩ := idx_facts1 t
  funext j
  show k1_pay1 (F := Ideal) (iblk1 V c 0 t) (iblk1 V c 1 t) (iblk1 V c 2 t) j = G1 (V c main_v43) (V c main_v44) (V c main_arg4) (((cfg1.win 3).blk t).view.emb j)
  refine blk_point (V c main_v43) (V c main_v44) (V c main_arg4) (iblk1 V c 0 t) (iblk1 V c 1 t) (iblk1 V c 2 t) t.val ?_ ?_ ?_ j (((cfg1.win 3).blk t).view.emb j) ?_ ?_
  · intro y i hi0 hi1
    show V c main_v43 (((cfg1.win 0).blk t).view.emb y) = V c main_v43 i
    refine congrArg (V c main_v43) (funext fun a => Fin.ext ?_)
    match a with
    | ⟨0, _⟩ => show win1_0.index t (0 : Fin 2) * 5000 + 1 * (y 0).val = (i 0).val; rw [e0, hi0]; omega
    | ⟨1, _⟩ => show win1_0.index t (1 : Fin 2) * 64 + 1 * (y 1).val = (i 1).val; rw [e1, hi1]; omega
  · funext y
    show V c main_v44 (((cfg1.win 1).blk t).view.emb y) = V c main_v44 y
    refine congrArg (V c main_v44) (funext fun a => Fin.ext ?_)
    match a with
    | ⟨0, _⟩ => show win1_1.index t (0 : Fin 2) * 1 + 1 * (y 0).val = (y 0).val; rw [e2]; omega
    | ⟨1, _⟩ => show win1_1.index t (1 : Fin 2) * 64 + 1 * (y 1).val = (y 1).val; rw [e3]; omega
  · funext y
    show V c main_arg4 (((cfg1.win 2).blk t).view.emb y) = V c main_arg4 y
    refine congrArg (V c main_arg4) (funext fun a => Fin.ext ?_)
    match a with
    | ⟨0, _⟩ => show win1_2.index t (0 : Fin 2) * 64 + 1 * (y 0).val = (y 0).val; rw [e4]; omega
    | ⟨1, _⟩ => show win1_2.index t (1 : Fin 2) * 64 + 1 * (y 1).val = (y 1).val; rw [e5]; omega
  · show win1_3.index t (0 : Fin 2) * 5000 + 1 * (j 0).val = t.val * 5000 + (j 0).val; rw [e6]; omega
  · show win1_3.index t (1 : Fin 2) * 64 + 1 * (j 1).val = (j 1).val; rw [e7]; omega

/-- An index of the array is in point `t`'s block iff each coordinate is in the block's range on its axis. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v45).slice (win1_3.rect t)).set ↔ _
  rw [View.set_slice_whole, Rect.mem_set_unit]
  exact Iff.rfl

/-- THE ARRAY after the ten points: the row blocks tile it (row `r` is in block `r / 5000`), so it holds `G1`. -/
theorem final1 (c : Dev nD) :
    (dat1 (F := Ideal) V c).arrAt 3 cfg1.N = G1 (V c main_v43) (V c main_v44) (V c main_arg4) :=
  (dat1 (F := Ideal) V c).arrAt_eq_of_cover 3 (G1 (V c main_v43) (V c main_v44) (V c main_arg4)) (fun t _ => flushed1_eq V c t) fun i => by
    have hi0 : (i 0).val < 50000 := (i 0).isLt
    have hi1 : (i 1).val < 64 := (i 1).isLt
    have hN : cfg1.N = 10 := N_1
    have ht : (i 0).val / 5000 < cfg1.N := by rw [hN]; omega
    obtain ⟨e0, e1, e2, e3, e4, e5, e6, e7⟩ := idx_facts1 ⟨(i 0).val / 5000, ht⟩
    refine ⟨⟨(i 0).val / 5000, ht⟩, flush1_3 _, ?_⟩
    rw [mem_blk1]
    intro a
    match a with
    | ⟨0, _⟩ => show win1_3.index ⟨(i 0).val / 5000, ht⟩ (0 : Fin 2) * 5000 ≤ (i 0).val ∧ (i 0).val < win1_3.index ⟨(i 0).val / 5000, ht⟩ (0 : Fin 2) * 5000 + 5000; rw [e6]; show (i 0).val / 5000 * 5000 ≤ (i 0).val ∧ (i 0).val < (i 0).val / 5000 * 5000 + 5000; omega
    | ⟨1, _⟩ => show win1_3.index ⟨(i 0).val / 5000, ht⟩ (1 : Fin 2) * 64 ≤ (i 1).val ∧ (i 1).val < win1_3.index ⟨(i 0).val / 5000, ht⟩ (1 : Fin 2) * 64 + 64; rw [e7]; omega

/-! ## The same function in the reference's spelling -/

theorem lhs_ref_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x64_S50000x64_1_0_0_1_n_n.lhsBatch by decide), dif_pos (show (0 : Fin Cert.ReferenceIdeal.S50000x64.rank) ∈ Cert.ReferenceIdeal.dot_S50000x64_S64x64_S50000x64_1_0_0_1_n_n.lhsNonContracting by decide)]
  rfl
theorem lhs_ref_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.lhsIdx i q 1).val = (q ⟨0, by decide⟩).val :=
  Cert.ReferenceIdeal.dot_S50000x64_S64x64_S50000x64_1_0_0_1_n_n.lhsIdx_val_of_single rfl i q
theorem rhs_ref_0 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 0).val = (q ⟨0, by decide⟩).val :=
  Cert.ReferenceIdeal.dot_S50000x64_S64x64_S50000x64_1_0_0_1_n_n.rhsIdx_val_of_single rfl i q
theorem rhs_ref_1 (i : Cert.ReferenceIdeal.S50000x64.Idx) (q : Cert.ReferenceIdeal.dot_S50000x64_S64x64_S50000x64_1_0_0_1_n_n.contr.Idx) :
    (Cert.ReferenceIdeal.dot_S50000x64_S64x64_S50000x64_1_0_0_1_n_n.rhsIdx i q 1).val = (i 1).val := by
  unfold DotDims.rhsIdx
  rw [dif_neg (show ¬(1 : Fin Cert.ReferenceIdeal.S64x64.rank) ∈ Cert.ReferenceIdeal.dot_S50000x64_S64x64_S50000x64_1_0_0_1_n_n.rhsBatch by decide), dif_pos (show (1 : Fin Cert.ReferenceIdeal.S64x64.rank) ∈ Cert.ReferenceIdeal.dot_S50000x64_S64x64_S50000x64_1_0_0_1_n_n.rhsNonContracting by decide)]
  rfl

/-- The reference's one product over the whole array, read at (r, q): the sum over the contracted axis. -/
theorem dot_ref_apply (l : FVec Ideal S50000x64 .f32) (w : FVec Ideal S64x64 .f32) (r : Fin 50000) (q : Fin 64) :
    Host.dotGeneral (F := Ideal) Cert.ReferenceIdeal.dot_S50000x64_S64x64_S50000x64_1_0_0_1_n_n none l w (ix2 r q)
      = ∑ k : Fin 64, l (ix2 r k) * w (ix2 k q) := by
  simp only [Host.dotGeneral]
  rw [Ideal.dotGeneral_apply, ← Equiv.sum_comp (ValueIdx.contrEquiv1 Cert.ReferenceIdeal.dot_S50000x64_S64x64_S50000x64_1_0_0_1_n_n 64 rfl rfl).symm]
  refine Finset.sum_congr rfl fun k _ => ?_
  have hk := ValueIdx.contrEquiv1_symm_val Cert.ReferenceIdeal.dot_S50000x64_S64x64_S50000x64_1_0_0_1_n_n 64 rfl rfl k
  have el : Cert.ReferenceIdeal.dot_S50000x64_S64x64_S50000x64_1_0_0_1_n_n.lhsIdx (ix2 r q) ((ValueIdx.contrEquiv1 Cert.ReferenceIdeal.dot_S50000x64_S64x64_S50000x64_1_0_0_1_n_n 64 rfl rfl).symm k) = ix2 r k := funext fun a => Fin.ext (by
    match a with
    | ⟨0, _⟩ => exact lhs_ref_0 _ _
    | ⟨1, _⟩ => exact (lhs_ref_1 _ _).trans hk)
  have er : Cert.ReferenceIdeal.dot_S50000x64_S64x64_S50000x64_1_0_0_1_n_n.rhsIdx (ix2 r q) ((ValueIdx.contrEquiv1 Cert.ReferenceIdeal.dot_S50000x64_S64x64_S50000x64_1_0_0_1_n_n 64 rfl rfl).symm k) = ix2 k q := funext fun a => Fin.ext (by
    match a with
    | ⟨0, _⟩ => exact (rhs_ref_0 _ _).trans hk
    | ⟨1, _⟩ => exact rhs_ref_1 _ _)
  rw [el, er]

/-- The bias vector as a row and then along every row, read at (r, k): entry k of the vector. -/
theorem bias_ref_apply (b1 : Vec Ideal S64 .f32) (r : Fin 50000) (k : Fin 64) :
    broadcastInDim S50000x64 ![0, 1] Cert.ReferenceIdeal.Gen.bcast_S1x64_S50000x64_0_1 (broadcastInDim S1x64 ![1] Cert.ReferenceIdeal.Gen.bcast_S64_S1x64_1 b1) (ix2 r k) = b1 (ix1 k) := by
  refine (broadcastInDim_apply _ Cert.ReferenceIdeal.Gen.bcast_S1x64_S50000x64_0_1 _ (ix2 r k) (ix2 (0 : Fin 1) k) (fun a => ?_)).trans ?_
  · match a with
    | ⟨0, _⟩ => show 0 = if (1 : Nat) = 1 then 0 else r.val; rw [if_pos rfl]
    | ⟨1, _⟩ => show k.val = if (64 : Nat) = 1 then 0 else k.val; rw [if_neg (by decide)]
  · exact broadcastInDim_apply _ Cert.ReferenceIdeal.Gen.bcast_S64_S1x64_1 b1 (ix2 (0 : Fin 1) k) (ix1 k) (fun a => by
      match a with
      | ⟨0, _⟩ => show k.val = if (64 : Nat) = 1 then 0 else k.val; rw [if_neg (by decide)])

/-- The host's reshape of the bias vector to a row, read at (0, k): entry k of the vector. -/
theorem bias_row_apply (b1 : Vec Ideal S64 .f32) (k : Fin 64) :
    shapeCast S1x64 b1 shapeCasts_S64_S1x64 (ix2 (0 : Fin 1) k) = b1 (ix1 k) :=
  shapeCast_apply b1 shapeCasts_S64_S1x64 (ix2 (0 : Fin 1) k) (ix1 k)
    (by rewrite [Shape.rowMajor_val_two, Shape.rowMajor_val_one]; show k.val = 0 * 64 + k.val; omega)

/-- The zero the reference rectifies against, read at any index: the real 0. -/
theorem zero_ref_apply (j : S50000x64.Idx) :
    broadcastInDim S50000x64 ![] Cert.ReferenceIdeal.Gen.bcast_S_S50000x64 (constant (F := Ideal) S_ .f32 0x00000000#32) j = 0 :=
  (broadcastInDim_apply _ Cert.ReferenceIdeal.Gen.bcast_S_S50000x64 (constant (F := Ideal) S_ .f32 0x00000000#32) j ix0 (fun a => a.elim0)).trans Ideal.ofBits_zero_f32

/-- The reference adds the bias broadcast from [64], rectifies against a broadcast zero, and takes ONE dot_general over
    the whole array; the kernel's bias row is the host's reshape of the same [64] vector. -/
theorem G1_eq_ref (h : Vec Ideal S50000x64 .f32) (b1 : Vec Ideal S64 .f32) (w : FVec Ideal S64x64 .f32) :
    G1 h (shapeCast S1x64 b1 shapeCasts_S64_S1x64) w
      = Host.dotGeneral (F := Ideal) Cert.ReferenceIdeal.dot_S50000x64_S64x64_S50000x64_1_0_0_1_n_n none
          (maximumf (addf h (broadcastInDim S50000x64 ![0, 1] Cert.ReferenceIdeal.Gen.bcast_S1x64_S50000x64_0_1 (broadcastInDim S1x64 ![1] Cert.ReferenceIdeal.Gen.bcast_S64_S1x64_1 b1)))
            (broadcastInDim S50000x64 ![] Cert.ReferenceIdeal.Gen.bcast_S_S50000x64 (constant (F := Ideal) S_ .f32 0x00000000#32))) w := by
  funext i
  obtain ⟨r, q, rfl⟩ : ∃ (r : Fin 50000) (q : Fin 64), i = ix2 r q := ⟨i 0, i 1, eq_ix2 i⟩
  refine Eq.trans ?_ (dot_ref_apply _ w r q).symm
  show (∑ k : Fin 64, max (h (ix2 r k) + shapeCast S1x64 b1 shapeCasts_S64_S1x64 (ix2 (0 : Fin 1) k)) 0 * w (ix2 k q)) = _
  refine Finset.sum_congr rfl fun k _ => ?_
  show _ = max (h (ix2 r k) + broadcastInDim S50000x64 ![0, 1] Cert.ReferenceIdeal.Gen.bcast_S1x64_S50000x64_0_1 (broadcastInDim S1x64 ![1] Cert.ReferenceIdeal.Gen.bcast_S64_S1x64_1 b1) (ix2 r k))
      (broadcastInDim S50000x64 ![] Cert.ReferenceIdeal.Gen.bcast_S_S50000x64 (constant (F := Ideal) S_ .f32 0x00000000#32) (ix2 r k)) * w (ix2 k q)
  rw [bias_row_apply, bias_ref_apply, zero_ref_apply]

end Cert.KernelIdeal.Hand

end
-- ==== Proof.KI.Spec2.lean ====
/-
  The column sums the third pallas_call accumulates, as one function of the whole arrays: entry k of
  the row is the sum over all 50000 rows i of max (h(i,k) + b(0,k)) 0, on the extended reals.
-/
import proofs.«127257_j88399016886916_1_alg».proof.KernelIdeal
import Idealize.ShloMosaic.PureOps.Ideal
import Idealize.ShloMosaic.Lib.ValueIdx

noncomputable section

namespace Cert.KernelIdeal.Hand

open Cert.KernelIdeal Idealize.ShloMosaic Idealize.ShloMosaic.ValueIdx

/-- Row of the column sums of the rectified, shifted features. -/
def colsums (h : Vec Ideal S50000x64 .f32) (b : Vec Ideal S1x64 .f32) : Vec Ideal S1x64 .f32 :=
  fun j => ∑ i : Fin 50000, max (h (ix2 i (j 1)) + b (ix2 (0 : Fin 1) (j 1))) (0 : EReal)

end Cert.KernelIdeal.Hand

end
-- ==== Proof.KI.Val2.lean ====
/-
  The third pallas_call's output array as ONE function of the four arrays the region finds. The scratch row after
  grid point n holds, at column k, the sum over the rows 0 … 5000·(n+1) − 1 of max (h(i,k) + b(0,k)) 0: the first
  point starts from the zero row, every point adds the column sums of its own 5000 rows (a reduction of the block
  over its row axis is the plain sum over the rows; addition on the extended reals is associative, so consecutive
  ranges of rows concatenate), and point t's block is rows 5000·t … 5000·t + 4999 of h. After the tenth point the
  row is the column sums over all 50000 rows; the last point computes from it the mean, the final linear map, the
  bias and the log-softmax, and its one block (the whole [1,4] array) is the only one written back.
-/
import proofs.«127257_j88399016886916_1_alg».proof.Proof.KI.Reg2
import proofs.«127257_j88399016886916_1_alg».proof.Proof.KI.Spec2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

theorem hz2 : (![0, 0] : Fin 2 → Nat) = fun _ => 0 := funext fun a => by fin_cases a <;> rfl

/-! ## What each control case leaves, as the body's arithmetic -/

section pieces
variable {F : FTy → Type} [FloatOps F] [Named F]

/-- First row block: the scratch row is reset to the zero row, read back, and the block's column sums added. -/
theorem sout2_A_0_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : cond2_0 i) (hc1 : ¬cond2_1 i)
    (x0 : Vec F S5000x64 .f32) (x1 : Vec F S1x64 .f32) (x2 : Vec F S64x4 .f32) (x3 : Vec F S1x4 .f32) :
    sout2_A_0 c i arg1 harg1 arg2 harg2 arg3 harg3 arg4 harg4 arg5 harg5 arg6 harg6 hc0 hc1 x0 x1 x2 x3 = k2_pay2 x0 x1 (k2_pay1 (F := F)) := by
  unfold sout2_A_0
  rw [View.read_writes_eq_canon _ _ _ (scover2_A_0 c i arg1 harg1 arg2 harg2 arg3 harg3 arg4 harg4 arg5 harg5 arg6 harg6 hc0 hc1 x0 x1 x2 x3)]
  unfold kernelRun2_A
  dsimp only
  sl_unfold_words
  rw [View.canon_cons_unit_zero (S := S1x64) hz2]
  simp only [View.readAt_eq_ld, harg1.read_unread, harg2.read_unread, View.ld_unit_zero (S := S5000x64) hz2, View.ld_unit_zero (S := S1x64) hz2, View.readCov_unit_zero (S := S1x64) _ hz2]

/-- A middle row block: the block's column sums are added to the scratch row as found. -/
theorem sout2_B_0_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : ¬cond2_1 i)
    (x0 : Vec F S5000x64 .f32) (x1 : Vec F S1x64 .f32) (x2 : Vec F S64x4 .f32) (x3 : Vec F S1x4 .f32) (xs0 : Vec F S1x64 .f32) :
    sout2_B_0 c i arg1 harg1 arg2 harg2 arg3 harg3 arg4 harg4 arg5 harg5 arg6 harg6 hc0 hc1 x0 x1 x2 x3 xs0 = k2_pay2 x0 x1 xs0 := by
  unfold sout2_B_0
  rw [View.read_writes_eq_canon _ _ _ (scover2_B_0 c i arg1 harg1 arg2 harg2 arg3 harg3 arg4 harg4 arg5 harg5 arg6 harg6 hc0 hc1 x0 x1 x2 x3 xs0)]
  unfold kernelRun2_B
  dsimp only
  sl_unfold_words
  rw [View.canon_unit_zero hz2]
  simp only [View.readAt_eq_ld, harg1.read_unread, harg2.read_unread, harg6.read_unread, View.ld_unit_zero (S := S5000x64) hz2, View.ld_unit_zero (S := S1x64) hz2]

/-- The last row block leaves the same in the scratch row: the found row plus the block's column sums. -/
theorem sout2_C_0_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) :
    sout2_C_0 c i arg1 harg1 arg2 harg2 arg3 harg3 arg4 harg4 arg5 harg5 arg6 harg6 hc0 hc1 x0 x1 x2 x3 xs0 = k2_pay2 x0 x1 xs0 := by
  unfold sout2_C_0
  rw [View.read_writes_eq_canon _ _ _ (scover2_C_0 c i arg1 harg1 arg2 harg2 arg3 harg3 arg4 harg4 arg5 harg5 arg6 harg6 hc0 hc1 x0 x1 x2 x3 xs0)]
  unfold kernelRun2_C
  dsimp only
  sl_unfold_words
  rw [View.canon_unit_zero hz2]
  simp only [View.readAt_eq_ld, harg1.read_unread, harg2.read_unread, harg6.read_unread, View.ld_unit_zero (S := S5000x64) hz2, View.ld_unit_zero (S := S1x64) hz2]

/-- The last row block's output: the result row computed from the scratch row AFTER this block's accumulation. -/
theorem out2_C_4_eq (c : Dev nD) (i : grid2.Coords) (arg1 : Memref sig .tc .vmem S5000x64 .f32) (harg1 : arg1.IsWhole) (arg2 : Memref sig .tc .vmem S1x64 .f32) (harg2 : arg2.IsWhole) (arg3 : Memref sig .tc .vmem S64x4 .f32) (harg3 : arg3.IsWhole) (arg4 : Memref sig .tc .vmem S1x4 .f32) (harg4 : arg4.IsWhole) (arg5 : Memref sig .tc .vmem S1x4 .f32) (harg5 : arg5.IsWhole) (arg6 : Memref sig .tc .vmem S1x64 .f32) (harg6 : arg6.IsWhole) (hc0 : ¬cond2_0 i) (hc1 : cond2_1 i)
    (x0 : Vec F S5000x64 .f32) (x1 : Vec F S1x64 .f32) (x2 : Vec F S64x4 .f32) (x3 : Vec F S1x4 .f32) (xs0 : Vec F S1x64 .f32) :
    out2_C_4 c i arg1 harg1 arg2 harg2 arg3 harg3 arg4 harg4 arg5 harg5 arg6 harg6 hc0 hc1 x0 x1 x2 x3 xs0 = k2_pay3 (k2_pay2 x0 x1 xs0) x2 x3 := by
  unfold out2_C_4
  rw [View.read_writes_eq_canon _ _ _ (cover2_C_4 c i arg1 harg1 arg2 harg2 arg3 harg3 arg4 harg4 arg5 harg5 arg6 harg6 hc0 hc1 x0 x1 x2 x3 xs0)]
  unfold kernelRun2_C
  dsimp only
  sl_unfold_words
  rw [View.canon_unit_zero hz2]
  simp only [View.readAt_eq_ld, harg1.read_unread, harg2.read_unread, harg3.read_unread, harg4.read_unread, harg6.read_unread, View.ld_unit_zero (S := S5000x64) hz2, View.ld_unit_zero (S := S1x64) hz2, View.ld_unit_zero (S := S64x4) hz2, View.ld_unit_zero (S := S1x4) hz2, View.readCov_unit_zero (S := S1x64) _ hz2]

end pieces

/-! ## The accumulation step read at an entry, on the extended reals -/

/-- The zero row, read at any entry: the real 0. -/
theorem pay1_apply2 (j : S1x64.Idx) : k2_pay1 (F := Ideal) j = 0 := by
  unfold k2_pay1
  refine (congrFun (shapeCast_self _ shapeCasts_S1x64_S1x64) j).trans ?_
  exact Ideal.ofBits_zero_f32

/-- The block's reduction over its row axis, read at column k: the plain sum over the block's 5000 rows. -/
theorem colsum_blk_apply2 (src : FVec Ideal S5000x64 .f32) (hacc : (0x00000000#32 : BitVec 32) = 0x00000000#32) (k : Fin 64) :
    multiReduction (F := Ideal) .add [0] S64 src 0x00000000#32 reduces_S5000x64_S64 (.inl rfl) hacc (ix1 k) = ∑ p : Fin 5000, src (ix2 p k) := by
  refine (Ideal.multiReduction_add_single src 0x00000000#32 reduces_S5000x64_S64 (.inl rfl) hacc (ix1 k)).trans ?_
  refine Finset.sum_congr rfl fun p _ => ?_
  refine congrArg src (funext fun a => Fin.ext ?_)
  match a with
  | ⟨0, _⟩ => rfl
  | ⟨1, _⟩ => rfl

/-- The bias row laid along every row of the block, read at (p, k). -/
theorem bias_blk_apply2 (x1 : Vec Ideal S1x64 .f32) (p : Fin 5000) (k : Fin 64) :
    broadcastTo S5000x64 x1 broadcasts_S1x64_S5000x64 (ix2 p k) = x1 (ix2 (0 : Fin 1) k) :=
  broadcastTo_apply x1 broadcasts_S1x64_S5000x64 (ix2 p k) (ix2 (0 : Fin 1) k) (fun a => by
    match a with
    | ⟨0, _⟩ => rfl
    | ⟨1, _⟩ => rfl)

/-- What the body stores in the scratch row, read at column k: the row as found plus the block's column sum of the
    rectified, shifted features. -/
theorem pay2_apply2 (x0 : Vec Ideal S5000x64 .f32) (x1 : Vec Ideal S1x64 .f32) (acc : Vec Ideal S1x64 .f32) (k : Fin 64) :
    k2_pay2 (F := Ideal) x0 x1 acc (ix2 (0 : Fin 1) k)
      = acc (ix2 (0 : Fin 1) k) + ∑ p : Fin 5000, max (x0 (ix2 p k) + x1 (ix2 (0 : Fin 1) k)) 0 := by
  unfold k2_pay2
  refine (congrFun (shapeCast_self _ shapeCasts_S1x64_S1x64) (ix2 (0 : Fin 1) k)).trans ?_
  refine (addf_apply _ _ _).trans ?_
  refine congrArg (fun z => acc (ix2 (0 : Fin 1) k) + z) ?_
  refine (shapeCast_apply _ shapeCasts_S64_S1x64 (ix2 (0 : Fin 1) k) (ix1 k)
    (by rewrite [Shape.rowMajor_val_two, Shape.rowMajor_val_one]; show k.val = 0 * 64 + k.val; omega)).trans ?_
  refine (colsum_blk_apply2 _ rfl k).trans ?_
  refine Finset.sum_congr rfl fun p _ => ?_
  rw [shapeCast_self, shapeCast_self]
  show max (x0 (ix2 p k) + broadcastTo S5000x64 x1 broadcasts_S1x64_S5000x64 (ix2 p k)) (Ideal.ofBits .f32 0x00000000#32) = _
  rw [bias_blk_apply2, Ideal.ofBits_zero_f32]

/-! ## Sums over the first rows -/

/-- Row i's term of column k, zero beyond the 50000 rows: so that partial sums run over plain ranges of naturals. -/
def term2 (h : Vec Ideal S50000x64 .f32) (b : Vec Ideal S1x64 .f32) (k : Fin 64) (i : ℕ) : EReal :=
  if hi : i < 50000 then max (h (ix2 (⟨i, hi⟩ : Fin 50000) k) + b (ix2 (0 : Fin 1) k)) 0 else 0

/-- A block's column sum is the sum of the terms of rows 5000·n … 5000·n + 4999, when the block is those rows of h. -/
theorem blocksum2 (h : Vec Ideal S50000x64 .f32) (b : Vec Ideal S1x64 .f32) (k : Fin 64) (n : ℕ) (hn : n < 10)
    (x0 : Vec Ideal S5000x64 .f32) (x1 : Vec Ideal S1x64 .f32)
    (h0 : ∀ (p : Fin 5000) (i : Fin 50000), i.val = n * 5000 + p.val → x0 (ix2 p k) = h (ix2 i k)) (h1 : x1 = b) :
    ∑ p : Fin 5000, max (x0 (ix2 p k) + x1 (ix2 (0 : Fin 1) k)) 0 = ∑ x ∈ Finset.range 5000, term2 h b k (5000 * n + x) := by
  rw [Finset.sum_range]
  refine Finset.sum_congr rfl fun p _ => ?_
  have hp : 5000 * n + p.val < 50000 := by have := p.isLt; omega
  unfold term2
  rw [dif_pos hp, h0 p ⟨5000 * n + p.val, hp⟩ (by show 5000 * n + p.val = n * 5000 + p.val; omega), h1]

/-- All 50000 terms: the column sum of the whole array. -/
theorem sum_term2 (h : Vec Ideal S50000x64 .f32) (b : Vec Ideal S1x64 .f32) (k : Fin 64) :
    ∑ i ∈ Finset.range 50000, term2 h b k i = ∑ i : Fin 50000, max (h (ix2 i k) + b (ix2 (0 : Fin 1) k)) 0 := by
  rw [Finset.sum_range]
  refine Finset.sum_congr rfl fun i _ => ?_
  unfold term2
  rw [dif_pos i.isLt]

/-! ## The blocks the body reads, as parts of the arrays the region finds -/

variable (V : (c : Dev nD) → (b : Ref sig .tc) → Buf (Elt Ideal) ((c : Thread nD τ).loc b))

/-- The aggregated features' row block at point t. -/
abbrev hblk2 (c : Dev nD) (t : Fin cfg2.N) : Vec Ideal S5000x64 .f32 := iblk2 V c 0 t
/-- The bias row at point t. -/
abbrev bblk2 (c : Dev nD) (t : Fin cfg2.N) : Vec Ideal S1x64 .f32 := iblk2 V c 1 t
/-- The final weight matrix at point t. -/
abbrev wblk2 (c : Dev nD) (t : Fin cfg2.N) : Vec Ideal S64x4 .f32 := iblk2 V c 2 t
/-- The final bias row at point t. -/
abbrev fblk2 (c : Dev nD) (t : Fin cfg2.N) : Vec Ideal S1x4 .f32 := iblk2 V c 3 t
/-- The aggregated features, the whole array. -/
abbrev harr2 (c : Dev nD) : Vec Ideal S50000x64 .f32 := V c main_v58
/-- The bias row, the whole array. -/
abbrev barr2 (c : Dev nD) : Vec Ideal S1x64 .f32 := V c main_v59
/-- The final weight matrix, the whole array. -/
abbrev warr2 (c : Dev nD) : Vec Ideal S64x4 .f32 := V c main_arg6
/-- The final bias row, the whole array. -/
abbrev farr2 (c : Dev nD) : Vec Ideal S1x4 .f32 := V c main_v60

/-- The windows' index maps over the ten grid points: the feature window sits at row block t; every other window at
    block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Entry (p, k) of point t's feature block is entry (5000·t + p, k) of the array. -/
theorem hblk2_apply (c : Dev nD) (t : Fin cfg2.N) (k : Fin 64) (p : Fin 5000) (i : Fin 50000) (hi : i.val = t.val * 5000 + p.val) :
    hblk2 V c t (ix2 p k) = harr2 V c (ix2 i k) := by
  obtain ⟨e0, e1, -⟩ := idx_facts2 t
  show V c main_v58 (((cfg2.win 0).blk t).view.emb (ix2 p k)) = V c main_v58 (ix2 i k)
  refine congrArg (V c main_v58) (funext fun a => Fin.ext ?_)
  match a with
  | ⟨0, _⟩ => show win2_0.index t (0 : Fin 2) * 5000 + 1 * p.val = i.val; rw [e0, hi]; omega
  | ⟨1, _⟩ => show win2_0.index t (1 : Fin 2) * 64 + 1 * k.val = k.val; rw [e1]; omega

/-- The bias row's block is the whole row. -/
theorem bblk2_eq (c : Dev nD) (t : Fin cfg2.N) : bblk2 V c t = barr2 V c := by
  obtain ⟨-, -, e2, e3, -⟩ := idx_facts2 t
  funext y
  show V c main_v59 (((cfg2.win 1).blk t).view.emb y) = V c main_v59 y
  refine congrArg (V c main_v59) (funext fun a => Fin.ext ?_)
  match a with
  | ⟨0, _⟩ => show win2_1.index t (0 : Fin 2) * 1 + 1 * (y 0).val = (y 0).val; rw [e2]; omega
  | ⟨1, _⟩ => show win2_1.index t (1 : Fin 2) * 64 + 1 * (y 1).val = (y 1).val; rw [e3]; omega

/-- The final weight matrix's block is the whole matrix. -/
theorem wblk2_eq (c : Dev nD) (t : Fin cfg2.N) : wblk2 V c t = warr2 V c := by
  obtain ⟨-, -, -, -, e4, e5, -⟩ := idx_facts2 t
  funext y
  show V c main_arg6 (((cfg2.win 2).blk t).view.emb y) = V c main_arg6 y
  refine congrArg (V c main_arg6) (funext fun a => Fin.ext ?_)
  match a with
  | ⟨0, _⟩ => show win2_2.index t (0 : Fin 2) * 64 + 1 * (y 0).val = (y 0).val; rw [e4]; omega
  | ⟨1, _⟩ => show win2_2.index t (1 : Fin 2) * 4 + 1 * (y 1).val = (y 1).val; rw [e5]; omega

/-- The final bias row's block is the whole row. -/
theorem fblk2_eq (c : Dev nD) (t : Fin cfg2.N) : fblk2 V c t = farr2 V c := by
  obtain ⟨-, -, -, -, -, -, e6, e7, -⟩ := idx_facts2 t
  funext y
  show V c main_v60 (((cfg2.win 3).blk t).view.emb y) = V c main_v60 y
  refine congrArg (V c main_v60) (funext fun a => Fin.ext ?_)
  match a with
  | ⟨0, _⟩ => show win2_3.index t (0 : Fin 2) * 1 + 1 * (y 0).val = (y 0).val; rw [e6]; omega
  | ⟨1, _⟩ => show win2_3.index t (1 : Fin 2) * 4 + 1 * (y 1).val = (y 1).val; rw [e7]; omega

/-! ## The scratch row after each point -/

/-- After the first point: the zero row plus the first block's column sums. -/
theorem scratch2_zero (c : Dev nD) (hn : 0 < cfg2.N) :
    (outsAt2 V c 0 hn).2 = k2_pay2 (F := Ideal) (hblk2 V c ⟨0, hn⟩) (bblk2 V c ⟨0, hn⟩) (k2_pay1 (F := Ideal)) := by
  have h0 : (⟨0, hn⟩ : Fin cfg2.N).val % 10 = 0 := rfl
  have h1 : ¬(⟨0, hn⟩ : Fin cfg2.N).val % 10 = 9 := by dsimp only; omega
  rw [outsAt2_A V c ⟨0, hn⟩ h0 h1]
  dsimp only
  exact sout2_A_0_eq (F := Ideal) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2_0 (Memref.isWhole_whole _) ((hcond2_0 ⟨0, hn⟩).mpr h0) (fun h => h1 ((hcond2_1 ⟨0, hn⟩).mp h)) (hblk2 V c ⟨0, hn⟩) (bblk2 V c ⟨0, hn⟩) (wblk2 V c ⟨0, hn⟩) (fblk2 V c ⟨0, hn⟩)

/-- After every later point: what the point before left plus this block's column sums. -/
theorem scratch2_succ (c : Dev nD) (n : ℕ) (hn : n + 1 < cfg2.N) :
    (outsAt2 V c (n + 1) hn).2
      = k2_pay2 (F := Ideal) (hblk2 V c ⟨n + 1, hn⟩) (bblk2 V c ⟨n + 1, hn⟩) ((outsAt2 V c n (Nat.lt_of_succ_lt hn)).2) := by
  have hN : cfg2.N = 10 := N_2
  have h0 : ¬(⟨n + 1, hn⟩ : Fin cfg2.N).val % 10 = 0 := by dsimp only; omega
  by_cases h1 : (⟨n + 1, hn⟩ : Fin cfg2.N).val % 10 = 9
  · rw [outsAt2_C V c ⟨n + 1, hn⟩ h0 h1]
    dsimp only
    exact sout2_C_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) ((hcond2_1 ⟨n + 1, hn⟩).mpr h1) (hblk2 V c ⟨n + 1, hn⟩) (bblk2 V c ⟨n + 1, hn⟩) (wblk2 V c ⟨n + 1, hn⟩) (fblk2 V c ⟨n + 1, hn⟩) ((outsAt2 V c n (Nat.lt_of_succ_lt hn)).2)
  · rw [outsAt2_B V c ⟨n + 1, hn⟩ h0 h1]
    dsimp only
    exact sout2_B_0_eq (F := Ideal) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2_0 (Memref.isWhole_whole _) (fun h => h0 ((hcond2_0 ⟨n + 1, hn⟩).mp h)) (fun h => h1 ((hcond2_1 ⟨n + 1, hn⟩).mp h)) (hblk2 V c ⟨n + 1, hn⟩) (bblk2 V c ⟨n + 1, hn⟩) (wblk2 V c ⟨n + 1, hn⟩) (fblk2 V c ⟨n + 1, hn⟩) ((outsAt2 V c n (Nat.lt_of_succ_lt hn)).2)

/-- THE INVARIANT: after point n the scratch row holds, at column k, the sum of the terms of rows 0 … 5000·(n+1) − 1. -/
theorem scratch2_eq (c : Dev nD) : ∀ (n : ℕ) (hn : n < cfg2.N) (k : Fin 64),
    (outsAt2 V c n hn).2 (ix2 (0 : Fin 1) k) = ∑ i ∈ Finset.range (5000 * (n + 1)), term2 (harr2 V c) (barr2 V c) k i
  | 0, hn, k => by
    refine (congrFun (scratch2_zero V c hn) (ix2 (0 : Fin 1) k)).trans ?_
    refine (pay2_apply2 _ _ _ k).trans ?_
    rw [pay1_apply2, zero_add]
    refine (blocksum2 (harr2 V c) (barr2 V c) k 0 (by omega) (hblk2 V c ⟨0, hn⟩) (bblk2 V c ⟨0, hn⟩)
      (fun p i hi => hblk2_apply V c ⟨0, hn⟩ k p i hi) (bblk2_eq V c ⟨0, hn⟩)).trans ?_
    refine Finset.sum_congr rfl fun x _ => ?_
    rw [Nat.mul_zero, Nat.zero_add]
  | n + 1, hn, k => by
    have hN : cfg2.N = 10 := N_2
    refine (congrFun (scratch2_succ V c n hn) (ix2 (0 : Fin 1) k)).trans ?_
    refine (pay2_apply2 _ _ _ k).trans ?_
    rw [scratch2_eq c n (Nat.lt_of_succ_lt hn) k]
    rw [blocksum2 (harr2 V c) (barr2 V c) k (n + 1) (by omega) (hblk2 V c ⟨n + 1, hn⟩) (bblk2 V c ⟨n + 1, hn⟩)
      (fun p i hi => hblk2_apply V c ⟨n + 1, hn⟩ k p i hi) (bblk2_eq V c ⟨n + 1, hn⟩)]
    rw [show 5000 * (n + 1 + 1) = 5000 * (n + 1) + 5000 from by omega, Finset.sum_range_add]

/-- After the last point the scratch row is the column sums over all 50000 rows. -/
theorem scratch2_last (c : Dev nD) (t : Fin cfg2.N) (h1 : t.val % 10 = 9) :
    (outsAt2 V c t.val t.isLt).2 = colsums (harr2 V c) (barr2 V c) := by
  have hN : cfg2.N = 10 := N_2
  have ht : t.val = 9 := by have := t.isLt; omega
  funext j
  obtain ⟨z, k, rfl⟩ : ∃ (z : Fin 1) (k : Fin 64), j = ix2 z k := ⟨j 0, j 1, eq_ix2 j⟩
  obtain rfl : z = 0 := Subsingleton.elim _ _
  refine (scratch2_eq V c t.val t.isLt k).trans ?_
  rw [ht]
  exact sum_term2 (harr2 V c) (barr2 V c) k

/-! ## The output array -/

/-- The result row: the mean of the column sums, the final linear map, the bias, the log-softmax. -/
abbrev res2 (c : Dev nD) : Vec Ideal S1x4 .f32 :=
  k2_pay3 (F := Ideal) (colsums (harr2 V c) (barr2 V c)) (warr2 V c) (farr2 V c)

/-- At the last point the output block holds the result row. -/
theorem out2_last (c : Dev nD) (t : Fin cfg2.N) (h1 : t.val % 10 = 9) :
    (outsAt2 V c t.val t.isLt).1 = res2 V c := by
  have hN : cfg2.N = 10 := N_2
  have h0 : ¬t.val % 10 = 0 := by omega
  have e2 := scratch2_last V c t h1
  rw [outsAt2_C V c t h0 h1] at e2 ⊢
  dsimp only at e2 ⊢
  refine (out2_C_4_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (hblk2 V c t) (bblk2 V c t) (wblk2 V c t) (fblk2 V c t) ((outsAt2 V c (t.val - 1) (Nat.lt_of_le_of_lt (Nat.sub_le _ _) t.isLt)).2)).trans ?_
  rw [← sout2_C_0_eq (F := Ideal) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (hblk2 V c t) (bblk2 V c t) (wblk2 V c t) (fblk2 V c t) ((outsAt2 V c (t.val - 1) (Nat.lt_of_le_of_lt (Nat.sub_le _ _) t.isLt)).2)]
  rw [e2, wblk2_eq, fblk2_eq]

/-- WHAT THE LAST POINT WRITES BACK is the result row (the one block is the whole array). -/
theorem flushed2_eq (c : Dev nD) (t : Fin cfg2.N) (hf : (cfg2.win 4).flush t = true) :
    (dat2 (F := Ideal) V c).flushed 4 t = ((cfg2.win 4).blk t).view.read (Elt Ideal) (res2 V c) := by
  have h1 : t.val % 10 = 9 := (flush2_4 t).mp hf
  obtain ⟨-, -, -, -, -, -, -, -, e8, e9⟩ := idx_facts2 t
  show (cfg2.win 4).cut (grid2.coords t) ((dat2 V c).after 4 t) = _
  rw [after2_4, out2_last V c t h1]
  funext j
  show res2 V c j = res2 V c (((cfg2.win 4).blk t).view.emb j)
  refine congrArg (res2 V c) (funext fun a => Fin.ext ?_)
  match a with
  | ⟨0, _⟩ => show (j 0).val = win2_4.index t (0 : Fin 2) * 1 + 1 * (j 0).val; rw [e8]; omega
  | ⟨1, _⟩ => show (j 1).val = win2_4.index t (1 : Fin 2) * 4 + 1 * (j 1).val; rw [e9]; omega

/-- An index of the output array is in point t's block iff each coordinate is in the block's range on its axis. -/
theorem mem_blk2 (t : Fin cfg2.N) (i : S1x4.Idx) :
    i ∈ ((cfg2.win 4).blk t).view.set ↔ ∀ a : Fin 2, win2_4.index t a * S1x4.size a ≤ (i a).val ∧ (i a).val < win2_4.index t a * S1x4.size a + S1x4.size a := by
  show i ∈ ((View.whole main_v61).slice (win2_4.rect t)).set ↔ _
  rw [View.set_slice_whole, Rect.mem_set_unit]
  exact Iff.rfl

/-- THE OUTPUT ARRAY after the ten points: the last point's block covers it, so it holds the result row. -/
theorem final2 (c : Dev nD) :
    (dat2 (F := Ideal) V c).arrAt 4 cfg2.N
      = k2_pay3 (F := Ideal) (colsums (V c main_v58) (V c main_v59)) (V c main_arg6) (V c main_v60) :=
  (dat2 (F := Ideal) V c).arrAt_eq_of_cover 4 (res2 V c) (fun t hf => flushed2_eq V c t hf) fun i => by
    have hN : cfg2.N = 10 := N_2
    have hi0 : (i 0).val < 1 := (i 0).isLt
    have hi1 : (i 1).val < 4 := (i 1).isLt
    have ht : 9 < cfg2.N := by rw [hN]; decide
    obtain ⟨-, -, -, -, -, -, -, -, e8, e9⟩ := idx_facts2 ⟨9, ht⟩
    refine ⟨⟨9, ht⟩, (flush2_4 _).mpr rfl, ?_⟩
    rw [mem_blk2]
    intro a
    match a with
    | ⟨0, _⟩ => show win2_4.index ⟨9, ht⟩ (0 : Fin 2) * 1 ≤ (i 0).val ∧ (i 0).val < win2_4.index ⟨9, ht⟩ (0 : Fin 2) * 1 + 1; rw [e8]; omega
    | ⟨1, _⟩ => show win2_4.index ⟨9, ht⟩ (1 : Fin 2) * 4 ≤ (i 1).val ∧ (i 1).val < win2_4.index ⟨9, ht⟩ (1 : Fin 2) * 4 + 4; rw [e9]; omega

end Cert.KernelIdeal.Hand

end
-- ==== Proof.KI.Val2Ref.lean ====
/-
  The last grid step of the pooling kernel against the reference's tail, as arrays [1,4] on the extended reals.
  The accumulated row holds, at column k, the sum over all 50000 rows i of max (h(i,k) + b(k)) 0. The kernel
  multiplies it by the named constant 1/50000; the reference divides the same sums by the real 50000: on every
  extended real the quotient by 50000 is the product with 1/50000. The format changes are the identity, and a
  matrix product into the zero accumulator and the host's contraction are the same sum over the 64 columns; the
  bias row is the same vector laid along the one row. So both sides have the same logits z(0,q). The log-softmax
  of the one row is, on both sides, z(0,q) - M - log (Σ_r exp (z(0,r) - M)) with M = max (-∞) (the fold of max
  over the four entries from -∞): the kernel's reductions over the lane axis and the host's reductions over axis 1
  are the same fold and the same sum, and the unit-axis casts and broadcasts all read the one entry.
-/
import proofs.«127257_j88399016886916_1_alg».proof.Proof.Gen.KernelIdeal.Skeleton
import proofs.«127257_j88399016886916_1_alg».proof.Proof.KI.Spec2
import proofs.«127257_j88399016886916_1_alg».proof.ReferenceIdeal
import proofs.«127257_j88399016886916_1_alg».proof.Proof.RefRead
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## The constants -/

/-- The kernel's named reciprocal is the rational 1/50000. -/
theorem inv_50000 : Named.named (F := Ideal) Cert.KernelIdeal.κ "inv_50000" (φ := .f32) 0x37A7C5AC#32 = ((1 / 50000 : ℝ) : EReal) :=
  IdealRules.named_const.ideal_named_scalar _ _ _ _ rfl

/-- The reference's divisor is the real 50000. -/
theorem ofBits_50000 : Ideal.ofBits .f32 0x47435000#32 = ((50000 : ℝ) : EReal) := by
  simp [Ideal.ofBits, Ideal.ieee, -EReal.coe_mul]; norm_num

/-! ## The reference's tail -/

/-- The reference's mean row: the column sums of the rectified, shifted array, divided by 50000. -/
def refMean (h : FVec Ideal S50000x64 .f32) (b2 : FVec Ideal S64 .f32) : FVec Ideal S1x64 .f32 :=
  Host.divf (F := Ideal)
    (broadcastInDim Cert.ReferenceIdeal.S1x64 ![1] Cert.ReferenceIdeal.Gen.bcast_S64_S1x64_1
      (Host.reduceAdd (F := Ideal)
        (maximumf (addf h (broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b2)))
          (broadcastInDim Cert.ReferenceIdeal.S50000x64 ![] Cert.ReferenceIdeal.Gen.bcast_S_S50000x64 (constant (F := Ideal) Cert.ReferenceIdeal.S_ .f32 0x00000000#32)))
        (constant (F := Ideal) Cert.ReferenceIdeal.S_ .f32 0x00000000#32) Cert.ReferenceIdeal.Gen.reducesTo_S50000x64_S64_d0 Cert.ReferenceIdeal.Gen.h_S_))
    (broadcastInDim Cert.ReferenceIdeal.S1x64 ![] Cert.ReferenceIdeal.Gen.bcast_S_S1x64 (constant (F := Ideal) Cert.ReferenceIdeal.S_ .f32 0x47435000#32))

/-- The reference's logits: the mean row times the weights, plus the bias row. -/
def refLogits (h : FVec Ideal S50000x64 .f32) (b2 : FVec Ideal S64 .f32) (w : FVec Ideal S64x4 .f32) (bfc : FVec Ideal S4 .f32) : FVec Ideal S1x4 .f32 :=
  addf (Host.dotGeneral (F := Ideal) Cert.ReferenceIdeal.dot_S1x64_S64x4_S1x4_1_0_0_1_n_n none (refMean h b2) w)
    (broadcastInDim Cert.ReferenceIdeal.S1x4 ![1] Cert.ReferenceIdeal.Gen.bcast_S4_S1x4_1 bfc)

/-- The reference's row maximum, laid along the row. -/
def refMax (z : FVec Ideal S1x4 .f32) : FVec Ideal S1x4 .f32 :=
  broadcastInDim Cert.ReferenceIdeal.S1x4 ![0, 1] Cert.ReferenceIdeal.Gen.bcast_S1x1_S1x4_0_1
    (broadcastInDim Cert.ReferenceIdeal.S1x1 ![0] Cert.ReferenceIdeal.Gen.bcast_S1_S1x1_0
      (maximumf (broadcastInDim Cert.ReferenceIdeal.S1 ![] Cert.ReferenceIdeal.Gen.bcast_S_S1 (constant (F := Ideal) Cert.ReferenceIdeal.S_ .f32 0xFF800000#32))
        (Host.reduce FloatOps.maximumf z (constant (F := Ideal) Cert.ReferenceIdeal.S_ .f32 0xFF800000#32) Cert.ReferenceIdeal.Gen.reducesTo_S1x4_S1_d1 Cert.ReferenceIdeal.Gen.h_S_)))

/-- The reference's logarithm of the row's sum of exponentials, laid along the row. -/
def refLse (d : FVec Ideal S1x4 .f32) : FVec Ideal S1x4 .f32 :=
  broadcastInDim Cert.ReferenceIdeal.S1x4 ![0, 1] Cert.ReferenceIdeal.Gen.bcast_S1x1_S1x4_0_1
    (Host.log (F := Ideal)
      (broadcastInDim Cert.ReferenceIdeal.S1x1 ![0] Cert.ReferenceIdeal.Gen.bcast_S1_S1x1_0
        (Host.reduceAdd (F := Ideal) (Host.exp (F := Ideal) d) (constant (F := Ideal) Cert.ReferenceIdeal.S_ .f32 0x00000000#32) Cert.ReferenceIdeal.Gen.reducesTo_S1x4_S1_d1 Cert.ReferenceIdeal.Gen.h_S_)))

/-- The reference's operations from the aggregated array on, composed: mean over the rows, the final layer, log-softmax. -/
def refTail (h : FVec Ideal S50000x64 .f32) (b2 : FVec Ideal S64 .f32) (w : FVec Ideal S64x4 .f32) (bfc : FVec Ideal S4 .f32) : FVec Ideal S1x4 .f32 :=
  subf (subf (refLogits h b2 w bfc) (refMax (refLogits h b2 w bfc)))
    (refLse (subf (refLogits h b2 w bfc) (refMax (refLogits h b2 w bfc))))

/-! ## The layout operations read at an index -/

/-- A vector of 64 entries laid as one row, read at (u, k), is entry k. -/
theorem bcast_S64_S1x64_apply (y : FVec Ideal S64 .f32) (u : Fin 1) (k : Fin 64) :
    broadcastInDim Cert.ReferenceIdeal.S1x64 ![1] Cert.ReferenceIdeal.Gen.bcast_S64_S1x64_1 y (ix2 u k) = y (ix1 k) :=
  broadcastInDim_apply _ Cert.ReferenceIdeal.Gen.bcast_S64_S1x64_1 y (ix2 u k) (ix1 k) (fun a => match a with
    | ⟨0, _⟩ => by show k.val = if (64 : Nat) = 1 then 0 else k.val; rw [if_neg (by decide)])

/-- One row laid along the 50000 rows, read at (i, k), is the row at k. -/
theorem bcast_S1x64_S50000x64_apply (y : FVec Ideal S1x64 .f32) (i : Fin 50000) (k : Fin 64) :
    broadcastInDim Cert.ReferenceIdeal.S50000x64 ![0, 1] Cert.ReferenceIdeal.Gen.bcast_S1x64_S50000x64_0_1 y (ix2 i k) = y (ix2 (0 : Fin 1) k) :=
  broadcastInDim_apply _ Cert.ReferenceIdeal.Gen.bcast_S1x64_S50000x64_0_1 y (ix2 i k) (ix2 (0 : Fin 1) k) (fun a => match a with
    | ⟨0, _⟩ => by show 0 = if (1 : Nat) = 1 then 0 else i.val; rw [if_pos rfl]
    | ⟨1, _⟩ => by show k.val = if (64 : Nat) = 1 then 0 else k.val; rw [if_neg (by decide)])

/-- A vector of 4 entries laid as one row, read at (u, q), is entry q. -/
theorem bcast_S4_S1x4_apply (y : FVec Ideal S4 .f32) (u : Fin 1) (q : Fin 4) :
    broadcastInDim Cert.ReferenceIdeal.S1x4 ![1] Cert.ReferenceIdeal.Gen.bcast_S4_S1x4_1 y (ix2 u q) = y (ix1 q) :=
  broadcastInDim_apply _ Cert.ReferenceIdeal.Gen.bcast_S4_S1x4_1 y (ix2 u q) (ix1 q) (fun a => match a with
    | ⟨0, _⟩ => by show q.val = if (4 : Nat) = 1 then 0 else q.val; rw [if_neg (by decide)])

/-- The one entry of a [1] vector laid as [1,1]. -/
theorem bcast_S1_S1x1_apply (y : FVec Ideal S1 .f32) (j : S1x1.Idx) :
    broadcastInDim Cert.ReferenceIdeal.S1x1 ![0] Cert.ReferenceIdeal.Gen.bcast_S1_S1x1_0 y j = y (ix1 (0 : Fin 1)) :=
  broadcastInDim_apply _ Cert.ReferenceIdeal.Gen.bcast_S1_S1x1_0 y j (ix1 (0 : Fin 1)) (fun a => match a with
    | ⟨0, _⟩ => by show 0 = if (1 : Nat) = 1 then 0 else (j 0).val; rw [if_pos rfl])

/-- The one entry of a [1,1] array laid along a row of four. -/
theorem bcast_S1x1_S1x4_apply (y : FVec Ideal S1x1 .f32) (j : S1x4.Idx) :
    broadcastInDim Cert.ReferenceIdeal.S1x4 ![0, 1] Cert.ReferenceIdeal.Gen.bcast_S1x1_S1x4_0_1 y j = y (ix2 (0 : Fin 1) (0 : Fin 1)) :=
  broadcastInDim_apply _ Cert.ReferenceIdeal.Gen.bcast_S1x1_S1x4_0_1 y j (ix2 (0 : Fin 1) (0 : Fin 1)) (fun a => match a with
    | ⟨0, _⟩ => by show 0 = if (1 : Nat) = 1 then 0 else (j 0).val; rw [if_pos rfl]
    | ⟨1, _⟩ => by show 0 = if (1 : Nat) = 1 then 0 else (j 1).val; rw [if_pos rfl])

/-- The kernel's cast of a [1] vector to [1,1] reads the one entry. -/
theorem cast_S1_S1x1_apply (v : FVec Ideal S1 .f32) (j : S1x1.Idx) :
    shapeCast S1x1 v shapeCasts_S1_S1x1 j = v (ix1 (0 : Fin 1)) := by
  obtain ⟨p, q, rfl⟩ : ∃ (p : Fin 1) (q : Fin 1), j = ix2 p q := ⟨j 0, j 1, eq_ix2 j⟩
  refine (shapeCast_a_1a_apply v shapeCasts_S1_S1x1 p q).trans ?_
  exact congrArg v (congrArg ix1 (Subsingleton.elim q 0))

/-- The kernel's broadcast of a [1,1] array along a row of four reads the one entry. -/
theorem bto_S1x1_S1x4_apply (v : FVec Ideal S1x1 .f32) (j : S1x4.Idx) :
    broadcastTo S1x4 v broadcasts_S1x1_S1x4 j = v (ix2 (0 : Fin 1) (0 : Fin 1)) :=
  broadcastTo_apply v broadcasts_S1x1_S1x4 j (ix2 (0 : Fin 1) (0 : Fin 1)) (fun a => match a with
    | ⟨0, _⟩ => rfl
    | ⟨1, _⟩ => rfl)

/-- The kernel's bias row: the [64] vector cast to one row, read at (u, k), is entry k. -/
theorem cast_S64_S1x64_apply (v : FVec Ideal S64 .f32) (u : Fin 1) (k : Fin 64) :
    shapeCast S1x64 v shapeCasts_S64_S1x64 (ix2 u k) = v (ix1 k) :=
  shapeCast_a_1a_apply v shapeCasts_S64_S1x64 u k

/-- The kernel's last bias row: the [4] vector cast to one row, read at (u, q), is entry q. -/
theorem cast_S4_S1x4_apply (v : FVec Ideal S4 .f32) (u : Fin 1) (q : Fin 4) :
    shapeCast S1x4 v shapeCasts_S4_S1x4 (ix2 u q) = v (ix1 q) :=
  shapeCast_a_1a_apply v shapeCasts_S4_S1x4 u q

/-! ## The two contractions over the 64 columns -/

theorem lhs_fc_0 (i : S1x4.Idx) (q : dot_S1x64_S64x4_S1x4_1_0_0_1_n_n.contr.Idx) :
    (dot_S1x64_S64x4_S1x4_1_0_0_1_n_n.lhsIdx i q 0).val = (i 0).val := by
  unfold DotDims.lhsIdx
  rw [dif_neg (show ¬(0 : Fin S1x64.rank) ∈ dot_S1x64_S64x4_S1x4_1_0_0_1_n_n.lhsBatch by decide), dif_pos (show (0 : Fin S1x64.rank) ∈ dot_S1x64_S64x4_S1x4_1_0_0_1_n_n.lhsNonContracting by decide)]
  rfl
theorem lhs_fc_1 (i : S1x4.Idx) (q : dot_S1x64_S64x4_S1x4_1_0_0_1_n_n.contr.Idx) :
    (dot_S1x64_S64x4_S1x4_1_0_0_1_n_n.lhsIdx i q 1).val = (q ⟨0, by decide⟩).val :=
  dot_S1x64_S64x4_S1x4_1_0_0_1_n_n.lhsIdx_val_of_single rfl i q
theorem rhs_fc_0 (i : S1x4.Idx) (q : dot_S1x64_S64x4_S1x4_1_0_0_1_n_n.contr.Idx) :
    (dot_S1x64_S64x4_S1x4_1_0_0_1_n_n.rhsIdx i q 0).val = (q ⟨0, by decide⟩).val :=
  dot_S1x64_S64x4_S1x4_1_0_0_1_n_n.rhsIdx_val_of_single rfl i q
theorem rhs_fc_1 (i : S1x4.Idx) (q : dot_S1x64_S64x4_S1x4_1_0_0_1_n_n.contr.Idx) :
    (dot_S1x64_S64x4_S1x4_1_0_0_1_n_n.rhsIdx i q 1).val = (i 1).val := by
  unfold DotDims.rhsIdx
  rw [dif_neg (show ¬(1 : Fin S64x4.rank) ∈ dot_S1x64_S64x4_S1x4_1_0_0_1_n_n.rhsBatch by decide), dif_pos (show (1 : Fin S64x4.rank) ∈ dot_S1x64_S64x4_S1x4_1_0_0_1_n_n.rhsNonContracting by decide)]
  rfl

/-- The kernel's matrix product into the zero accumulator, read at (p, q): the sum over the contracted axis. -/
theorem matmul_fc_apply (l : FVec Ideal S1x64 .bf16) (r : FVec Ideal S64x4 .bf16) (p : Fin 1) (q : Fin 4) :
    matmul dot_S1x64_S64x4_S1x4_1_0_0_1_n_n none l r (constant S1x4 .f32 0x00000000#32) (ix2 p q)
      = ∑ k : Fin 64, l (ix2 p k) * r (ix2 k q) := by
  refine (Ideal.matmul_constant_zero_apply dot_S1x64_S64x4_S1x4_1_0_0_1_n_n none l r (ix2 p q)).trans ?_
  rw [← Equiv.sum_comp (ValueIdx.contrEquiv1 dot_S1x64_S64x4_S1x4_1_0_0_1_n_n 64 rfl rfl).symm]
  refine Finset.sum_congr rfl fun k _ => ?_
  have hk := ValueIdx.contrEquiv1_symm_val dot_S1x64_S64x4_S1x4_1_0_0_1_n_n 64 rfl rfl k
  have el : dot_S1x64_S64x4_S1x4_1_0_0_1_n_n.lhsIdx (ix2 p q) ((ValueIdx.contrEquiv1 dot_S1x64_S64x4_S1x4_1_0_0_1_n_n 64 rfl rfl).symm k) = ix2 p k := funext fun a => Fin.ext (by
    match a with
    | ⟨0, _⟩ => exact lhs_fc_0 _ _
    | ⟨1, _⟩ => exact (lhs_fc_1 _ _).trans hk)
  have er : dot_S1x64_S64x4_S1x4_1_0_0_1_n_n.rhsIdx (ix2 p q) ((ValueIdx.contrEquiv1 dot_S1x64_S64x4_S1x4_1_0_0_1_n_n 64 rfl rfl).symm k) = ix2 k q := funext fun a => Fin.ext (by
    match a with
    | ⟨0, _⟩ => exact (rhs_fc_0 _ _).trans hk
    | ⟨1, _⟩ => exact rhs_fc_1 _ _)
  rw [el, er]

/-- The host's contraction, read at (p, q): the same sum. -/
theorem dot_fc_apply (l : FVec Ideal S1x64 .f32) (r : FVec Ideal S64x4 .f32) (p : Fin 1) (q : Fin 4) :
    Host.dotGeneral (F := Ideal) Cert.ReferenceIdeal.dot_S1x64_S64x4_S1x4_1_0_0_1_n_n none l r (ix2 p q)
      = ∑ k : Fin 64, l (ix2 p k) * r (ix2 k q) := by
  simp only [Host.dotGeneral]
  rw [Ideal.dotGeneral_apply, ← Equiv.sum_comp (ValueIdx.contrEquiv1 Cert.ReferenceIdeal.dot_S1x64_S64x4_S1x4_1_0_0_1_n_n 64 rfl rfl).symm]
  refine Finset.sum_congr rfl fun k _ => ?_
  have hk := ValueIdx.contrEquiv1_symm_val Cert.ReferenceIdeal.dot_S1x64_S64x4_S1x4_1_0_0_1_n_n 64 rfl rfl k
  have el : Cert.ReferenceIdeal.dot_S1x64_S64x4_S1x4_1_0_0_1_n_n.lhsIdx (ix2 p q) ((ValueIdx.contrEquiv1 Cert.ReferenceIdeal.dot_S1x64_S64x4_S1x4_1_0_0_1_n_n 64 rfl rfl).symm k) = ix2 p k := funext fun a => Fin.ext (by
    match a with
    | ⟨0, _⟩ => exact Cert.ReferenceIdeal.ReadP.lhs_main_v93_0 _ _
    | ⟨1, _⟩ => exact (Cert.ReferenceIdeal.ReadP.lhs_main_v93_1 _ _).trans hk)
  have er : Cert.ReferenceIdeal.dot_S1x64_S64x4_S1x4_1_0_0_1_n_n.rhsIdx (ix2 p q) ((ValueIdx.contrEquiv1 Cert.ReferenceIdeal.dot_S1x64_S64x4_S1x4_1_0_0_1_n_n 64 rfl rfl).symm k) = ix2 k q := funext fun a => Fin.ext (by
    match a with
    | ⟨0, _⟩ => exact (Cert.ReferenceIdeal.ReadP.rhs_main_v93_0 _ _).trans hk
    | ⟨1, _⟩ => exact Cert.ReferenceIdeal.ReadP.rhs_main_v93_1 _ _)
  rw [el, er]

/-! ## The mean row -/

/-- The host's quotient, read at an index. -/
theorem hostDivf_apply {s : Shape} (a b : FVec Ideal s .f32) (i : s.Idx) : Host.divf (F := Ideal) a b i = Ideal.div (a i) (b i) := rfl

/-- A scalar constant laid over the one row reads the constant's value everywhere. -/
theorem bcast_S_S1x64_const_apply (c : BitVec 32) (j : S1x64.Idx) :
    broadcastInDim Cert.ReferenceIdeal.S1x64 ![] Cert.ReferenceIdeal.Gen.bcast_S_S1x64 (constant (F := Ideal) Cert.ReferenceIdeal.S_ .f32 c) j = Ideal.ofBits .f32 c := rfl

/-- A scalar constant laid over the whole array reads the constant's value everywhere. -/
theorem bcast_S_S50000x64_const_apply (c : BitVec 32) (j : S50000x64.Idx) :
    broadcastInDim Cert.ReferenceIdeal.S50000x64 ![] Cert.ReferenceIdeal.Gen.bcast_S_S50000x64 (constant (F := Ideal) Cert.ReferenceIdeal.S_ .f32 c) j = Ideal.ofBits .f32 c := rfl

/-- The host's sum over the 50000 rows from zero, read at column k. -/
theorem colsum_ref_apply (y : FVec Ideal S50000x64 .f32) (k : Fin 64) :
    Host.reduceAdd (F := Ideal) y (constant (F := Ideal) Cert.ReferenceIdeal.S_ .f32 0x00000000#32) Cert.ReferenceIdeal.Gen.reducesTo_S50000x64_S64_d0 Cert.ReferenceIdeal.Gen.h_S_ (ix1 k)
      = ∑ i : Fin 50000, y (ix2 i k) := by
  simp only [Host.reduceAdd, Ideal.hostReduceAdd_def]
  rw [Ideal.hostReduceAdd_single Cert.ReferenceIdeal.Gen.reducesTo_S50000x64_S64_d0 (by decide)]
  show Ideal.ofBits .f32 0x00000000#32 + _ = _
  rw [Ideal.ofBits_zero_f32, zero_add]
  refine Finset.sum_congr rfl fun i _ => ?_
  exact congrArg y (funext fun a => Fin.ext (by match a with | ⟨0, _⟩ => rfl | ⟨1, _⟩ => rfl))

/-- The reference's mean row at (u, k): the column sum times 1/50000. -/
theorem refMean_apply (h : FVec Ideal S50000x64 .f32) (b2 : FVec Ideal S64 .f32) (u : Fin 1) (k : Fin 64) :
    refMean h b2 (ix2 u k) = (∑ i : Fin 50000, max (h (ix2 i k) + b2 (ix1 k)) 0) * ((1 / 50000 : ℝ) : EReal) := by
  unfold refMean
  rw [hostDivf_apply, bcast_S64_S1x64_apply, colsum_ref_apply, bcast_S_S1x64_const_apply, ofBits_50000, Ideal.div_coe (by norm_num : (50000 : ℝ) ≠ 0)]
  refine congrArg (fun t => t * ((1 / 50000 : ℝ) : EReal)) (Finset.sum_congr rfl fun i _ => ?_)
  rw [maximumf_apply, addf_apply, bcast_S1x64_S50000x64_apply, bcast_S64_S1x64_apply, bcast_S_S50000x64_const_apply, Ideal.ofBits_zero_f32]

/-- The accumulated row at (u, k), its bias row being the cast of the [64] vector. -/
theorem colsums_apply (h : FVec Ideal S50000x64 .f32) (b2 : FVec Ideal S64 .f32) (u : Fin 1) (k : Fin 64) :
    colsums h (shapeCast S1x64 b2 shapeCasts_S64_S1x64) (ix2 u k) = ∑ i : Fin 50000, max (h (ix2 i k) + b2 (ix1 k)) 0 := by
  unfold colsums
  refine Finset.sum_congr rfl fun i _ => ?_
  show max (h (ix2 i k) + shapeCast S1x64 b2 shapeCasts_S64_S1x64 (ix2 (0 : Fin 1) k)) 0 = _
  rw [cast_S64_S1x64_apply]

/-! ## The logits -/

/-- The kernel's logits of the accumulated row s, the weights and the bias row. -/
def kerLogits (s : FVec Ideal S1x64 .f32) (w : FVec Ideal S64x4 .f32) (bb : FVec Ideal S1x4 .f32) : FVec Ideal S1x4 .f32 :=
  addf (matmul dot_S1x64_S64x4_S1x4_1_0_0_1_n_n none
      (truncf .bf16 (mulf s (broadcast S1x64 (Named.named (F := Ideal) κ "inv_50000" (φ := .f32) 0x37A7C5AC#32))) bitsLt_bf16_f32)
      (truncf .bf16 w bitsLt_bf16_f32) (constant S1x4 .f32 0x00000000#32))
    (shapeCast S1x4 bb shapeCasts_S1x4_S1x4)

/-- The kernel's logits at (p, q), for any accumulated row. -/
theorem kerLogits_apply (s : FVec Ideal S1x64 .f32) (w : FVec Ideal S64x4 .f32) (bb : FVec Ideal S1x4 .f32) (p : Fin 1) (q : Fin 4) :
    kerLogits s w bb (ix2 p q) = (∑ k : Fin 64, s (ix2 p k) * ((1 / 50000 : ℝ) : EReal) * w (ix2 k q)) + bb (ix2 p q) := by
  unfold kerLogits
  rw [shapeCast_self, addf_apply, matmul_fc_apply]
  refine congrArg (fun t => t + bb (ix2 p q)) (Finset.sum_congr rfl fun k _ => ?_)
  rw [truncf_apply, truncf_apply, mulf_apply, broadcast_apply, inv_50000]

/-- The reference's logits at (p, q). -/
theorem refLogits_apply (h : FVec Ideal S50000x64 .f32) (b2 : FVec Ideal S64 .f32) (w : FVec Ideal S64x4 .f32) (bfc : FVec Ideal S4 .f32) (p : Fin 1) (q : Fin 4) :
    refLogits h b2 w bfc (ix2 p q) = (∑ k : Fin 64, refMean h b2 (ix2 p k) * w (ix2 k q)) + bfc (ix1 q) := by
  unfold refLogits
  rw [addf_apply, dot_fc_apply, bcast_S4_S1x4_apply]

/-- Both sides have the same logits. -/
theorem logits_eq (h : FVec Ideal S50000x64 .f32) (b2 : FVec Ideal S64 .f32) (w : FVec Ideal S64x4 .f32) (bfc : FVec Ideal S4 .f32) :
    kerLogits (colsums h (shapeCast S1x64 b2 shapeCasts_S64_S1x64)) w (shapeCast S1x4 bfc shapeCasts_S4_S1x4) = refLogits h b2 w bfc := by
  funext j
  obtain ⟨p, q, rfl⟩ : ∃ (p : Fin 1) (q : Fin 4), j = ix2 p q := ⟨j 0, j 1, eq_ix2 j⟩
  rw [kerLogits_apply, refLogits_apply, cast_S4_S1x4_apply]
  refine congrArg (fun t => t + bfc (ix1 q)) (Finset.sum_congr rfl fun k _ => ?_)
  rw [colsums_apply, refMean_apply]

/-! ## The log-softmax of the one row -/

/-- The kernel's row maximum, laid along the row. -/
def kerMax (z : FVec Ideal S1x4 .f32) : FVec Ideal S1x4 .f32 :=
  broadcastTo S1x4 (shapeCast S1x1 (maximumf (broadcast S1 (Scalar.ofBits (F := Ideal) .f32 0xFF800000#32))
    (multiReduction .maximumf [1] S1 z 0xFF800000#32 reduces_S1x4_S1 (.inl rfl) rfl)) shapeCasts_S1_S1x1) broadcasts_S1x1_S1x4

/-- The kernel's logarithm of the row's sum of exponentials, laid along the row. -/
def kerLse (d : FVec Ideal S1x4 .f32) : FVec Ideal S1x4 .f32 :=
  broadcastTo S1x4 (log (shapeCast S1x1 (multiReduction .add [1] S1 (exp d) 0x00000000#32 reduces_S1x4_S1 (.inl rfl) rfl) shapeCasts_S1_S1x1)) broadcasts_S1x1_S1x4

/-- The two row maxima are the same fold of max from -∞ over the four entries. -/
theorem max_eq (z : FVec Ideal S1x4 .f32) : kerMax z = refMax z := by
  funext j
  unfold kerMax refMax
  rw [bto_S1x1_S1x4_apply, cast_S1_S1x1_apply, bcast_S1x1_S1x4_apply, bcast_S1_S1x1_apply]
  show max (Ideal.ofBits .f32 0xFF800000#32) (multiReduction .maximumf [1] S1 z 0xFF800000#32 reduces_S1x4_S1 (.inl rfl) rfl (ix1 (0 : Fin 1)))
    = max (Ideal.ofBits .f32 0xFF800000#32) (Host.reduce FloatOps.maximumf z (constant (F := Ideal) Cert.ReferenceIdeal.S_ .f32 0xFF800000#32) Cert.ReferenceIdeal.Gen.reducesTo_S1x4_S1_d1 Cert.ReferenceIdeal.Gen.h_S_ (ix1 (0 : Fin 1)))
  refine congrArg (max _) ?_
  refine (Ideal.multiReduction_maximumf_single z 0xFF800000#32 reduces_S1x4_S1 (.inl rfl) rfl (ix1 (0 : Fin 1))).trans ?_
  exact (Host.reduce_eq_fold_single FloatOps.maximumf z (constant (F := Ideal) Cert.ReferenceIdeal.S_ .f32 0xFF800000#32) Cert.ReferenceIdeal.Gen.reducesTo_S1x4_S1_d1 reduces_S1x4_S1 Cert.ReferenceIdeal.Gen.h_S_ (ix1 (0 : Fin 1))).symm

/-- The two logarithms of the row's sum of exponentials are the same. -/
theorem lse_eq (d : FVec Ideal S1x4 .f32) : kerLse d = refLse d := by
  funext j
  unfold kerLse refLse
  rw [bto_S1x1_S1x4_apply, bcast_S1x1_S1x4_apply]
  show Ideal.log (shapeCast S1x1 (multiReduction .add [1] S1 (exp d) 0x00000000#32 reduces_S1x4_S1 (.inl rfl) rfl) shapeCasts_S1_S1x1 (ix2 (0 : Fin 1) (0 : Fin 1)))
    = Ideal.log (broadcastInDim Cert.ReferenceIdeal.S1x1 ![0] Cert.ReferenceIdeal.Gen.bcast_S1_S1x1_0
        (Host.reduceAdd (F := Ideal) (Host.exp (F := Ideal) d) (constant (F := Ideal) Cert.ReferenceIdeal.S_ .f32 0x00000000#32) Cert.ReferenceIdeal.Gen.reducesTo_S1x4_S1_d1 Cert.ReferenceIdeal.Gen.h_S_) (ix2 (0 : Fin 1) (0 : Fin 1)))
  rw [cast_S1_S1x1_apply, bcast_S1_S1x1_apply]
  refine congrArg Ideal.log ?_
  refine (Ideal.multiReduction_add_single (exp d) 0x00000000#32 reduces_S1x4_S1 (.inl rfl) rfl (ix1 (0 : Fin 1))).trans ?_
  simp only [Host.reduceAdd, Ideal.hostReduceAdd_def]
  rw [Ideal.hostReduceAdd_single Cert.ReferenceIdeal.Gen.reducesTo_S1x4_S1_d1 reduces_S1x4_S1]
  show _ = Ideal.ofBits .f32 0x00000000#32 + _
  rw [Ideal.ofBits_zero_f32, zero_add]
  rfl

/-! ## The whole tail -/

/-- The kernel's last-step computation on the accumulated column sums is the reference's tail on the whole array. -/
theorem tail_eq_ref (h : Vec Ideal S50000x64 .f32) (b2 : Vec Ideal S64 .f32) (w : Vec Ideal S64x4 .f32) (bfc : Vec Ideal S4 .f32) :
    k2_pay3 (F := Ideal) (colsums h (shapeCast S1x64 b2 shapeCasts_S64_S1x64)) w (shapeCast S1x4 bfc shapeCasts_S4_S1x4)
      = refTail h b2 w bfc := by
  show subf (subf (kerLogits (colsums h (shapeCast S1x64 b2 shapeCasts_S64_S1x64)) w (shapeCast S1x4 bfc shapeCasts_S4_S1x4))
        (kerMax (kerLogits (colsums h (shapeCast S1x64 b2 shapeCasts_S64_S1x64)) w (shapeCast S1x4 bfc shapeCasts_S4_S1x4))))
      (kerLse (subf (kerLogits (colsums h (shapeCast S1x64 b2 shapeCasts_S64_S1x64)) w (shapeCast S1x4 bfc shapeCasts_S4_S1x4))
        (kerMax (kerLogits (colsums h (shapeCast S1x64 b2 shapeCasts_S64_S1x64)) w (shapeCast S1x4 bfc shapeCasts_S4_S1x4)))))
    = refTail h b2 w bfc
  rw [logits_eq, max_eq, lse_eq]
  rfl

end Cert.KernelIdeal.Hand

end
-- ==== Proof.KI.Result.lean ====
/-
  The kernel program's result buffer at the end of the fold of buffer contents is the reference's
  composed term, at the ideal instance: each pallas_call's output array is the reference's operation
  on the same operands (the broadcast product is a dot_general over a contracted axis of extent one;
  the row-blocked matrix product of the rectified, shifted features is one whole dot_general; the
  accumulated column sums, their product with 1/50000, the final linear map and the log-softmax are the
  reference's mean, dot_general and log-softmax), and the host operations between them are the same.
-/
import proofs.«127257_j88399016886916_1_alg».proof.Proof.KI.Host
import proofs.«127257_j88399016886916_1_alg».proof.Proof.KI.Val0
import proofs.«127257_j88399016886916_1_alg».proof.Proof.KI.Val1
import proofs.«127257_j88399016886916_1_alg».proof.Proof.KI.Val2
import proofs.«127257_j88399016886916_1_alg».proof.Proof.KI.Val2Ref

noncomputable section

namespace Cert.KernelIdeal.Hand

open Cert.KernelIdeal Cert.KernelIdeal.Gen Idealize.ShloMosaic Idealize.ShloMosaic.TcCoe Idealize.SL.Sem

/-- The reference's tail, spelt stage by stage, is its tail spelt as one composed function. -/
theorem refTail_eq_refHead (h : FVec Ideal S50000x64 .f32) (b2 : FVec Ideal S64 .f32) (w : FVec Ideal S64x4 .f32) (bfc : FVec Ideal S4 .f32) :
    refTail h b2 w bfc = Cert.ReferenceIdeal.HostSide.refHead (F := Ideal) h b2 w bfc := rfl

theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    X8 (F := Ideal) m c main_v61 = Cert.ReferenceIdeal.ValueP.res_main_v96 (F := Ideal) m' c :=
  result_eq_ref G0 G1 (fun h b w bf => k2_pay3 (F := Ideal) (colsums h b) w bf)
    (fun V c => final0 V c) (fun V c => final1 V c) (fun V c => final2 V c)
    (fun x w => G0_eq_ref x w) (fun h b1 w => G1_eq_ref h b1 w)
    (fun h b2 w bfc => (tail_eq_ref h b2 w bfc).trans (refTail_eq_refHead h b2 w bfc))
    m m' c hagree

end Cert.KernelIdeal.Hand

end
-- ==== Proof.lean ====
/-
  The certificate of a two-layer graph convolution network's forward pass: three pallas_calls
  (the broadcast product x·W1; relu(h + b1)·W2 on ten row blocks; the column sums of relu(h + b2)
  accumulated over ten row blocks in a scratch row, then mean, final linear map and log-softmax)
  between host gathers and scatter-adds, against the plain jnp reference.
  The three frames: both printed kernel programs run through one launch over @main's eight items
  (Proof/KB/Run.lean for the word-level program, Proof/KI/Run.lean for the idealized one), whose
  post names every unscoped buffer at the end; the reference's is its run with the result dropped.
  The idealization rewrote one constant: the reciprocal 1/50000. The value: at the ideal instance
  the kernel program's result buffer, read through the fold of buffer contents, is the reference's
  composed term — each pallas_call's array is the reference's operation on the same operands
  (a contracted axis of extent one is a product; a row-blocked matrix product is the whole product;
  ten partial column sums are the whole column sum, and a quotient by 50000 is the product with
  its reciprocal on every extended real), and the host operations in between are the same.
-/
import proofs.«127257_j88399016886916_1_alg».proof.Defs
import proofs.«127257_j88399016886916_1_alg».proof.Proof.Gen.Kernel
import proofs.«127257_j88399016886916_1_alg».proof.Proof.Gen.KernelIdeal
import proofs.«127257_j88399016886916_1_alg».proof.Proof.Gen.ReferenceIdeal
import proofs.«127257_j88399016886916_1_alg».proof.Proof.Gen.Pre_finite_inputs
import proofs.«127257_j88399016886916_1_alg».proof.Proof.KB.Run
import proofs.«127257_j88399016886916_1_alg».proof.Proof.KI.Run
import proofs.«127257_j88399016886916_1_alg».proof.Proof.RefRun
import proofs.«127257_j88399016886916_1_alg».proof.Proof.KI.Result
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Hand.frame (F := Bits) m ρ
theorem frame_pi : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: the named reciprocal denotes 1/50000. -/
theorem preserves : Cert.preserves_Kernel_KernelIdeal :=
  IdealRules.named_const.statement Cert.KernelIdeal.κ "inv_50000" .f32 0x37A7C5AC#32 ((1 / 50000 : ℝ) : EReal) rfl

/-- Both idealized programs run; the kernel program's result buffer ends at the fold's contents, which are the reference's term. -/
theorem algebraic : Cert.algebraic_KernelIdeal_ReferenceIdeal := by
  intro m ρ m' ρ' _ hagree
  refine ⟨fun c => Cert.KernelIdeal.Hand.X8 (F := Ideal) m c Cert.KernelIdeal.main_v61, ?_, ?_⟩
  · exact (θ_run Cert.KernelIdeal.defs _ _).mono (fun _ h c =>
      ⟨h c _ (Cert.KernelIdeal.Hand.mem_uc Cert.KernelIdeal.main_v61 (by decide)),
      (h c _ (Cert.KernelIdeal.Hand.mem_uc Cert.KernelIdeal.main_arg0 (by decide))).trans (Cert.KernelIdeal.Hand.X8_main_arg0 m c),
      (h c _ (Cert.KernelIdeal.Hand.mem_uc Cert.KernelIdeal.main_arg1 (by decide))).trans (Cert.KernelIdeal.Hand.X8_main_arg1 m c),
      (h c _ (Cert.KernelIdeal.Hand.mem_uc Cert.KernelIdeal.main_arg2 (by decide))).trans (Cert.KernelIdeal.Hand.X8_main_arg2 m c),
      (h c _ (Cert.KernelIdeal.Hand.mem_uc Cert.KernelIdeal.main_arg3 (by decide))).trans (Cert.KernelIdeal.Hand.X8_main_arg3 m c),
      (h c _ (Cert.KernelIdeal.Hand.mem_uc Cert.KernelIdeal.main_arg4 (by decide))).trans (Cert.KernelIdeal.Hand.X8_main_arg4 m c),
      (h c _ (Cert.KernelIdeal.Hand.mem_uc Cert.KernelIdeal.main_arg5 (by decide))).trans (Cert.KernelIdeal.Hand.X8_main_arg5 m c),
      (h c _ (Cert.KernelIdeal.Hand.mem_uc Cert.KernelIdeal.main_arg6 (by decide))).trans (Cert.KernelIdeal.Hand.X8_main_arg6 m c),
      (h c _ (Cert.KernelIdeal.Hand.mem_uc Cert.KernelIdeal.main_arg7 (by decide))).trans (Cert.KernelIdeal.Hand.X8_main_arg7 m c)⟩) (Cert.KernelIdeal.Hand.run_main (F := Ideal) m ρ)
  · exact (θ_run Cert.ReferenceIdeal.defs _ _).mono (fun _ h c =>
      ⟨(h c).1.trans (Cert.KernelIdeal.Hand.result_eq m m' c (hagree c)).symm, (h c).2⟩)
      (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
